-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30522x768 : Shape := ⟨2, ![30522, 768]⟩
abbrev S16x128x30522 : Shape := ⟨3, ![16, 128, 30522]⟩
abbrev S_ : Shape := ⟨0, ![]⟩

class Facts : Prop where
  bcast_S_S30522x768 : S_.BroadcastsInDim S30522x768 (![] : Fin 0 → Fin S30522x768.rank)
  reducesTo_S30522x768_S_d0_1 : S30522x768.ReducesTo [0, 1] S_
  h_S_ : 0 < S_.numel
  bcast_S_S16x128x30522 : S_.BroadcastsInDim S16x128x30522 (![] : Fin 0 → Fin S16x128x30522.rank)
  reducesTo_S16x128x30522_S_d0_1_2 : S16x128x30522.ReducesTo [0, 1, 2] S_

variable [Facts]

def fn {F : FTy → Type} [FloatOps F] (main_arg0 : FVec F S30522x768 .f32) (main_arg1 : FVec F S16x128x30522 .f32) : IVec S_ 1 :=
  let main_v0 : FVec F S30522x768 .f32 := Host.absf main_arg0
  let main_cst : FVec F S_ .f32 := constant S_ .f32 0x7F800000#32
  let main_v1 : FVec F S30522x768 .f32 := broadcastInDim S30522x768 ![] bcast_S_S30522x768 main_cst
  let main_v2 : IVec S30522x768 1 := cmpf .olt main_v0 main_v1
  let main_c : IVec S_ 1 := constantI S_ 1 1#1
  let main_v3 : IVec S_ 1 := (fun x v => Host.reduce IntOp.andi x v reducesTo_S30522x768_S_d0_1 h_S_) main_v2 main_c
  let main_v4 : FVec F S16x128x30522 .f32 := Host.absf main_arg1
  let main_cst_0 : FVec F S_ .f32 := constant S_ .f32 0x7F800000#32
  let main_v5 : FVec F S16x128x30522 .f32 := broadcastInDim S16x128x30522 ![] bcast_S_S16x128x30522 main_cst_0
  let main_v6 : IVec S16x128x30522 1 := cmpf .olt main_v4 main_v5
  let main_c_1 : IVec S_ 1 := constantI S_ 1 1#1
  let main_v7 : IVec S_ 1 := (fun x v => Host.reduce IntOp.andi x v reducesTo_S16x128x30522_S_d0_1_2 h_S_) main_v6 main_c_1
  let main_v8 : IVec S_ 1 := andi main_v3 main_v7
  main_v8
-- ==== Kernel.lean ====
abbrev S30522x768 : Shape := ⟨2, ![30522, 768]⟩
abbrev S16x128x30522 : Shape := ⟨3, ![16, 128, 30522]⟩
abbrev S16x128x18234 : Shape := ⟨3, ![16, 128, 18234]⟩
abbrev S2048x18234 : Shape := ⟨2, ![2048, 18234]⟩
abbrev S18234x768 : Shape := ⟨2, ![18234, 768]⟩
abbrev S16x128x768 : Shape := ⟨3, ![16, 128, 768]⟩
abbrev S16x128x2048 : Shape := ⟨3, ![16, 128, 2048]⟩
abbrev S2048x768 : Shape := ⟨2, ![2048, 768]⟩
abbrev S2048x2048 : Shape := ⟨2, ![2048, 2048]⟩

abbrev nBuf : Space → Nat
  | .hbm => 8
  | .vmem => 10
  | .smem => 0
  | _ => 0

abbrev bufTy : (tb : Table) → Fin (tcTables nBuf tb) → BufTy
  | .hbm, ⟨0, _⟩ => ⟨S30522x768, .f32⟩
  | .hbm, ⟨1, _⟩ => ⟨S16x128x30522, .f32⟩
  | .hbm, ⟨2, _⟩ => ⟨S16x128x18234, .f32⟩
  | .hbm, ⟨3, _⟩ => ⟨S2048x18234, .f32⟩
  | .hbm, ⟨4, _⟩ => ⟨S18234x768, .f32⟩
  | .hbm, ⟨5, _⟩ => ⟨S16x128x768, .f32⟩
  | .hbm, ⟨6, _⟩ => ⟨S16x128x768, .f32⟩
  | .hbm, ⟨7, _⟩ => ⟨S16x128x768, .f32⟩
  | .local _ .vmem, ⟨0, _⟩ => ⟨S16x128x2048, .f32⟩
  | .local _ .vmem, ⟨1, _⟩ => ⟨S16x128x2048, .f32⟩
  | .local _ .vmem, ⟨2, _⟩ => ⟨S2048x768, .f32⟩
  | .local _ .vmem, ⟨3, _⟩ => ⟨S2048x768, .f32⟩
  | .local _ .vmem, ⟨4, _⟩ => ⟨S16x128x768, .f32⟩
  | .local _ .vmem, ⟨5, _⟩ => ⟨S2048x2048, .f32⟩
  | .local _ .vmem, ⟨6, _⟩ => ⟨S2048x2048, .f32⟩
  | .local _ .vmem, ⟨7, _⟩ => ⟨S2048x768, .f32⟩
  | .local _ .vmem, ⟨8, _⟩ => ⟨S2048x768, .f32⟩
  | .local _ .vmem, ⟨9, _⟩ => ⟨S16x128x768, .f32⟩
  | _, _ => ⟨S30522x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c5_i32 : BitVec 32 := 5#32
  let v4 : BitVec 1 := Scalar.cmpi .slt arg0 c5_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c5_i32_3 : BitVec 32 := 5#32
  let v8 : BitVec 1 := Scalar.cmpi .eq arg0 c5_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![9], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let c8_i32 : BitVec 32 := 8#32
  let v4 : BitVec 1 := Scalar.cmpi .slt arg0 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k1_cond3 (i : grid1.Coords) : BitVec 1 :=
  let arg0 : BitVec 32 := BitVec.ofNat 32 (i 0).val
  let c8_i32_3 : BitVec 32 := 8#32
  let v8 : BitVec 1 := Scalar.cmpi .eq arg0 c8_i32_3
  let v9 : BitVec 32 := Scalar.extui v8
  let c0_i32_4 : BitVec 32 := 0#32
  let v10 : BitVec 1 := Scalar.cmpi .ne v9 c0_i32_4
  v10

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S16x128x30522_S16x128x18234_0_0_12288 : S16x128x30522.Slices ![0, 0, 12288] S16x128x18234
  shapeCasts_S16x128x18234_S2048x18234 : S16x128x18234.ShapeCasts S2048x18234
  slices_S30522x768_S18234x768_12288_0 : S30522x768.Slices ![12288, 0] S18234x768
  inb_S16x128x2048_S16x128x2048_0_0_0 : ∀ a, (![0, 0, 0] : Fin 3 → Nat) a + S16x128x2048.size a ≤ S16x128x2048.size a
  h_S16x128x2048 : 0 < S16x128x2048.numel
  shapeCasts_S16x128x2048_S2048x2048 : S16x128x2048.ShapeCasts S2048x2048
  inb_S2048x768_S2048x768_0_0 : ∀ a, (![0, 0] : Fin 2 → Nat) a + S2048x768.size a ≤ S2048x768.size a
  h_S2048x768 : 0 < S2048x768.numel
  bitsLt_bf16_f32 : FTy.bits .bf16 < FTy.bits .f32
  shapeCasts_S2048x768_S16x128x768 : S2048x768.ShapeCasts S16x128x768
  inb_S16x128x768_S16x128x768_0_0_0 : ∀ a, (![0, 0, 0] : Fin 3 → Nat) a + S16x128x768.size a ≤ S16x128x768.size a
  h_S16x128x768 : 0 < S16x128x768.numel
  shapeCasts_S16x128x768_S16x128x768 : S16x128x768.ShapeCasts S16x128x768
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S2048x768_S2048x768 : S2048x768.ShapeCasts S2048x768
  iota_S2048x2048_d1_w32 : S2048x2048.Iotas .tc 32 [1]
  iota_S2048x768_d0_w32 : S2048x768.Iotas .tc 32 [0]
  dot_S2048x2048_S2048x768_S2048x768_1_0_0_1_n_n_wf : DotDims.WF S2048x2048 S2048x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x128x2048.size a < S16x128x30522.size a
  hwx0_0 : ∀ i : grid0.Coords, EltTy.bits .f32 = 32 ∨ (Rect.unit (s := S16x128x30522) (fun a => cc0_transform_0 i a * S16x128x2048.size a) (fun a => (Pipeline.Clip.of (cc0_transform_0 i a) (S16x128x2048.size a) (S16x128x30522.size a)).extent (S16x128x2048.size a)) fun a => Pipeline.Clip.inb (Pipeline.Clip.ok_of (hstart0_0 i a))).WholeWords (EltTy.packing .f32)
  hwxs0_0 : ∀ i : grid0.Coords, EltTy.bits .f32 = 32 ∨ (Rect.unit (s := S16x128x2048) (fun _ => 0) (fun a => (Pipeline.Clip.of (cc0_transform_0 i a) (S16x128x2048.size a) (S16x128x30522.size a)).extent (S16x128x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x768.size a < S30522x768.size a
  hwx0_1 : ∀ i : grid0.Coords, EltTy.bits .f32 = 32 ∨ (Rect.unit (s := S30522x768) (fun a => cc0_transform_1 i a * S2048x768.size a) (fun a => (Pipeline.Clip.of (cc0_transform_1 i a) (S2048x768.size a) (S30522x768.size a)).extent (S2048x768.size a)) fun a => Pipeline.Clip.inb (Pipeline.Clip.ok_of (hstart0_1 i a))).WholeWords (EltTy.packing .f32)
  hwxs0_1 : ∀ i : grid0.Coords, EltTy.bits .f32 = 32 ∨ (Rect.unit (s := S2048x768) (fun _ => 0) (fun a => (Pipeline.Clip.of (cc0_transform_1 i a) (S2048x768.size a) (S30522x768.size a)).extent (S2048x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128x768.size a ≤ S16x128x768.size a
  hwx0_2 : ∀ i : grid0.Coords, EltTy.bits .f32 = 32 ∨ (Rect.block (s := S16x128x768) S16x128x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S2048x2048.size a < S2048x18234.size a
  hwx1_0 : ∀ i : grid1.Coords, EltTy.bits .f32 = 32 ∨ (Rect.unit (s := S2048x18234) (fun a => cc1_transform_0 i a * S2048x2048.size a) (fun a => (Pipeline.Clip.of (cc1_transform_0 i a) (S2048x2048.size a) (S2048x18234.size a)).extent (S2048x2048.size a)) fun a => Pipeline.Clip.inb (Pipeline.Clip.ok_of (hstart1_0 i a))).WholeWords (EltTy.packing .f32)
  hwxs1_0 : ∀ i : grid1.Coords, EltTy.bits .f32 = 32 ∨ (Rect.unit (s := S2048x2048) (fun _ => 0) (fun a => (Pipeline.Clip.of (cc1_transform_0 i a) (S2048x2048.size a) (S2048x18234.size a)).extent (S2048x2048.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x768.size a < S18234x768.size a
  hwx1_1 : ∀ i : grid1.Coords, EltTy.bits .f32 = 32 ∨ (Rect.unit (s := S18234x768) (fun a => cc1_transform_1 i a * S2048x768.size a) (fun a => (Pipeline.Clip.of (cc1_transform_1 i a) (S2048x768.size a) (S18234x768.size a)).extent (S2048x768.size a)) fun a => Pipeline.Clip.inb (Pipeline.Clip.ok_of (hstart1_1 i a))).WholeWords (EltTy.packing .f32)
  hwxs1_1 : ∀ i : grid1.Coords, EltTy.bits .f32 = 32 ∨ (Rect.unit (s := S2048x768) (fun _ => 0) (fun a => (Pipeline.Clip.of (cc1_transform_1 i a) (S2048x768.size a) (S18234x768.size a)).extent (S2048x768.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128x768.size a ≤ S16x128x768.size a
  hwx1_2 : ∀ i : grid1.Coords, EltTy.bits .f32 = 32 ∨ (Rect.block (s := S16x128x768) S16x128x768.size (cc1_transform_2 i) (hinb1_2 i)).WholeWords (EltTy.packing .f32)

variable [Facts₀]

def dot_S2048x2048_S2048x768_S2048x768_1_0_0_1_n_n : DotDims S2048x2048 S2048x768 S2048x768 where
  lhsContracting := [1]
  rhsContracting := [0]
  lhsNonContracting := [0]
  rhsNonContracting := [1]
  lhsBatch := []
  rhsBatch := []
  wf := dot_S2048x2048_S2048x768_S2048x768_1_0_0_1_n_n_wf

abbrev win0_0 : Pipeline.Window sig grid0 :=
  Pipeline.Window.ofSpecClip (Memref.whole main_arg1) S16x128x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S2048x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v3) S16x128x768.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

abbrev win1_0 : Pipeline.Window sig grid1 :=
  Pipeline.Window.ofSpecClip (Memref.whole main_v1) S2048x2048.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v2) S2048x768.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v4) S16x128x768.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) && !(k1_cond3 i == 1#1) | ⟨_ + 3, h⟩ => absurd h (Nat.not_lt.2 (Nat.le_add_left _ _))

class Facts : Prop extends Facts₀ where

variable [Facts]
-- ==== ReferenceIdeal.lean ====
abbrev S30522x768 : Shape := ⟨2, ![30522, 768]⟩
abbrev S16x128x30522 : Shape := ⟨3, ![16, 128, 30522]⟩
abbrev S2048x30522 : Shape := ⟨2, ![2048, 30522]⟩
abbrev S_ : Shape := ⟨0, ![]⟩
abbrev S2048x30720 : Shape := ⟨2, ![2048, 30720]⟩
abbrev S30720x768 : Shape := ⟨2, ![30720, 768]⟩
abbrev S2048x768 : Shape := ⟨2, ![2048, 768]⟩
abbrev S256x512 : Shape := ⟨2, ![256, 512]⟩
abbrev S512x768 : Shape := ⟨2, ![512, 768]⟩
abbrev S256x768 : Shape := ⟨2, ![256, 768]⟩
abbrev S16x128x768 : Shape := ⟨3, ![16, 128, 768]⟩

abbrev nBuf : Space → Nat
  | .hbm => 11
  | .vmem => 7
  | .smem => 0
  | _ => 0

abbrev bufTy : (tb : Table) → Fin (tcTables nBuf tb) → BufTy
  | .hbm, ⟨0, _⟩ => ⟨S30522x768, .f32⟩
  | .hbm, ⟨1, _⟩ => ⟨S16x128x30522, .f32⟩
  | .hbm, ⟨2, _⟩ => ⟨S2048x30522, .f32⟩
  | .hbm, ⟨3, _⟩ => ⟨S_, .i32⟩
  | .hbm, ⟨4, _⟩ => ⟨S_, .f32⟩
  | .hbm, ⟨5, _⟩ => ⟨S2048x30720, .f32⟩
  | .hbm, ⟨6, _⟩ => ⟨S_, .i32⟩
  | .hbm, ⟨7, _⟩ => ⟨S_, .f32⟩
  | .hbm, ⟨8, _⟩ => ⟨S30720x768, .f32⟩
  | .hbm, ⟨9, _⟩ => ⟨S2048x768, .f32⟩
  | .hbm, ⟨10, _⟩ => ⟨S16x128x768, .f32⟩
  | .local _ .vmem, ⟨0, _⟩ => ⟨S256x512, .f32⟩
  | .local _ .vmem, ⟨1, _⟩ => ⟨S256x512, .f32⟩
  | .local _ .vmem, ⟨2, _⟩ => ⟨S512x768, .f32⟩
  | .local _ .vmem, ⟨3, _⟩ => ⟨S512x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | _, _ => ⟨S30522x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 60], ![false, false, false]⟩

def k0_cond2 (i : grid0.Coords) : BitVec 1 :=
  let arg2 : BitVec 32 := BitVec.ofNat 32 (i 2).val
  let c59_i32 : BitVec 32 := 59#32
  let v13 : BitVec 1 := Scalar.cmpi .eq arg2 c59_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S16x128x30522_S2048x30522 : S16x128x30522.ShapeCasts S2048x30522
  pads_S2048x30522_S2048x30720_000_01980 : S2048x30522.Pads (![0, 0] : Fin 2 → Nat) ![0, 198] ![0, 0] S2048x30720
  h_S_ : 0 < S_.numel
  pads_S30522x768_S30720x768_01980_000 : S30522x768.Pads (![0, 0] : Fin 2 → Nat) ![198, 0] ![0, 0] S30720x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x768_S512x768_0_0 : ∀ a, (![0, 0] : Fin 2 → Nat) a + S512x768.size a ≤ S512x768.size a
  h_S512x768 : 0 < S512x768.numel
  shapeCasts_S512x768_S512x768 : S512x768.ShapeCasts S512x768
  shapeCasts_S2048x768_S16x128x768 : S2048x768.ShapeCasts S16x128x768
  dot_S256x512_S512x768_S256x768_1_0_0_1_n_n_wf : DotDims.WF S256x512 S512x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x30720.size a
  hwx0_0 : ∀ i : grid0.Coords, EltTy.bits .f32 = 32 ∨ (Rect.block (s := S2048x30720) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S30720x768.size a
  hwx0_1 : ∀ i : grid0.Coords, EltTy.bits .f32 = 32 ∨ (Rect.block (s := S30720x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S2048x768.size a
  hwx0_2 : ∀ i : grid0.Coords, EltTy.bits .f32 = 32 ∨ (Rect.block (s := S2048x768) S256x768.size (cc0_transform_2 i) (hinb0_2 i)).WholeWords (EltTy.packing .f32)

variable [Facts₀]

def dot_S256x512_S512x768_S256x768_1_0_0_1_n_n : DotDims S256x512 S512x768 S256x768 where
  lhsContracting := [1]
  rhsContracting := [0]
  lhsNonContracting := [0]
  rhsNonContracting := [1]
  lhsBatch := []
  rhsBatch := []
  wf := dot_S256x512_S512x768_S256x768_1_0_0_1_n_n_wf

abbrev win0_0 : Pipeline.Window sig grid0 :=
  Pipeline.Window.ofSpec (Memref.whole main_v1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.KbRegion0.lean ====
/-
  Region 0 of the kernel program (the first pallas_call: six K-tiles of 2048 taken straight from the two argument
  arrays), for any float family: the proof data of its pipeline at the buffer contents `V` the region is entered
  from, and the body obligation.

  The body at grid point k reads the mask tile x (16×128×2048) and the weight tile w (2048×768) and keeps the
  running product in the result's staging buffer, which is written back once, after the last point:
  at k = 0 it stores x·w, at every later k it adds x·w to what the point before left.
  Both input windows are declared with clipped edge blocks (30522 is no multiple of 2048), but none of the six
  blocks this grid visits reaches the array's end, so every fetch fills its staging buffer whole.
-/
import proofs.«176018_g2000002446326655_pallasbulk_315_16_alg».proof.Proof.Gen.Kernel.Launch
import proofs.«176018_g2000002446326655_pallasbulk_315_16_alg».proof.Proof.Gen.Kernel.Skeleton
import proofs.«176018_g2000002446326655_pallasbulk_315_16_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` (its part inside the array), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The zero word, the filler past an array's end that nothing reads. -/
def zfill (S : Shape) : S.Idx → Elt F .f32 := fun _ => Scalar.ofBits .f32 0#32

/-- The mask tile of point `t` as a whole staging buffer. -/
def xtile0 (c : Dev nD) (t : Fin cfg0.N) : Vec F S16x128x2048 .f32 :=
  win0_0.fill (grid0.coords t) (zfill S16x128x2048) (iblk0 V c 0 t)
/-- The weight tile of point `t` as a whole staging buffer. -/
def wtile0 (c : Dev nD) (t : Fin cfg0.N) : Vec F S2048x768 .f32 :=
  win0_1.fill (grid0.coords t) (zfill S2048x768) (iblk0 V c 1 t)

/-- The running product after point `n`: the first tile's product, then one more tile's product added per point
    (the last point's store is printed as a payload of its own, the same function). -/
def acc0 (c : Dev nD) : (n : ℕ) → n < cfg0.N → Vec F S16x128x768 .f32
  | 0, hn => k0_pay1 (xtile0 V c ⟨0, hn⟩) (wtile0 V c ⟨0, hn⟩)
  | n + 1, hn =>
    if n + 1 < 5 then k0_pay2 (acc0 c n (Nat.lt_of_succ_lt hn)) (xtile0 V c ⟨n + 1, hn⟩) (wtile0 V c ⟨n + 1, hn⟩)
    else k0_pay3 (acc0 c n (Nat.lt_of_succ_lt hn)) (xtile0 V c ⟨n + 1, hn⟩) (wtile0 V c ⟨n + 1, hn⟩)

/-- The proof data of pipeline 0 on core `c`: the arrays as the region finds them; after the body each input's
    buffer at its tile and the result's at the running product; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => xtile0 V c t
    | ⟨1, _⟩ => wtile0 V c t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = xtile0 V c t := by dsimp only [dat0]
theorem after0_1 (c : Dev nD) (t : Fin cfg0.N) : (dat0 V c).after 1 t = wtile0 V c t := by dsimp only [dat0]
theorem after0_2 (c : Dev nD) (t : Fin cfg0.N) : (dat0 V c).after 2 t = acc0 V c t.val t.isLt := by dsimp only [dat0]

/-! ## The conditions, the schedule and the cuts, decided over the six points -/

/-- The first `scf.if` is taken at the first point only, -/
theorem r0_cond_first_iff : ∀ t : Fin cfg0.N, k0_cond1 (grid0.coords t) = 1#1 ↔ t.val = 0 :=
  (by decide +kernel : ∀ t : Fin grid0.N, k0_cond1 (grid0.coords t) = 1#1 ↔ t.val = 0)
/-- the second at the four points strictly between the first and the last, -/
theorem r0_cond_mid_iff : ∀ t : Fin cfg0.N, k0_cond2 (grid0.coords t) = 1#1 ↔ (0 < t.val ∧ t.val < 5) :=
  (by decide +kernel : ∀ t : Fin grid0.N, k0_cond2 (grid0.coords t) = 1#1 ↔ (0 < t.val ∧ t.val < 5))
/-- the third at the last point only. -/
theorem r0_cond_last_iff : ∀ t : Fin cfg0.N, k0_cond3 (grid0.coords t) = 1#1 ↔ t.val = 5 :=
  (by decide +kernel : ∀ t : Fin grid0.N, k0_cond3 (grid0.coords t) = 1#1 ↔ t.val = 5)

/-- Exactly one of the three stores into the result's buffer at every point: it is never idle. -/
theorem r0_out_live : ∀ t : Fin cfg0.N, cfg0.idle 2 (grid0.coords t) = false := by decide +kernel
/-- None of the six mask blocks reaches the array's end: no fetch is cut. -/
theorem r0_x_uncut : ∀ (t : Fin cfg0.N) a, (cfg0.win 0).clip (grid0.coords t) a = none := by decide +kernel
/-- Nor is any of the six weight blocks. -/
theorem r0_w_uncut : ∀ (t : Fin cfg0.N) a, (cfg0.win 1).clip (grid0.coords t) a = none := by decide +kernel

/-- The zero offsets of a whole-buffer access, as a constant function. -/
theorem r0_offsets3 : (![0, 0, 0] : Fin 3 → Nat) = fun _ => 0 := funext fun a => by fin_cases a <;> rfl
theorem r0_offsets2 : (![0, 0] : Fin 2 → Nat) = fun _ => 0 := funext fun a => by fin_cases a <;> rfl

/-- One store through the whole result buffer covers it, whatever it stores. -/
theorem r0_store_covers (w : S16x128x768.Idx → Elt F .f32) (y : S16x128x768.Idx) :
    ∃ p ∈ [(⟨Rect.unit (s := S16x128x768) ![0, 0, 0] S16x128x768.size inb_S16x128x768_S16x128x768_0_0_0, w⟩ : View.Piece (Elt F) S16x128x768 .f32)],
      y ∈ p.1.set :=
  ⟨_, List.mem_singleton_self _, View.mem_set_unit_zero r0_offsets3 inb_S16x128x768_S16x128x768_0_0_0 y⟩

/-! ## The body on any whole staging memrefs, case by case -/

/-- AT THE FIRST POINT the body loads the mask tile and the weight tile and stores their product over whatever
    the result's buffer held: the inputs' buffers are left as they were, the result's holds `k0_pay1` of the two. -/
theorem r0_body_first (c : Dev nD) (i : grid0.Coords)
    (arg1 : Memref sig .tc .vmem S16x128x2048 .f32) (harg1 : arg1.IsWhole)
    (arg2 : Memref sig .tc .vmem S2048x768 .f32) (harg2 : arg2.IsWhole)
    (arg3 : Memref sig .tc .vmem S16x128x768 .f32) (harg3 : arg3.IsWhole)
    (hc1 : k0_cond1 i = 1#1) (hc2 : ¬ k0_cond2 i = 1#1) (hc3 : ¬ k0_cond3 i = 1#1)
    (x0 : Vec F S16x128x2048 .f32) (x1 : Vec F S2048x768 .f32) (E : Set ℕ) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
                ∗ owns (c : Thread nD τ) arg3 fullShare (k0_pay1 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, %hf2, H2⟩, Hk⟩
  obtain rfl := harg1.eq_unread hf0; obtain rfl := harg2.eq_unread hf1
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  -- the one store covers the buffer: what is read back is its payload, over what the two whole loads read
  rw [View.read_writes_eq_canon _ _ _ (r0_store_covers _),
    View.canon_unit_zero r0_offsets3]
  simp only [View.readAt_eq_ld, harg1.read_unread, harg2.read_unread, View.ld_unit_zero (S := S16x128x2048) r0_offsets3,
    View.ld_unit_zero (S := S2048x768) r0_offsets2]

/-- AT A MIDDLE POINT the body loads the running product the point before left in the result's buffer, the mask
    tile and the weight tile, and stores the running product with the tiles' product added: `k0_pay2`. -/
theorem r0_body_mid (c : Dev nD) (i : grid0.Coords)
    (arg1 : Memref sig .tc .vmem S16x128x2048 .f32) (harg1 : arg1.IsWhole)
    (arg2 : Memref sig .tc .vmem S2048x768 .f32) (harg2 : arg2.IsWhole)
    (arg3 : Memref sig .tc .vmem S16x128x768 .f32) (harg3 : arg3.IsWhole)
    (hc1 : ¬ k0_cond1 i = 1#1) (hc2 : k0_cond2 i = 1#1) (hc3 : ¬ k0_cond3 i = 1#1)
    (x0 : Vec F S16x128x2048 .f32) (x1 : Vec F S2048x768 .f32) (xo : Vec F S16x128x768 .f32) (E : Set ℕ) (K : PUnit → sProp 𝕄) :
    iprop(owns (c : Thread nD τ) arg1 fullShare x0 ∗ owns (c : Thread nD τ) arg2 fullShare x1
        ∗ owns (c : Thread nD τ) arg3 fullShare xo
        ∗ (iprop(owns (c : Thread nD τ) arg1 fullShare x0 ∗ owns (c : Thread nD τ) arg2 fullShare x1
                ∗ owns (c : Thread nD τ) arg3 fullShare (k0_pay2 xo x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (r0_store_covers _),
    View.canon_unit_zero r0_offsets3]
  simp only [View.readAt_eq_ld, harg1.read_unread, harg2.read_unread, harg3.read_unread,
    View.ld_unit_zero (S := S16x128x2048) r0_offsets3, View.ld_unit_zero (S := S2048x768) r0_offsets2,
    View.ld_unit_zero (S := S16x128x768) r0_offsets3]

/-- AT THE LAST POINT the same, the store's payload printed as a function of its own: `k0_pay3`. -/
theorem r0_body_last (c : Dev nD) (i : grid0.Coords)
    (arg1 : Memref sig .tc .vmem S16x128x2048 .f32) (harg1 : arg1.IsWhole)
    (arg2 : Memref sig .tc .vmem S2048x768 .f32) (harg2 : arg2.IsWhole)
    (arg3 : Memref sig .tc .vmem S16x128x768 .f32) (harg3 : arg3.IsWhole)
    (hc1 : ¬ k0_cond1 i = 1#1) (hc2 : ¬ k0_cond2 i = 1#1) (hc3 : k0_cond3 i = 1#1)
    (x0 : Vec F S16x128x2048 .f32) (x1 : Vec F S2048x768 .f32) (xo : Vec F S16x128x768 .f32) (E : Set ℕ) (K : PUnit → sProp 𝕄) :
    iprop(owns (c : Thread nD τ) arg1 fullShare x0 ∗ owns (c : Thread nD τ) arg2 fullShare x1
        ∗ owns (c : Thread nD τ) arg3 fullShare xo
        ∗ (iprop(owns (c : Thread nD τ) arg1 fullShare x0 ∗ owns (c : Thread nD τ) arg2 fullShare x1
                ∗ owns (c : Thread nD τ) arg3 fullShare (k0_pay3 xo x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (r0_store_covers _),
    View.canon_unit_zero r0_offsets3]
  simp only [View.readAt_eq_ld, harg1.read_unread, harg2.read_unread, harg3.read_unread,
    View.ld_unit_zero (S := S16x128x2048) r0_offsets3, View.ld_unit_zero (S := S2048x768) r0_offsets2,
    View.ld_unit_zero (S := S16x128x768) r0_offsets3]

/-! ## What the body finds in the staging buffers -/

/-- The mask window's buffer, fetched at every point, holds the point's tile whole: the fetch is not cut, so nothing
    of what the buffer held before it is left. -/
theorem r0_before_x (c : Dev nD) (t : Fin cfg0.N) (d) : (dat0 V c).before 0 t d = xtile0 V c t := by
  rw [(dat0 V c).before_fetched 0 t (fetch0_0 t) d,
    (dat0 V c).fetched_of_clip_none 0 t (r0_x_uncut t) d (zfill S16x128x2048)]
  unfold Dat.fetched Dat.blockOf xtile0 iblk0
  rw [A_eq0]
/-- The weight window's likewise. -/
theorem r0_before_w (c : Dev nD) (t : Fin cfg0.N) (d) : (dat0 V c).before 1 t d = wtile0 V c t := by
  rw [(dat0 V c).before_fetched 1 t (fetch0_1 t) d,
    (dat0 V c).fetched_of_clip_none 1 t (r0_w_uncut t) d (zfill S2048x768)]
  unfold Dat.fetched Dat.blockOf wtile0 iblk0
  rw [A_eq0]

/-- The result's buffer is written back only after the last point, is stored into at every point and is never cut:
    after the first point it holds the running product the point before left. -/
theorem r0_before_out (c : Dev nD) (t : Fin cfg0.N) (ht : t.val ≠ 0) (d) :
    (dat0 V c).before 2 t d = acc0 V c (t.val - 1) (Nat.lt_of_le_of_lt (Nat.sub_le _ _) t.isLt) := by
  have hN : t.val < 6 := lt_of_lt_of_eq t.isLt (show cfg0.N = 6 from N_0)
  have hfl : (cfg0.win 2).flush ⟨t.val - 1, Nat.lt_of_le_of_lt (Nat.sub_le _ _) t.isLt⟩ = false := by
    cases h : (cfg0.win 2).flush ⟨t.val - 1, Nat.lt_of_le_of_lt (Nat.sub_le _ _) t.isLt⟩ with
    | false => rfl
    | true => exfalso; have h5 := (flush0_2 _).mp h; dsimp only at h5; omega
  rw [(dat0 V c).before_of_pos 2 t ht ((cfg0.win 2).fetch_out rfl t) d, hfl, if_neg Bool.false_ne_true]
  unfold Dat.left; rw [r0_out_live]
  unfold Dat.kept
  rw [Pipeline.fill_of_clip_none (cfg := cfg0) 2 _ (fun _ => rfl) d ((dat0 V c).after 2 ⟨t.val - 1, Nat.lt_of_le_of_lt (Nat.sub_le _ _) t.isLt⟩),
    Window.fill_cut, after0_2]

/-! ## The running product, point by point -/

theorem r0_acc_first (c : Dev nD) (t : Fin cfg0.N) (h0 : t.val = 0) :
    acc0 V c t.val t.isLt = k0_pay1 (xtile0 V c t) (wtile0 V c t) := by
  obtain ⟨n, hn⟩ := t
  cases n with
  | zero => rfl
  | succ n => exact absurd h0 (Nat.succ_ne_zero n)

theorem r0_acc_mid (c : Dev nD) (t : Fin cfg0.N) (h0 : t.val ≠ 0) (h5 : t.val < 5) :
    acc0 V c t.val t.isLt
      = k0_pay2 (acc0 V c (t.val - 1) (Nat.lt_of_le_of_lt (Nat.sub_le _ _) t.isLt)) (xtile0 V c t) (wtile0 V c t) := by
  obtain ⟨n, hn⟩ := t
  cases n with
  | zero => exact absurd rfl h0
  | succ n => exact (if_pos h5).trans rfl

theorem r0_acc_last (c : Dev nD) (t : Fin cfg0.N) (h0 : t.val ≠ 0) (h5 : ¬t.val < 5) :
    acc0 V c t.val t.isLt
      = k0_pay3 (acc0 V c (t.val - 1) (Nat.lt_of_le_of_lt (Nat.sub_le _ _) t.isLt)) (xtile0 V c t) (wtile0 V c t) := by
  obtain ⟨n, hn⟩ := t
  cases n with
  | zero => exact absurd rfl h0
  | succ n => exact (if_neg h5).trans rfl

/-! ## The body obligation -/

/-- Each window's current staging memref at point `t`, as the pipeline passes it to the body, and its wholeness. -/
abbrev r0_mx (t : Fin cfg0.N) : Memref sig .tc .vmem S16x128x2048 .f32 := win0_0.stage (cfg0.slots t 0)
abbrev r0_hmx (t : Fin cfg0.N) : (r0_mx t).IsWhole := hstage0_0 ((cfg0.slots t 0).cast nbuf0_0)
abbrev r0_mw (t : Fin cfg0.N) : Memref sig .tc .vmem S2048x768 .f32 := win0_1.stage (cfg0.slots t 1)
abbrev r0_hmw (t : Fin cfg0.N) : (r0_mw t).IsWhole := hstage0_1 ((cfg0.slots t 1).cast nbuf0_1)
abbrev r0_mo (t : Fin cfg0.N) : Memref sig .tc .vmem S16x128x768 .f32 := win0_2.stage (cfg0.slots t 2)
abbrev r0_hmo (t : Fin cfg0.N) : (r0_mo t).IsWhole := hstage0_2 ((cfg0.slots t 2).cast nbuf0_2)

/-- What the body is called with at point `t`, the windows one by one, -/
def r0_bodyPre (c : Dev nD) (t : Fin cfg0.N) : sProp 𝕄 :=
  iprop((dat0 V c).Φ t.castSucc ∗ (dat0 V c).owesAt () t.castSucc
    ∗ (∃ d, owns (c : Thread nD τ) (r0_mx t) fullShare ((dat0 V c).before 0 t d))
    ∗ (∃ d, owns (c : Thread nD τ) (r0_mw t) fullShare ((dat0 V c).before 1 t d))
    ∗ (∃ d, owns (c : Thread nD τ) (r0_mo t) fullShare ((dat0 V c).before 2 t d)))

/-- and what it returns: every buffer at exactly the contents the proof data names. -/
def r0_bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point. The two input buffers hold the point's tiles; the point is the first, a middle or the last
    one, which decides the three conditions; at the first the result's buffer holds anything and is overwritten with
    the tiles' product, later it holds the running product of the point before, to which the tiles' product is added:
    in each case what the proof data names. The invariant and what the core owes pass through untouched. -/
theorem r0_sound_body (c : Dev nD) (t : Fin cfg0.N) :
    r0_bodyPre V c t ⊢ wp frame (wpE (defs₀ (F := F)) Variants.none c none) Set.univ (bodyAt0 t) (fun _ => r0_bodyPost V c t) := by
  unfold r0_bodyPre r0_bodyPost bodyAt0
  simp only [r0_before_x, r0_before_w]
  rw [show (dat0 V c).owesAt () t.succ = (dat0 V c).owesAt () t.castSucc from rfl,
    show (dat0 V c).Φ t.succ = (dat0 V c).Φ t.castSucc from rfl]
  rw [show (dat0 V c).leavesExact 0 t = owns (c : Thread nD τ) (r0_mx t) fullShare ((dat0 V c).after 0 t) from rfl, after0_0]
  rw [show (dat0 V c).leavesExact 1 t = owns (c : Thread nD τ) (r0_mw t) fullShare ((dat0 V c).after 1 t) from rfl, after0_1]
  rw [show (dat0 V c).leavesExact 2 t = owns (c : Thread nD τ) (r0_mo t) fullShare ((dat0 V c).after 2 t) from by
    unfold Dat.leavesExact; rw [r0_out_live t], after0_2]
  have hN : t.val < 6 := lt_of_lt_of_eq t.isLt (show cfg0.N = 6 from N_0)
  by_cases h0 : t.val = 0
  · -- the first point
    have hc1 : k0_cond1 (grid0.coords t) = 1#1 := (r0_cond_first_iff t).mpr h0
    have hc2 : ¬k0_cond2 (grid0.coords t) = 1#1 := fun h => by have := (r0_cond_mid_iff t).mp h; omega
    have hc3 : ¬k0_cond3 (grid0.coords t) = 1#1 := fun h => by have := (r0_cond_last_iff t).mp h; omega
    rw [r0_acc_first V c t h0]
    iintro ⟨HΦ, Ho, ⟨%d0, H0⟩, ⟨%d1, H1⟩, ⟨%d2, H2⟩⟩
    iapply (r0_body_first c (grid0.coords t) (r0_mx t) (r0_hmx t) (r0_mw t) (r0_hmw t) (r0_mo t) (r0_hmo t) hc1 hc2 hc3
      (xtile0 V c t) (wtile0 V c t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [r0_before_out V c t h0]
    have hc1 : ¬k0_cond1 (grid0.coords t) = 1#1 := fun h => h0 ((r0_cond_first_iff t).mp h)
    by_cases h5 : t.val < 5
    · -- a middle point
      have hc2 : k0_cond2 (grid0.coords t) = 1#1 := (r0_cond_mid_iff t).mpr ⟨Nat.pos_of_ne_zero h0, h5⟩
      have hc3 : ¬k0_cond3 (grid0.coords t) = 1#1 := fun h => by have := (r0_cond_last_iff t).mp h; omega
      rw [r0_acc_mid V c t h0 h5]
      iintro ⟨HΦ, Ho, ⟨%d0, H0⟩, ⟨%d1, H1⟩, ⟨%d2, H2⟩⟩
      iapply (r0_body_mid c (grid0.coords t) (r0_mx t) (r0_hmx t) (r0_mw t) (r0_hmw t) (r0_mo t) (r0_hmo t) hc1 hc2 hc3
        (xtile0 V c t) (wtile0 V c t) (acc0 V c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · -- the last point
      have hc2 : ¬k0_cond2 (grid0.coords t) = 1#1 := fun h => h5 ((r0_cond_mid_iff t).mp h).2
      have hc3 : k0_cond3 (grid0.coords t) = 1#1 := (r0_cond_last_iff t).mpr (by omega)
      rw [r0_acc_last V c t h0 h5]
      iintro ⟨HΦ, Ho, ⟨%d0, H0⟩, ⟨%d1, H1⟩, ⟨%d2, H2⟩⟩
      iapply (r0_body_last c (grid0.coords t) (r0_mx t) (r0_hmx t) (r0_mw t) (r0_hmw t) (r0_mo t) (r0_hmo t) hc1 hc2 hc3
        (xtile0 V c t) (wtile0 V c t) (acc0 V c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The body obligation with every buffer handed back at exactly the named contents: no block this grid visits is cut,
    so the tiles and the running product are stated whole. -/
theorem r0_body_obligation_exact (c : Dev nD) :
    BodyObligation (dat0 (F := F) V c) (defs₀ (F := F)) Variants.none () Set.univ := fun t => by
  rw [bigSep_W0, bigSep_W0]
  exact r0_sound_body V c t

/-- The library's body obligation at every point, in the form the launch of a pipeline with clipped windows takes. -/
theorem body_obligation0 (c : Dev nD) : BodyObligationLoose (dat0 (F := F) V c) (defs₀ (F := F)) Variants.none () Set.univ :=
  (r0_body_obligation_exact V c).loose

end Cert.Kernel.Hand

end
-- ==== Proof.KbRegion1.lean ====
/-
  Region 1 of the kernel program (the second pallas_call: the nine K-tiles of 2048 that cover the staged remainder
  of the contraction axis, columns 12288 to 30521 of the mask re-laid as 2048×18234 and the same rows of the weight), for any float family: the proof data of its pipeline at the buffer contents `V` the region is entered
  from, and the body obligation.

  The body at grid point k reads the mask tile x (2048×2048) and the weight tile w (2048×768) and keeps the
  running product in the result's staging buffer, which is written back once, after the last point:
  at k = 0 it stores x·w, at every later k it adds x·w to what the point before left.
  The last tile (k = 8) overhangs the arrays: only its first 1850 columns of x and rows of w lie inside, the fetch
  leaves the rest of the two staging buffers at words nothing names, and the body replaces exactly that rest by
  zeros (an iota compared with 1850, a select) before it multiplies, so what it adds does not depend on them.
-/
import proofs.«176018_g2000002446326655_pallasbulk_315_16_alg».proof.Proof.Gen.Kernel.Launch
import proofs.«176018_g2000002446326655_pallasbulk_315_16_alg».proof.Proof.Gen.Kernel.Skeleton
import proofs.«176018_g2000002446326655_pallasbulk_315_16_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` (its part inside the array), read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zero word, the filler past an array's end that nothing reads. -/
def zfill1 (S : Shape) : S.Idx → Elt F .f32 := fun _ => Scalar.ofBits .f32 0#32

/-- The mask tile of point `t` as a whole staging buffer. -/
def xtile1 (c : Dev nD) (t : Fin cfg1.N) : Vec F S2048x2048 .f32 :=
  win1_0.fill (grid1.coords t) (zfill1 S2048x2048) (iblk1 V c 0 t)
/-- The weight tile of point `t` as a whole staging buffer. -/
def wtile1 (c : Dev nD) (t : Fin cfg1.N) : Vec F S2048x768 .f32 :=
  win1_1.fill (grid1.coords t) (zfill1 S2048x768) (iblk1 V c 1 t)

/-- The running product after point `n`: the first tile's product, then one more tile's product added per point
    (the last point's store is printed as a payload of its own, the same function). -/
def acc1 (c : Dev nD) : (n : ℕ) → n < cfg1.N → Vec F S16x128x768 .f32
  | 0, hn => k1_pay1 (xtile1 V c ⟨0, hn⟩) (wtile1 V c ⟨0, hn⟩)
  | n + 1, hn =>
    if n + 1 < 8 then k1_pay2 (acc1 c n (Nat.lt_of_succ_lt hn)) (xtile1 V c ⟨n + 1, hn⟩) (wtile1 V c ⟨n + 1, hn⟩)
    else k1_pay3 (acc1 c n (Nat.lt_of_succ_lt hn)) (xtile1 V c ⟨n + 1, hn⟩) (wtile1 V c ⟨n + 1, hn⟩)

/-- The proof data of pipeline 1 on core `c`: the arrays as the region finds them; after the body each input's
    buffer at its tile and the result's at the running product; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => xtile1 V c t
    | ⟨1, _⟩ => wtile1 V c t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = xtile1 V c t := by dsimp only [dat1]
theorem after1_1 (c : Dev nD) (t : Fin cfg1.N) : (dat1 V c).after 1 t = wtile1 V c t := by dsimp only [dat1]
theorem after1_2 (c : Dev nD) (t : Fin cfg1.N) : (dat1 V c).after 2 t = acc1 V c t.val t.isLt := by dsimp only [dat1]

/-! ## The three conditions over the grid -/

/-- The first branch is taken at the first point only, -/
theorem cond1_iff : ∀ t : Fin cfg1.N, k1_cond1 (grid1.coords t) = 1#1 ↔ t.val = 0 :=
  (by decide +kernel : ∀ t : Fin grid1.N, k1_cond1 (grid1.coords t) = 1#1 ↔ t.val = 0)
/-- the second at the points strictly between the first and the last, -/
theorem cond2_iff : ∀ t : Fin cfg1.N, k1_cond2 (grid1.coords t) = 1#1 ↔ (0 < t.val ∧ t.val < 8) :=
  (by decide +kernel : ∀ t : Fin grid1.N, k1_cond2 (grid1.coords t) = 1#1 ↔ (0 < t.val ∧ t.val < 8))
/-- the third at the last point only. -/
theorem cond3_iff : ∀ t : Fin cfg1.N, k1_cond3 (grid1.coords t) = 1#1 ↔ t.val = 8 :=
  (by decide +kernel : ∀ t : Fin grid1.N, k1_cond3 (grid1.coords t) = 1#1 ↔ t.val = 8)

/-! ## The body on whole buffers, branch by branch -/

theorem zeros2 : (![0, 0] : Fin 2 → Nat) = fun _ => 0 := funext fun a => by fin_cases a <;> rfl
theorem zeros3 : (![0, 0, 0] : Fin 3 → Nat) = fun _ => 0 := funext fun a => by fin_cases a <;> rfl
/-- One store through the whole third buffer covers it. -/
theorem whole_store_covers (p : Vec F S16x128x768 .f32) (y : S16x128x768.Idx) :
    ∃ pc ∈ ([⟨Rect.unit (s := S16x128x768) ![0, 0, 0] S16x128x768.size inb_S16x128x768_S16x128x768_0_0_0, p⟩] : List (View.Piece (Elt F) S16x128x768 .f32)), y ∈ pc.1.set :=
  ⟨_, List.mem_singleton_self _, View.mem_set_unit_zero zeros3 inb_S16x128x768_S16x128x768_0_0_0 y⟩

set_option maxHeartbeats 1000000 in
/-- Where only the first branch is taken, the body on whole buffers holding `x0`, `x1` and anything leaves the inputs as
    they were and the product of the two tiles in the third: each load reads a whole buffer, the one store covers the
    third. -/
theorem body1_first (c : Dev nD) (E : Set ℕ) (i : grid1.Coords)
    (arg1 : Memref sig .tc .vmem S2048x2048 .f32) (harg1 : arg1.IsWhole) (arg2 : Memref sig .tc .vmem S2048x768 .f32) (harg2 : arg2.IsWhole)
    (arg3 : Memref sig .tc .vmem S16x128x768 .f32) (harg3 : arg3.IsWhole)
    (hc1 : k1_cond1 i = 1#1) (hc2 : ¬k1_cond2 i = 1#1) (hc3 : ¬k1_cond3 i = 1#1)
    (x0 : Vec F S2048x2048 .f32) (x1 : Vec F S2048x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (whole_store_covers _),
    View.canon_unit_zero zeros3]
  simp only [View.readAt_eq_ld, harg1.read_unread, harg2.read_unread, harg3.read_unread,
    View.ld_unit_zero (S := S2048x2048) zeros2, View.ld_unit_zero (S := S2048x768) zeros2, View.ld_unit_zero (S := S16x128x768) zeros3]

set_option maxHeartbeats 1000000 in
/-- Where only the second branch is taken, the third buffer, holding the running product `xo`, ends holding it with the
    tiles' product added. -/
theorem body1_middle (c : Dev nD) (E : Set ℕ) (i : grid1.Coords)
    (arg1 : Memref sig .tc .vmem S2048x2048 .f32) (harg1 : arg1.IsWhole) (arg2 : Memref sig .tc .vmem S2048x768 .f32) (harg2 : arg2.IsWhole)
    (arg3 : Memref sig .tc .vmem S16x128x768 .f32) (harg3 : arg3.IsWhole)
    (hc1 : ¬k1_cond1 i = 1#1) (hc2 : k1_cond2 i = 1#1) (hc3 : ¬k1_cond3 i = 1#1)
    (x0 : Vec F S2048x2048 .f32) (x1 : Vec F S2048x768 .f32) (xo : Vec F S16x128x768 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1
            ∗ owns (c : Thread nD τ) arg3 fullShare (k1_pay2 xo x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (whole_store_covers _),
    View.canon_unit_zero zeros3]
  simp only [View.readAt_eq_ld, harg1.read_unread, harg2.read_unread, harg3.read_unread,
    View.ld_unit_zero (S := S2048x2048) zeros2, View.ld_unit_zero (S := S2048x768) zeros2, View.ld_unit_zero (S := S16x128x768) zeros3]

set_option maxHeartbeats 1000000 in
/-- Where only the third branch is taken, the same with the masked product of the last, overhanging tile. -/
theorem body1_last (c : Dev nD) (E : Set ℕ) (i : grid1.Coords)
    (arg1 : Memref sig .tc .vmem S2048x2048 .f32) (harg1 : arg1.IsWhole) (arg2 : Memref sig .tc .vmem S2048x768 .f32) (harg2 : arg2.IsWhole)
    (arg3 : Memref sig .tc .vmem S16x128x768 .f32) (harg3 : arg3.IsWhole)
    (hc1 : ¬k1_cond1 i = 1#1) (hc2 : ¬k1_cond2 i = 1#1) (hc3 : k1_cond3 i = 1#1)
    (x0 : Vec F S2048x2048 .f32) (x1 : Vec F S2048x768 .f32) (xo : Vec F S16x128x768 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1
            ∗ owns (c : Thread nD τ) arg3 fullShare (k1_pay3 xo x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (whole_store_covers _),
    View.canon_unit_zero zeros3]
  simp only [View.readAt_eq_ld, harg1.read_unread, harg2.read_unread, harg3.read_unread,
    View.ld_unit_zero (S := S2048x2048) zeros2, View.ld_unit_zero (S := S2048x768) zeros2, View.ld_unit_zero (S := S16x128x768) zeros3]

/-! ## The schedule and the cuts over the grid -/

/-- The result's window is live at every point: one of the three branches stores into it. -/
theorem live1_2 : ∀ t : Fin cfg1.N, cfg1.idle 2 (grid1.coords t) = false :=
  (by decide +kernel : ∀ t : Fin grid1.N, cfg1.idle 2 (grid1.coords t) = false)
/-- The same over the coordinates. -/
theorem live1_2' : ∀ i : grid1.Coords, cfg1.idle 2 i = false := by decide +kernel
/-- The first eight tiles lie inside the arrays: their fetches are not cut. -/
theorem uncut1_0 : ∀ t : Fin cfg1.N, t.val < 8 → ∀ a, (cfg1.win 0).clip (grid1.coords t) a = none :=
  (by decide +kernel : ∀ t : Fin grid1.N, t.val < 8 → ∀ a, win1_0.clip (grid1.coords t) a = none)
theorem uncut1_1 : ∀ t : Fin cfg1.N, t.val < 8 → ∀ a, (cfg1.win 1).clip (grid1.coords t) a = none :=
  (by decide +kernel : ∀ t : Fin grid1.N, t.val < 8 → ∀ a, win1_1.clip (grid1.coords t) a = none)
/-- The last tile is cut to its first 1850 columns of the mask and rows of the weight; the other axis is whole. -/
theorem xsize1_0_last : ∀ t : Fin cfg1.N, t.val = 8 → win1_0.xsize (grid1.coords t) 0 = 2048 ∧ win1_0.xsize (grid1.coords t) 1 = 1850 :=
  (by decide +kernel : ∀ t : Fin grid1.N, t.val = 8 → win1_0.xsize (grid1.coords t) 0 = 2048 ∧ win1_0.xsize (grid1.coords t) 1 = 1850)
theorem xsize1_1_last : ∀ t : Fin cfg1.N, t.val = 8 → win1_1.xsize (grid1.coords t) 0 = 1850 ∧ win1_1.xsize (grid1.coords t) 1 = 768 :=
  (by decide +kernel : ∀ t : Fin grid1.N, t.val = 8 → win1_1.xsize (grid1.coords t) 0 = 1850 ∧ win1_1.xsize (grid1.coords t) 1 = 768)

/-! ## What the body finds in the staging buffers -/

/-- An input's buffer, fetched at every point, holds the tile's part inside the array on the part the fetch fills and
    whatever filler `d` elsewhere. -/
theorem before1_0 (c : Dev nD) (t : Fin cfg1.N) (d) :
    (dat1 V c).before 0 t d = win1_0.fill (grid1.coords t) d (iblk1 V c 0 t) :=
  ((dat1 V c).before_fetched 0 t (fetch1_0 t) d).trans (by unfold Dat.fetched Dat.blockOf iblk1; rw [A_eq1]; try rfl)
theorem before1_1 (c : Dev nD) (t : Fin cfg1.N) (d) :
    (dat1 V c).before 1 t d = win1_1.fill (grid1.coords t) d (iblk1 V c 1 t) :=
  ((dat1 V c).before_fetched 1 t (fetch1_1 t) d).trans (by unfold Dat.fetched Dat.blockOf iblk1; rw [A_eq1]; try rfl)

/-- The result's buffer holds anything at the first point, -/
theorem before1_2_first (c : Dev nD) (t : Fin cfg1.N) (ht : t.val = 0) (d) : (dat1 V c).before 2 t d = d :=
  (dat1 V c).before_out_reset 2 rfl t (.inl ht) d
/-- and at every later point the running product the point before left: it is written back after the last point only. -/
theorem before1_2_later (c : Dev nD) (t : Fin cfg1.N) (ht : t.val ≠ 0) (d) :
    (dat1 V c).before 2 t d = acc1 V c (t.val - 1) (Nat.lt_of_le_of_lt (Nat.sub_le _ _) t.isLt) :=
  ((dat1 V c).before_out_kept 2 rfl t ht
    (by
      have hN : t.val < 9 := lt_of_lt_of_eq t.isLt (show cfg1.N = 9 from N_1)
      cases hfl : (cfg1.win 2).flush ⟨t.val - 1, Nat.lt_of_le_of_lt (Nat.sub_le _ _) t.isLt⟩
      · rfl
      · have := (flush1_2 _).mp hfl; dsimp only at this; omega)
    live1_2' (fun _ _ => rfl) d).trans (after1_2 V c _)

/-! ## The mask of the last, overhanging tile -/

/-- A coordinate of a 2048-long axis compared with 1850, as the kernel's signed 32-bit compare computes it. -/
theorem lt1850_bit (n : ℕ) (hn : n < 2048) : IntOp.cmpi .slt (BitVec.ofNat 32 n) 1850#32 = if n < 1850 then 1#1 else 0#1 :=
  (by decide +kernel : ∀ n : Fin 2048, IntOp.cmpi .slt (BitVec.ofNat 32 n.val) 1850#32 = if n.val < 1850 then 1#1 else 0#1) ⟨n, hn⟩

/-- A select on a clear bit takes its second operand. -/
theorem select_clear_bit {α : Type} (a b : α) : Scalar.select 0#1 a b = b := if_neg (by decide)

/-- The mask tile with its columns from 1850 on replaced by a constant does not depend on what filled the staging buffer
    past the 1850 columns the cut fetch lands: an index the fetch fills reads the fetched block under both fillers, and
    at any other index the column is at least 1850, the mask bit is clear and the select yields the constant. -/
theorem maskx_fill (i : grid1.Coords) (h0 : win1_0.xsize i 0 = 2048) (h1 : win1_0.xsize i 1 = 1850)
    (d d' : S2048x2048.Idx → Elt F .f32) (g : (win1_0.xblock i).Idx → Elt F .f32) (z : F .f32) :
    select (cmpi .slt (iota .tc S2048x2048 32 [1] iota_S2048x2048_d1_w32) (broadcast S2048x2048 1850#32)) (win1_0.fill i d g) (broadcast S2048x2048 z)
      = select (cmpi .slt (iota .tc S2048x2048 32 [1] iota_S2048x2048_d1_w32) (broadcast S2048x2048 1850#32)) (win1_0.fill i d' g) (broadcast S2048x2048 z) := by
  funext j
  show Scalar.select _ _ _ = Scalar.select _ _ _
  by_cases hm : win1_0.moved i j = true
  · have e : win1_0.fill i d g j = win1_0.fill i d' g j := by unfold Window.fill; rw [dif_pos hm, dif_pos hm]
    rw [e]
  · have hb : cmpi .slt (iota .tc S2048x2048 32 [1] iota_S2048x2048_d1_w32) (broadcast S2048x2048 1850#32) j = 0#1 := by
      show IntOp.cmpi .slt (iota .tc S2048x2048 32 [1] iota_S2048x2048_d1_w32 j) 1850#32 = 0#1
      rw [iota_single_apply]
      have hj0 : (j 0).val < 2048 := (j 0).isLt
      have hj1 : (j 1).val < 2048 := (j 1).isLt
      rw [lt1850_bit _ hj1, if_neg]
      intro hlt
      refine hm ((win1_0.moved_iff i j).mpr (Fin.forall_fin_two.mpr ⟨?_, ?_⟩))
      · rw [h0]; exact hj0
      · rw [h1]; exact hlt
    rw [hb, select_clear_bit, select_clear_bit]

/-- The same for the weight tile, cut to its first 1850 rows. -/
theorem maskw_fill (i : grid1.Coords) (h0 : win1_1.xsize i 0 = 1850) (h1 : win1_1.xsize i 1 = 768)
    (d d' : S2048x768.Idx → Elt F .f32) (g : (win1_1.xblock i).Idx → Elt F .f32) (z : F .f32) :
    select (cmpi .slt (iota .tc S2048x768 32 [0] iota_S2048x768_d0_w32) (broadcast S2048x768 1850#32)) (win1_1.fill i d g) (broadcast S2048x768 z)
      = select (cmpi .slt (iota .tc S2048x768 32 [0] iota_S2048x768_d0_w32) (broadcast S2048x768 1850#32)) (win1_1.fill i d' g) (broadcast S2048x768 z) := by
  funext j
  show Scalar.select _ _ _ = Scalar.select _ _ _
  by_cases hm : win1_1.moved i j = true
  · have e : win1_1.fill i d g j = win1_1.fill i d' g j := by unfold Window.fill; rw [dif_pos hm, dif_pos hm]
    rw [e]
  · have hb : cmpi .slt (iota .tc S2048x768 32 [0] iota_S2048x768_d0_w32) (broadcast S2048x768 1850#32) j = 0#1 := by
      show IntOp.cmpi .slt (iota .tc S2048x768 32 [0] iota_S2048x768_d0_w32 j) 1850#32 = 0#1
      rw [iota_single_apply]
      have hj0 : (j 0).val < 2048 := (j 0).isLt
      have hj1 : (j 1).val < 768 := (j 1).isLt
      rw [lt1850_bit _ hj0, if_neg]
      intro hlt
      refine hm ((win1_1.moved_iff i j).mpr (Fin.forall_fin_two.mpr ⟨?_, ?_⟩))
      · rw [h0]; exact hlt
      · rw [h1]; exact hj1
    rw [hb, select_clear_bit, select_clear_bit]

/-- The last point's payload reads each tile only through its masked form. -/
theorem k1_pay3_congr (xo : Vec F S16x128x768 .f32) (x x' : Vec F S2048x2048 .f32) (w w' : Vec F S2048x768 .f32)
    (hx : select (cmpi .slt (iota .tc S2048x2048 32 [1] iota_S2048x2048_d1_w32) (broadcast S2048x2048 1850#32)) x (broadcast S2048x2048 (Scalar.ofBits .f32 0x00000000#32 : F .f32))
      = select (cmpi .slt (iota .tc S2048x2048 32 [1] iota_S2048x2048_d1_w32) (broadcast S2048x2048 1850#32)) x' (broadcast S2048x2048 (Scalar.ofBits .f32 0x00000000#32 : F .f32)))
    (hw : select (cmpi .slt (iota .tc S2048x768 32 [0] iota_S2048x768_d0_w32) (broadcast S2048x768 1850#32)) w (broadcast S2048x768 (Scalar.ofBits .f32 0x00000000#32 : F .f32))
      = select (cmpi .slt (iota .tc S2048x768 32 [0] iota_S2048x768_d0_w32) (broadcast S2048x768 1850#32)) w' (broadcast S2048x768 (Scalar.ofBits .f32 0x00000000#32 : F .f32))) :
    k1_pay3 xo x w = k1_pay3 xo x' w' := by
  unfold k1_pay3
  dsimp only
  rw [shapeCast_self x, shapeCast_self x', shapeCast_self w, shapeCast_self w', hx, hw]

/-! ## The tiles and the running product, point by point -/

/-- The part of a tile the fetch lands is the array's block, whatever fills the rest. -/
theorem xtile1_cut (c : Dev nD) (t : Fin cfg1.N) : win1_0.cut (grid1.coords t) (xtile1 V c t) = iblk1 V c 0 t :=
  win1_0.cut_fill _ _ _
theorem wtile1_cut (c : Dev nD) (t : Fin cfg1.N) : win1_1.cut (grid1.coords t) (wtile1 V c t) = iblk1 V c 1 t :=
  win1_1.cut_fill _ _ _

/-- A tile that lies inside the array fills the whole staging buffer: the filler plays no part. -/
theorem xtile1_of_uncut (c : Dev nD) (t : Fin cfg1.N) (ht : t.val < 8) (d : S2048x2048.Idx → Elt F .f32) :
    xtile1 V c t = win1_0.fill (grid1.coords t) d (iblk1 V c 0 t) := by
  unfold xtile1
  exact Pipeline.fill_of_clip_none (cfg := cfg1) 0 (grid1.coords t) (uncut1_0 t ht) _ _ _
theorem wtile1_of_uncut (c : Dev nD) (t : Fin cfg1.N) (ht : t.val < 8) (d : S2048x768.Idx → Elt F .f32) :
    wtile1 V c t = win1_1.fill (grid1.coords t) d (iblk1 V c 1 t) := by
  unfold wtile1
  exact Pipeline.fill_of_clip_none (cfg := cfg1) 1 (grid1.coords t) (uncut1_1 t ht) _ _ _

/-- The running product at the first point, -/
theorem acc1_first (c : Dev nD) (t : Fin cfg1.N) (h0 : t.val = 0) :
    acc1 V c t.val t.isLt = k1_pay1 (xtile1 V c t) (wtile1 V c t) := by
  obtain ⟨n, hn⟩ := t
  cases n with
  | zero => exact rfl
  | succ n => exact absurd h0 (Nat.succ_ne_zero n)
/-- at a point strictly between the first and the last, -/
theorem acc1_middle (c : Dev nD) (t : Fin cfg1.N) (h0 : t.val ≠ 0) (h8 : t.val < 8) :
    acc1 V c t.val t.isLt
      = k1_pay2 (acc1 V c (t.val - 1) (Nat.lt_of_le_of_lt (Nat.sub_le _ _) t.isLt)) (xtile1 V c t) (wtile1 V c t) := by
  obtain ⟨n, hn⟩ := t
  cases n with
  | zero => exact absurd rfl h0
  | succ n => exact (if_pos h8).trans rfl
/-- and at the last point. -/
theorem acc1_last (c : Dev nD) (t : Fin cfg1.N) (h8 : t.val = 8) :
    acc1 V c t.val t.isLt
      = k1_pay3 (acc1 V c (t.val - 1) (Nat.lt_of_le_of_lt (Nat.sub_le _ _) t.isLt)) (xtile1 V c t) (wtile1 V c t) := by
  obtain ⟨n, hn⟩ := t
  cases n with
  | zero => exact absurd h8 (show ¬(0 : ℕ) = 8 by decide)
  | succ n => exact (if_neg (by dsimp only at h8; omega)).trans rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each input's buffer stated on the part its fetch lands, the result's exactly. -/
def bodyPost1 (c : Dev nD) (t : Fin cfg1.N) : sProp 𝕄 :=
  iprop((dat1 V c).Φ t.succ ∗ (dat1 V c).owesAt () t.succ
    ∗ (dat1 V c).leaves 0 t ∗ (dat1 V c).leaves 1 t ∗ (dat1 V c).leaves 2 t)

set_option maxHeartbeats 1600000 in
/-- The body at any point. The inputs' buffers hold their tiles, filled out past the array's end with words nothing
    names; the closed forms of the conditions say which branch the point takes; the result's buffer holds anything at
    the first point and the running product of the point before afterwards. The inputs go back untouched, which is all
    the obligation asks of a window whose fetch may be cut; the result's buffer ends at the running product: for the
    first eight points because an uncut fetch leaves no filler, for the last because the body masks the filler away. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V]
  rw [show (dat1 V c).Φ t.succ = (dat1 V c).Φ t.castSucc from rfl,
    show (dat1 V c).owesAt () t.succ = (dat1 V c).owesAt () t.castSucc from rfl]
  rw [show (dat1 V c).leaves 0 t = iprop(∃ d, owns (c : Thread nD τ) (st1_0 t) fullShare
      (win1_0.fill (grid1.coords t) d (win1_0.cut (grid1.coords t) ((dat1 V c).after 0 t)))) from rfl, after1_0, xtile1_cut]
  rw [show (dat1 V c).leaves 1 t = iprop(∃ d, owns (c : Thread nD τ) (st1_1 t) fullShare
      (win1_1.fill (grid1.coords t) d (win1_1.cut (grid1.coords t) ((dat1 V c).after 1 t)))) from rfl, after1_1, wtile1_cut]
  rw [show (dat1 V c).leaves 2 t = owns (c : Thread nD τ) (st1_2 t) fullShare ((dat1 V c).after 2 t) from by
    unfold Dat.leaves; rw [live1_2 t], after1_2]
  have hN : t.val < 9 := lt_of_lt_of_eq t.isLt (show cfg1.N = 9 from N_1)
  by_cases h0 : t.val = 0
  · have hc1 : k1_cond1 (grid1.coords t) = 1#1 := (cond1_iff t).mpr h0
    have hc2 : ¬k1_cond2 (grid1.coords t) = 1#1 := fun h => by have := (cond2_iff t).mp h; omega
    have hc3 : ¬k1_cond3 (grid1.coords t) = 1#1 := fun h => by have := (cond3_iff t).mp h; omega
    rw [acc1_first V c t h0]
    iintro ⟨HΦ, Ho, ⟨%d0, H0⟩, ⟨%d1, H1⟩, ⟨%d2, H2⟩⟩
    iapply (body1_first c Set.univ (grid1.coords t) _ _ _ _ _ _ hc1 hc2 hc3
      (win1_0.fill (grid1.coords t) d0 (iblk1 V c 0 t)) (win1_1.fill (grid1.coords t) d1 (iblk1 V c 1 t)) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexists d0; iexact H0
    isplitl [H1]; · iexists d1; iexact H1
    rw [xtile1_of_uncut V c t (by omega) d0, wtile1_of_uncut V c t (by omega) d1]
    iexact H2
  · simp only [before1_2_later V c t h0]
    by_cases h8 : t.val < 8
    · have hc1 : ¬k1_cond1 (grid1.coords t) = 1#1 := fun h => h0 ((cond1_iff t).mp h)
      have hc2 : k1_cond2 (grid1.coords t) = 1#1 := (cond2_iff t).mpr ⟨Nat.pos_of_ne_zero h0, h8⟩
      have hc3 : ¬k1_cond3 (grid1.coords t) = 1#1 := fun h => by have := (cond3_iff t).mp h; omega
      rw [acc1_middle V c t h0 h8]
      iintro ⟨HΦ, Ho, ⟨%d0, H0⟩, ⟨%d1, H1⟩, ⟨%d2, H2⟩⟩
      iapply (body1_middle c Set.univ (grid1.coords t) _ _ _ _ _ _ hc1 hc2 hc3
        (win1_0.fill (grid1.coords t) d0 (iblk1 V c 0 t)) (win1_1.fill (grid1.coords t) d1 (iblk1 V c 1 t))
        (acc1 V c (t.val - 1) (Nat.lt_of_le_of_lt (Nat.sub_le _ _) t.isLt)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      rw [xtile1_of_uncut V c t h8 d0, wtile1_of_uncut V c t h8 d1]
      iexact H2
    · have h8' : t.val = 8 := by omega
      have hc1 : ¬k1_cond1 (grid1.coords t) = 1#1 := fun h => h0 ((cond1_iff t).mp h)
      have hc2 : ¬k1_cond2 (grid1.coords t) = 1#1 := fun h => h8 ((cond2_iff t).mp h).2
      have hc3 : k1_cond3 (grid1.coords t) = 1#1 := (cond3_iff t).mpr h8'
      rw [acc1_last V c t h8']
      iintro ⟨HΦ, Ho, ⟨%d0, H0⟩, ⟨%d1, H1⟩, ⟨%d2, H2⟩⟩
      iapply (body1_last c Set.univ (grid1.coords t) _ _ _ _ _ _ hc1 hc2 hc3
        (win1_0.fill (grid1.coords t) d0 (iblk1 V c 0 t)) (win1_1.fill (grid1.coords t) d1 (iblk1 V c 1 t))
        (acc1 V c (t.val - 1) (Nat.lt_of_le_of_lt (Nat.sub_le _ _) t.isLt)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      rw [show k1_pay3 (acc1 V c (t.val - 1) (Nat.lt_of_le_of_lt (Nat.sub_le _ _) t.isLt)) (xtile1 V c t) (wtile1 V c t)
          = k1_pay3 (acc1 V c (t.val - 1) (Nat.lt_of_le_of_lt (Nat.sub_le _ _) t.isLt))
              (win1_0.fill (grid1.coords t) d0 (iblk1 V c 0 t)) (win1_1.fill (grid1.coords t) d1 (iblk1 V c 1 t)) from
        k1_pay3_congr _ _ _ _ _
          (maskx_fill (grid1.coords t) (xsize1_0_last t h8').1 (xsize1_0_last t h8').2 _ _ _ _)
          (maskw_fill (grid1.coords t) (xsize1_1_last t h8').1 (xsize1_1_last t h8').2 _ _ _ _)]
      iexact H2

/-- The library's body obligation at every point, in the form the launch of a pipeline with clipped windows takes. -/
theorem body_obligation1 (c : Dev nD) : BodyObligationLoose (dat1 (F := F) V c) (defs₀ (F := F)) Variants.none () Set.univ := fun t => by
  rw [bigSep_W1, bigSep_W1]
  exact sound_body1 V c t

end Cert.Kernel.Hand

end
-- ==== Proof.KbRun.lean ====
/-
  The run of the kernel program, for any float family: @main is a stretch of host operations (the two slices and the
  reshape that stage the remainder of the contraction axis), the two pallas_calls one after the other, and the host
  addition of their results. The buffer contents at every boundary between these four items are named as a fold
  from the launch memory, each pipeline's proof data is taken at the contents its region is entered from, and the
  launch of the whole program gives: every weakly fair execution terminates, the result buffer ends at the sum of
  the two regions' running products after their last points, and the two argument arrays end as launched.
-/
import proofs.«176018_g2000002446326655_pallasbulk_315_16_alg».proof.Proof.KbRegion0
import proofs.«176018_g2000002446326655_pallasbulk_315_16_alg».proof.Proof.KbRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the staging host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- After the closing host addition. -/
abbrev W4 : Dev nD → Valuation τ sig (Elt F) := fun c => StableHlo.after hostOps2 (W3 m ρ c)

/-! ## What each boundary holds -/

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No staging host operation writes a buffer other than its own result. -/
theorem W1_of_not_written (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne h0, StableHlo.devRef_ne_of_ne h1, StableHlo.devRef_ne_of_ne h2⟩))
/-- The closing host addition writes only the result. -/
theorem W4_of_not_written (c : Dev nD) (b : Ref sig .tc) (h5 : b ≠ main_v5) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.reshape_writes, Finset.mem_singleton]
    exact StableHlo.devRef_ne_of_ne h5))

/-- The staging host operations write no argument. -/
theorem V1_arg0 (c : Dev nD) : V1 m ρ c main_arg0 = m ((c : Thread nD τ).loc main_arg0) :=
  W1_of_not_written m ρ c main_arg0 (by decide) (by decide) (by decide)
theorem V1_arg1 (c : Dev nD) : V1 m ρ c main_arg1 = m ((c : Thread nD τ).loc main_arg1) :=
  W1_of_not_written m ρ c main_arg1 (by decide) (by decide) (by decide)
/-- Region 1 reads the staged operands as the host operations left them: region 0 writes neither. -/
theorem V2_v1 (c : Dev nD) : V2 m ρ c main_v1 = V1 m ρ c main_v1 := W2_of_ne m ρ c main_v1 (by decide)
theorem V2_v2 (c : Dev nD) : V2 m ρ c main_v2 = V1 m ρ c main_v2 := W2_of_ne m ρ c main_v2 (by decide)
/-- Region 1's result array after its write-backs. -/
theorem W3_v4 (c : Dev nD) : W3 m ρ c (Proc.devRef .tc main_v4) = (dat1 (V2 m ρ) c).arrAt 2 cfg1.N := W3_arr m ρ c 2
/-- Region 0's result array after its write-backs, untouched by region 1. -/
theorem W3_v3 (c : Dev nD) : W3 m ρ c (Proc.devRef .tc main_v3) = (dat0 (V1 m ρ) c).arrAt 2 cfg0.N :=
  (W3_of_ne m ρ c main_v3 (by decide)).trans (W2_arr m ρ c 2)
/-- The result is the host sum of the two regions' results. -/
theorem W4_v5 (c : Dev nD) : (W4 m ρ c (Proc.devRef .tc main_v5) : Vec F S16x128x768 .f32)
    = addf (W3 m ρ c (Proc.devRef .tc main_v3) : Vec F S16x128x768 .f32) (W3 m ρ c (Proc.devRef .tc main_v4)) := by
  show StableHlo.after hostOps2 _ (Proc.devRef .tc main_v5) = _
  after_results

/-- The arguments reach the end as launched. -/
theorem W4_arg0 (c : Dev nD) : W4 m ρ c (Proc.devRef .tc main_arg0) = m ((c : Thread nD τ).loc main_arg0) :=
  (W4_of_not_written m ρ c main_arg0 (by decide)).trans <| (W3_of_ne m ρ c main_arg0 (by decide)).trans <|
    (W2_arr m ρ c 1).trans <| ((dat0 (V1 m ρ) c).arrAt_in 1 rfl _).trans <| (A_eq0 (V1 m ρ) c 1).trans (V1_arg0 m ρ c)
theorem W4_arg1 (c : Dev nD) : W4 m ρ c (Proc.devRef .tc main_arg1) = m ((c : Thread nD τ).loc main_arg1) :=
  (W4_of_not_written m ρ c main_arg1 (by decide)).trans <| (W3_of_ne m ρ c main_arg1 (by decide)).trans <|
    (W2_arr m ρ c 0).trans <| ((dat0 (V1 m ρ) c).arrAt_in 0 rfl _).trans <| (A_eq0 (V1 m ρ) c 0).trans (V1_arg1 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as an item of the run: every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as items of the run -/

set_option backward.isDefEq.respectTransparency.types false in
/-- REGION 0 over the thread state: entered from every unscoped buffer at `W1`, left at `W2`. Its arrays are split out of the
    unscoped buffers and put back at the exit contents; the generator register goes into the pipeline's invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m ρ) c
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the run of its items, and the launch -/

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final state has the result buffer at the last boundary's contents and the argument arrays as
    launched. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      change iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_arg0 m ρ c),
       (h c _ (mem_uc main_arg1 (by decide))).trans (W4_arg1 m ρ c)⟩)

end Cert.Kernel.Hand

end
-- ==== Proof.KiRegion0.lean ====
/-
  Region 0 of the kernel program (the first pallas_call: six K-tiles of 2048 taken straight from the two argument
  arrays), for any float family: the proof data of its pipeline at the buffer contents `V` the region is entered
  from, and the body obligation.

  The body at grid point k reads the mask tile x (16×128×2048) and the weight tile w (2048×768) and keeps the
  running product in the result's staging buffer, which is written back once, after the last point:
  at k = 0 it stores x·w, at every later k it adds x·w to what the point before left.
  Both input windows are declared with clipped edge blocks (30522 is no multiple of 2048), but none of the six
  blocks this grid visits reaches the array's end, so every fetch fills its staging buffer whole.
-/
import proofs.«176018_g2000002446326655_pallasbulk_315_16_alg».proof.Proof.Gen.KernelIdeal.Launch
import proofs.«176018_g2000002446326655_pallasbulk_315_16_alg».proof.Proof.Gen.KernelIdeal.Skeleton
import proofs.«176018_g2000002446326655_pallasbulk_315_16_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` (its part inside the array), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The zero word, the filler past an array's end that nothing reads. -/
def zfill (S : Shape) : S.Idx → Elt F .f32 := fun _ => Scalar.ofBits .f32 0#32

/-- The mask tile of point `t` as a whole staging buffer. -/
def xtile0 (c : Dev nD) (t : Fin cfg0.N) : Vec F S16x128x2048 .f32 :=
  win0_0.fill (grid0.coords t) (zfill S16x128x2048) (iblk0 V c 0 t)
/-- The weight tile of point `t` as a whole staging buffer. -/
def wtile0 (c : Dev nD) (t : Fin cfg0.N) : Vec F S2048x768 .f32 :=
  win0_1.fill (grid0.coords t) (zfill S2048x768) (iblk0 V c 1 t)

/-- The running product after point `n`: the first tile's product, then one more tile's product added per point
    (the last point's store is printed as a payload of its own, the same function). -/
def acc0 (c : Dev nD) : (n : ℕ) → n < cfg0.N → Vec F S16x128x768 .f32
  | 0, hn => k0_pay1 (xtile0 V c ⟨0, hn⟩) (wtile0 V c ⟨0, hn⟩)
  | n + 1, hn =>
    if n + 1 < 5 then k0_pay2 (acc0 c n (Nat.lt_of_succ_lt hn)) (xtile0 V c ⟨n + 1, hn⟩) (wtile0 V c ⟨n + 1, hn⟩)
    else k0_pay3 (acc0 c n (Nat.lt_of_succ_lt hn)) (xtile0 V c ⟨n + 1, hn⟩) (wtile0 V c ⟨n + 1, hn⟩)

/-- The proof data of pipeline 0 on core `c`: the arrays as the region finds them; after the body each input's
    buffer at its tile and the result's at the running product; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => xtile0 V c t
    | ⟨1, _⟩ => wtile0 V c t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = xtile0 V c t := by dsimp only [dat0]
theorem after0_1 (c : Dev nD) (t : Fin cfg0.N) : (dat0 V c).after 1 t = wtile0 V c t := by dsimp only [dat0]
theorem after0_2 (c : Dev nD) (t : Fin cfg0.N) : (dat0 V c).after 2 t = acc0 V c t.val t.isLt := by dsimp only [dat0]

/-! ## The conditions, the schedule and the cuts, decided over the six points -/

/-- The first `scf.if` is taken at the first point only, -/
theorem r0_cond_first_iff : ∀ t : Fin cfg0.N, k0_cond1 (grid0.coords t) = 1#1 ↔ t.val = 0 :=
  (by decide +kernel : ∀ t : Fin grid0.N, k0_cond1 (grid0.coords t) = 1#1 ↔ t.val = 0)
/-- the second at the four points strictly between the first and the last, -/
theorem r0_cond_mid_iff : ∀ t : Fin cfg0.N, k0_cond2 (grid0.coords t) = 1#1 ↔ (0 < t.val ∧ t.val < 5) :=
  (by decide +kernel : ∀ t : Fin grid0.N, k0_cond2 (grid0.coords t) = 1#1 ↔ (0 < t.val ∧ t.val < 5))
/-- the third at the last point only. -/
theorem r0_cond_last_iff : ∀ t : Fin cfg0.N, k0_cond3 (grid0.coords t) = 1#1 ↔ t.val = 5 :=
  (by decide +kernel : ∀ t : Fin grid0.N, k0_cond3 (grid0.coords t) = 1#1 ↔ t.val = 5)

/-- Exactly one of the three stores into the result's buffer at every point: it is never idle. -/
theorem r0_out_live : ∀ t : Fin cfg0.N, cfg0.idle 2 (grid0.coords t) = false := by decide +kernel
/-- None of the six mask blocks reaches the array's end: no fetch is cut. -/
theorem r0_x_uncut : ∀ (t : Fin cfg0.N) a, (cfg0.win 0).clip (grid0.coords t) a = none := by decide +kernel
/-- Nor is any of the six weight blocks. -/
theorem r0_w_uncut : ∀ (t : Fin cfg0.N) a, (cfg0.win 1).clip (grid0.coords t) a = none := by decide +kernel

/-- The zero offsets of a whole-buffer access, as a constant function. -/
theorem r0_offsets3 : (![0, 0, 0] : Fin 3 → Nat) = fun _ => 0 := funext fun a => by fin_cases a <;> rfl
theorem r0_offsets2 : (![0, 0] : Fin 2 → Nat) = fun _ => 0 := funext fun a => by fin_cases a <;> rfl

/-- One store through the whole result buffer covers it, whatever it stores. -/
theorem r0_store_covers (w : S16x128x768.Idx → Elt F .f32) (y : S16x128x768.Idx) :
    ∃ p ∈ [(⟨Rect.unit (s := S16x128x768) ![0, 0, 0] S16x128x768.size inb_S16x128x768_S16x128x768_0_0_0, w⟩ : View.Piece (Elt F) S16x128x768 .f32)],
      y ∈ p.1.set :=
  ⟨_, List.mem_singleton_self _, View.mem_set_unit_zero r0_offsets3 inb_S16x128x768_S16x128x768_0_0_0 y⟩

/-! ## The body on any whole staging memrefs, case by case -/

/-- AT THE FIRST POINT the body loads the mask tile and the weight tile and stores their product over whatever
    the result's buffer held: the inputs' buffers are left as they were, the result's holds `k0_pay1` of the two. -/
theorem r0_body_first (c : Dev nD) (i : grid0.Coords)
    (arg1 : Memref sig .tc .vmem S16x128x2048 .f32) (harg1 : arg1.IsWhole)
    (arg2 : Memref sig .tc .vmem S2048x768 .f32) (harg2 : arg2.IsWhole)
    (arg3 : Memref sig .tc .vmem S16x128x768 .f32) (harg3 : arg3.IsWhole)
    (hc1 : k0_cond1 i = 1#1) (hc2 : ¬ k0_cond2 i = 1#1) (hc3 : ¬ k0_cond3 i = 1#1)
    (x0 : Vec F S16x128x2048 .f32) (x1 : Vec F S2048x768 .f32) (E : Set ℕ) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
                ∗ owns (c : Thread nD τ) arg3 fullShare (k0_pay1 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, %hf2, H2⟩, Hk⟩
  obtain rfl := harg1.eq_unread hf0; obtain rfl := harg2.eq_unread hf1
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  -- the one store covers the buffer: what is read back is its payload, over what the two whole loads read
  rw [View.read_writes_eq_canon _ _ _ (r0_store_covers _),
    View.canon_unit_zero r0_offsets3]
  simp only [View.readAt_eq_ld, harg1.read_unread, harg2.read_unread, View.ld_unit_zero (S := S16x128x2048) r0_offsets3,
    View.ld_unit_zero (S := S2048x768) r0_offsets2]

/-- AT A MIDDLE POINT the body loads the running product the point before left in the result's buffer, the mask
    tile and the weight tile, and stores the running product with the tiles' product added: `k0_pay2`. -/
theorem r0_body_mid (c : Dev nD) (i : grid0.Coords)
    (arg1 : Memref sig .tc .vmem S16x128x2048 .f32) (harg1 : arg1.IsWhole)
    (arg2 : Memref sig .tc .vmem S2048x768 .f32) (harg2 : arg2.IsWhole)
    (arg3 : Memref sig .tc .vmem S16x128x768 .f32) (harg3 : arg3.IsWhole)
    (hc1 : ¬ k0_cond1 i = 1#1) (hc2 : k0_cond2 i = 1#1) (hc3 : ¬ k0_cond3 i = 1#1)
    (x0 : Vec F S16x128x2048 .f32) (x1 : Vec F S2048x768 .f32) (xo : Vec F S16x128x768 .f32) (E : Set ℕ) (K : PUnit → sProp 𝕄) :
    iprop(owns (c : Thread nD τ) arg1 fullShare x0 ∗ owns (c : Thread nD τ) arg2 fullShare x1
        ∗ owns (c : Thread nD τ) arg3 fullShare xo
        ∗ (iprop(owns (c : Thread nD τ) arg1 fullShare x0 ∗ owns (c : Thread nD τ) arg2 fullShare x1
                ∗ owns (c : Thread nD τ) arg3 fullShare (k0_pay2 xo x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (r0_store_covers _),
    View.canon_unit_zero r0_offsets3]
  simp only [View.readAt_eq_ld, harg1.read_unread, harg2.read_unread, harg3.read_unread,
    View.ld_unit_zero (S := S16x128x2048) r0_offsets3, View.ld_unit_zero (S := S2048x768) r0_offsets2,
    View.ld_unit_zero (S := S16x128x768) r0_offsets3]

/-- AT THE LAST POINT the same, the store's payload printed as a function of its own: `k0_pay3`. -/
theorem r0_body_last (c : Dev nD) (i : grid0.Coords)
    (arg1 : Memref sig .tc .vmem S16x128x2048 .f32) (harg1 : arg1.IsWhole)
    (arg2 : Memref sig .tc .vmem S2048x768 .f32) (harg2 : arg2.IsWhole)
    (arg3 : Memref sig .tc .vmem S16x128x768 .f32) (harg3 : arg3.IsWhole)
    (hc1 : ¬ k0_cond1 i = 1#1) (hc2 : ¬ k0_cond2 i = 1#1) (hc3 : k0_cond3 i = 1#1)
    (x0 : Vec F S16x128x2048 .f32) (x1 : Vec F S2048x768 .f32) (xo : Vec F S16x128x768 .f32) (E : Set ℕ) (K : PUnit → sProp 𝕄) :
    iprop(owns (c : Thread nD τ) arg1 fullShare x0 ∗ owns (c : Thread nD τ) arg2 fullShare x1
        ∗ owns (c : Thread nD τ) arg3 fullShare xo
        ∗ (iprop(owns (c : Thread nD τ) arg1 fullShare x0 ∗ owns (c : Thread nD τ) arg2 fullShare x1
                ∗ owns (c : Thread nD τ) arg3 fullShare (k0_pay3 xo x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (r0_store_covers _),
    View.canon_unit_zero r0_offsets3]
  simp only [View.readAt_eq_ld, harg1.read_unread, harg2.read_unread, harg3.read_unread,
    View.ld_unit_zero (S := S16x128x2048) r0_offsets3, View.ld_unit_zero (S := S2048x768) r0_offsets2,
    View.ld_unit_zero (S := S16x128x768) r0_offsets3]

/-! ## What the body finds in the staging buffers -/

/-- The mask window's buffer, fetched at every point, holds the point's tile whole: the fetch is not cut, so nothing
    of what the buffer held before it is left. -/
theorem r0_before_x (c : Dev nD) (t : Fin cfg0.N) (d) : (dat0 V c).before 0 t d = xtile0 V c t := by
  rw [(dat0 V c).before_fetched 0 t (fetch0_0 t) d,
    (dat0 V c).fetched_of_clip_none 0 t (r0_x_uncut t) d (zfill S16x128x2048)]
  unfold Dat.fetched Dat.blockOf xtile0 iblk0
  rw [A_eq0]
/-- The weight window's likewise. -/
theorem r0_before_w (c : Dev nD) (t : Fin cfg0.N) (d) : (dat0 V c).before 1 t d = wtile0 V c t := by
  rw [(dat0 V c).before_fetched 1 t (fetch0_1 t) d,
    (dat0 V c).fetched_of_clip_none 1 t (r0_w_uncut t) d (zfill S2048x768)]
  unfold Dat.fetched Dat.blockOf wtile0 iblk0
  rw [A_eq0]

/-- The result's buffer is written back only after the last point, is stored into at every point and is never cut:
    after the first point it holds the running product the point before left. -/
theorem r0_before_out (c : Dev nD) (t : Fin cfg0.N) (ht : t.val ≠ 0) (d) :
    (dat0 V c).before 2 t d = acc0 V c (t.val - 1) (Nat.lt_of_le_of_lt (Nat.sub_le _ _) t.isLt) := by
  have hN : t.val < 6 := lt_of_lt_of_eq t.isLt (show cfg0.N = 6 from N_0)
  have hfl : (cfg0.win 2).flush ⟨t.val - 1, Nat.lt_of_le_of_lt (Nat.sub_le _ _) t.isLt⟩ = false := by
    cases h : (cfg0.win 2).flush ⟨t.val - 1, Nat.lt_of_le_of_lt (Nat.sub_le _ _) t.isLt⟩ with
    | false => rfl
    | true => exfalso; have h5 := (flush0_2 _).mp h; dsimp only at h5; omega
  rw [(dat0 V c).before_of_pos 2 t ht ((cfg0.win 2).fetch_out rfl t) d, hfl, if_neg Bool.false_ne_true]
  unfold Dat.left; rw [r0_out_live]
  unfold Dat.kept
  rw [Pipeline.fill_of_clip_none (cfg := cfg0) 2 _ (fun _ => rfl) d ((dat0 V c).after 2 ⟨t.val - 1, Nat.lt_of_le_of_lt (Nat.sub_le _ _) t.isLt⟩),
    Window.fill_cut, after0_2]

/-! ## The running product, point by point -/

theorem r0_acc_first (c : Dev nD) (t : Fin cfg0.N) (h0 : t.val = 0) :
    acc0 V c t.val t.isLt = k0_pay1 (xtile0 V c t) (wtile0 V c t) := by
  obtain ⟨n, hn⟩ := t
  cases n with
  | zero => rfl
  | succ n => exact absurd h0 (Nat.succ_ne_zero n)

theorem r0_acc_mid (c : Dev nD) (t : Fin cfg0.N) (h0 : t.val ≠ 0) (h5 : t.val < 5) :
    acc0 V c t.val t.isLt
      = k0_pay2 (acc0 V c (t.val - 1) (Nat.lt_of_le_of_lt (Nat.sub_le _ _) t.isLt)) (xtile0 V c t) (wtile0 V c t) := by
  obtain ⟨n, hn⟩ := t
  cases n with
  | zero => exact absurd rfl h0
  | succ n => exact (if_pos h5).trans rfl

theorem r0_acc_last (c : Dev nD) (t : Fin cfg0.N) (h0 : t.val ≠ 0) (h5 : ¬t.val < 5) :
    acc0 V c t.val t.isLt
      = k0_pay3 (acc0 V c (t.val - 1) (Nat.lt_of_le_of_lt (Nat.sub_le _ _) t.isLt)) (xtile0 V c t) (wtile0 V c t) := by
  obtain ⟨n, hn⟩ := t
  cases n with
  | zero => exact absurd rfl h0
  | succ n => exact (if_neg h5).trans rfl

/-! ## The body obligation -/

/-- Each window's current staging memref at point `t`, as the pipeline passes it to the body, and its wholeness. -/
abbrev r0_mx (t : Fin cfg0.N) : Memref sig .tc .vmem S16x128x2048 .f32 := win0_0.stage (cfg0.slots t 0)
abbrev r0_hmx (t : Fin cfg0.N) : (r0_mx t).IsWhole := hstage0_0 ((cfg0.slots t 0).cast nbuf0_0)
abbrev r0_mw (t : Fin cfg0.N) : Memref sig .tc .vmem S2048x768 .f32 := win0_1.stage (cfg0.slots t 1)
abbrev r0_hmw (t : Fin cfg0.N) : (r0_mw t).IsWhole := hstage0_1 ((cfg0.slots t 1).cast nbuf0_1)
abbrev r0_mo (t : Fin cfg0.N) : Memref sig .tc .vmem S16x128x768 .f32 := win0_2.stage (cfg0.slots t 2)
abbrev r0_hmo (t : Fin cfg0.N) : (r0_mo t).IsWhole := hstage0_2 ((cfg0.slots t 2).cast nbuf0_2)

/-- What the body is called with at point `t`, the windows one by one, -/
def r0_bodyPre (c : Dev nD) (t : Fin cfg0.N) : sProp 𝕄 :=
  iprop((dat0 V c).Φ t.castSucc ∗ (dat0 V c).owesAt () t.castSucc
    ∗ (∃ d, owns (c : Thread nD τ) (r0_mx t) fullShare ((dat0 V c).before 0 t d))
    ∗ (∃ d, owns (c : Thread nD τ) (r0_mw t) fullShare ((dat0 V c).before 1 t d))
    ∗ (∃ d, owns (c : Thread nD τ) (r0_mo t) fullShare ((dat0 V c).before 2 t d)))

/-- and what it returns: every buffer at exactly the contents the proof data names. -/
def r0_bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point. The two input buffers hold the point's tiles; the point is the first, a middle or the last
    one, which decides the three conditions; at the first the result's buffer holds anything and is overwritten with
    the tiles' product, later it holds the running product of the point before, to which the tiles' product is added:
    in each case what the proof data names. The invariant and what the core owes pass through untouched. -/
theorem r0_sound_body (c : Dev nD) (t : Fin cfg0.N) :
    r0_bodyPre V c t ⊢ wp frame (wpE (defs₀ (F := F)) Variants.none c none) Set.univ (bodyAt0 t) (fun _ => r0_bodyPost V c t) := by
  unfold r0_bodyPre r0_bodyPost bodyAt0
  simp only [r0_before_x, r0_before_w]
  rw [show (dat0 V c).owesAt () t.succ = (dat0 V c).owesAt () t.castSucc from rfl,
    show (dat0 V c).Φ t.succ = (dat0 V c).Φ t.castSucc from rfl]
  rw [show (dat0 V c).leavesExact 0 t = owns (c : Thread nD τ) (r0_mx t) fullShare ((dat0 V c).after 0 t) from rfl, after0_0]
  rw [show (dat0 V c).leavesExact 1 t = owns (c : Thread nD τ) (r0_mw t) fullShare ((dat0 V c).after 1 t) from rfl, after0_1]
  rw [show (dat0 V c).leavesExact 2 t = owns (c : Thread nD τ) (r0_mo t) fullShare ((dat0 V c).after 2 t) from by
    unfold Dat.leavesExact; rw [r0_out_live t], after0_2]
  have hN : t.val < 6 := lt_of_lt_of_eq t.isLt (show cfg0.N = 6 from N_0)
  by_cases h0 : t.val = 0
  · -- the first point
    have hc1 : k0_cond1 (grid0.coords t) = 1#1 := (r0_cond_first_iff t).mpr h0
    have hc2 : ¬k0_cond2 (grid0.coords t) = 1#1 := fun h => by have := (r0_cond_mid_iff t).mp h; omega
    have hc3 : ¬k0_cond3 (grid0.coords t) = 1#1 := fun h => by have := (r0_cond_last_iff t).mp h; omega
    rw [r0_acc_first V c t h0]
    iintro ⟨HΦ, Ho, ⟨%d0, H0⟩, ⟨%d1, H1⟩, ⟨%d2, H2⟩⟩
    iapply (r0_body_first c (grid0.coords t) (r0_mx t) (r0_hmx t) (r0_mw t) (r0_hmw t) (r0_mo t) (r0_hmo t) hc1 hc2 hc3
      (xtile0 V c t) (wtile0 V c t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [r0_before_out V c t h0]
    have hc1 : ¬k0_cond1 (grid0.coords t) = 1#1 := fun h => h0 ((r0_cond_first_iff t).mp h)
    by_cases h5 : t.val < 5
    · -- a middle point
      have hc2 : k0_cond2 (grid0.coords t) = 1#1 := (r0_cond_mid_iff t).mpr ⟨Nat.pos_of_ne_zero h0, h5⟩
      have hc3 : ¬k0_cond3 (grid0.coords t) = 1#1 := fun h => by have := (r0_cond_last_iff t).mp h; omega
      rw [r0_acc_mid V c t h0 h5]
      iintro ⟨HΦ, Ho, ⟨%d0, H0⟩, ⟨%d1, H1⟩, ⟨%d2, H2⟩⟩
      iapply (r0_body_mid c (grid0.coords t) (r0_mx t) (r0_hmx t) (r0_mw t) (r0_hmw t) (r0_mo t) (r0_hmo t) hc1 hc2 hc3
        (xtile0 V c t) (wtile0 V c t) (acc0 V c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · -- the last point
      have hc2 : ¬k0_cond2 (grid0.coords t) = 1#1 := fun h => h5 ((r0_cond_mid_iff t).mp h).2
      have hc3 : k0_cond3 (grid0.coords t) = 1#1 := (r0_cond_last_iff t).mpr (by omega)
      rw [r0_acc_last V c t h0 h5]
      iintro ⟨HΦ, Ho, ⟨%d0, H0⟩, ⟨%d1, H1⟩, ⟨%d2, H2⟩⟩
      iapply (r0_body_last c (grid0.coords t) (r0_mx t) (r0_hmx t) (r0_mw t) (r0_hmw t) (r0_mo t) (r0_hmo t) hc1 hc2 hc3
        (xtile0 V c t) (wtile0 V c t) (acc0 V c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The body obligation with every buffer handed back at exactly the named contents: no block this grid visits is cut,
    so the tiles and the running product are stated whole. -/
theorem r0_body_obligation_exact (c : Dev nD) :
    BodyObligation (dat0 (F := F) V c) (defs₀ (F := F)) Variants.none () Set.univ := fun t => by
  rw [bigSep_W0, bigSep_W0]
  exact r0_sound_body V c t

/-- The library's body obligation at every point, in the form the launch of a pipeline with clipped windows takes. -/
theorem body_obligation0 (c : Dev nD) : BodyObligationLoose (dat0 (F := F) V c) (defs₀ (F := F)) Variants.none () Set.univ :=
  (r0_body_obligation_exact V c).loose

end Cert.KernelIdeal.Hand

end
-- ==== Proof.KiRegion1.lean ====
/-
  Region 1 of the kernel program (the second pallas_call: the nine K-tiles of 2048 that cover the staged remainder
  of the contraction axis, columns 12288 to 30521 of the mask re-laid as 2048×18234 and the same rows of the weight), for any float family: the proof data of its pipeline at the buffer contents `V` the region is entered
  from, and the body obligation.

  The body at grid point k reads the mask tile x (2048×2048) and the weight tile w (2048×768) and keeps the
  running product in the result's staging buffer, which is written back once, after the last point:
  at k = 0 it stores x·w, at every later k it adds x·w to what the point before left.
  The last tile (k = 8) overhangs the arrays: only its first 1850 columns of x and rows of w lie inside, the fetch
  leaves the rest of the two staging buffers at words nothing names, and the body replaces exactly that rest by
  zeros (an iota compared with 1850, a select) before it multiplies, so what it adds does not depend on them.
-/
import proofs.«176018_g2000002446326655_pallasbulk_315_16_alg».proof.Proof.Gen.KernelIdeal.Launch
import proofs.«176018_g2000002446326655_pallasbulk_315_16_alg».proof.Proof.Gen.KernelIdeal.Skeleton
import proofs.«176018_g2000002446326655_pallasbulk_315_16_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` (its part inside the array), read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zero word, the filler past an array's end that nothing reads. -/
def zfill1 (S : Shape) : S.Idx → Elt F .f32 := fun _ => Scalar.ofBits .f32 0#32

/-- The mask tile of point `t` as a whole staging buffer. -/
def xtile1 (c : Dev nD) (t : Fin cfg1.N) : Vec F S2048x2048 .f32 :=
  win1_0.fill (grid1.coords t) (zfill1 S2048x2048) (iblk1 V c 0 t)
/-- The weight tile of point `t` as a whole staging buffer. -/
def wtile1 (c : Dev nD) (t : Fin cfg1.N) : Vec F S2048x768 .f32 :=
  win1_1.fill (grid1.coords t) (zfill1 S2048x768) (iblk1 V c 1 t)

/-- The running product after point `n`: the first tile's product, then one more tile's product added per point
    (the last point's store is printed as a payload of its own, the same function). -/
def acc1 (c : Dev nD) : (n : ℕ) → n < cfg1.N → Vec F S16x128x768 .f32
  | 0, hn => k1_pay1 (xtile1 V c ⟨0, hn⟩) (wtile1 V c ⟨0, hn⟩)
  | n + 1, hn =>
    if n + 1 < 8 then k1_pay2 (acc1 c n (Nat.lt_of_succ_lt hn)) (xtile1 V c ⟨n + 1, hn⟩) (wtile1 V c ⟨n + 1, hn⟩)
    else k1_pay3 (acc1 c n (Nat.lt_of_succ_lt hn)) (xtile1 V c ⟨n + 1, hn⟩) (wtile1 V c ⟨n + 1, hn⟩)

/-- The proof data of pipeline 1 on core `c`: the arrays as the region finds them; after the body each input's
    buffer at its tile and the result's at the running product; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => xtile1 V c t
    | ⟨1, _⟩ => wtile1 V c t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = xtile1 V c t := by dsimp only [dat1]
theorem after1_1 (c : Dev nD) (t : Fin cfg1.N) : (dat1 V c).after 1 t = wtile1 V c t := by dsimp only [dat1]
theorem after1_2 (c : Dev nD) (t : Fin cfg1.N) : (dat1 V c).after 2 t = acc1 V c t.val t.isLt := by dsimp only [dat1]

/-! ## The three conditions over the grid -/

/-- The first branch is taken at the first point only, -/
theorem cond1_iff : ∀ t : Fin cfg1.N, k1_cond1 (grid1.coords t) = 1#1 ↔ t.val = 0 :=
  (by decide +kernel : ∀ t : Fin grid1.N, k1_cond1 (grid1.coords t) = 1#1 ↔ t.val = 0)
/-- the second at the points strictly between the first and the last, -/
theorem cond2_iff : ∀ t : Fin cfg1.N, k1_cond2 (grid1.coords t) = 1#1 ↔ (0 < t.val ∧ t.val < 8) :=
  (by decide +kernel : ∀ t : Fin grid1.N, k1_cond2 (grid1.coords t) = 1#1 ↔ (0 < t.val ∧ t.val < 8))
/-- the third at the last point only. -/
theorem cond3_iff : ∀ t : Fin cfg1.N, k1_cond3 (grid1.coords t) = 1#1 ↔ t.val = 8 :=
  (by decide +kernel : ∀ t : Fin grid1.N, k1_cond3 (grid1.coords t) = 1#1 ↔ t.val = 8)

/-! ## The body on whole buffers, branch by branch -/

theorem zeros2 : (![0, 0] : Fin 2 → Nat) = fun _ => 0 := funext fun a => by fin_cases a <;> rfl
theorem zeros3 : (![0, 0, 0] : Fin 3 → Nat) = fun _ => 0 := funext fun a => by fin_cases a <;> rfl
/-- One store through the whole third buffer covers it. -/
theorem whole_store_covers (p : Vec F S16x128x768 .f32) (y : S16x128x768.Idx) :
    ∃ pc ∈ ([⟨Rect.unit (s := S16x128x768) ![0, 0, 0] S16x128x768.size inb_S16x128x768_S16x128x768_0_0_0, p⟩] : List (View.Piece (Elt F) S16x128x768 .f32)), y ∈ pc.1.set :=
  ⟨_, List.mem_singleton_self _, View.mem_set_unit_zero zeros3 inb_S16x128x768_S16x128x768_0_0_0 y⟩

set_option maxHeartbeats 1000000 in
/-- Where only the first branch is taken, the body on whole buffers holding `x0`, `x1` and anything leaves the inputs as
    they were and the product of the two tiles in the third: each load reads a whole buffer, the one store covers the
    third. -/
theorem body1_first (c : Dev nD) (E : Set ℕ) (i : grid1.Coords)
    (arg1 : Memref sig .tc .vmem S2048x2048 .f32) (harg1 : arg1.IsWhole) (arg2 : Memref sig .tc .vmem S2048x768 .f32) (harg2 : arg2.IsWhole)
    (arg3 : Memref sig .tc .vmem S16x128x768 .f32) (harg3 : arg3.IsWhole)
    (hc1 : k1_cond1 i = 1#1) (hc2 : ¬k1_cond2 i = 1#1) (hc3 : ¬k1_cond3 i = 1#1)
    (x0 : Vec F S2048x2048 .f32) (x1 : Vec F S2048x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (whole_store_covers _),
    View.canon_unit_zero zeros3]
  simp only [View.readAt_eq_ld, harg1.read_unread, harg2.read_unread, harg3.read_unread,
    View.ld_unit_zero (S := S2048x2048) zeros2, View.ld_unit_zero (S := S2048x768) zeros2, View.ld_unit_zero (S := S16x128x768) zeros3]

set_option maxHeartbeats 1000000 in
/-- Where only the second branch is taken, the third buffer, holding the running product `xo`, ends holding it with the
    tiles' product added. -/
theorem body1_middle (c : Dev nD) (E : Set ℕ) (i : grid1.Coords)
    (arg1 : Memref sig .tc .vmem S2048x2048 .f32) (harg1 : arg1.IsWhole) (arg2 : Memref sig .tc .vmem S2048x768 .f32) (harg2 : arg2.IsWhole)
    (arg3 : Memref sig .tc .vmem S16x128x768 .f32) (harg3 : arg3.IsWhole)
    (hc1 : ¬k1_cond1 i = 1#1) (hc2 : k1_cond2 i = 1#1) (hc3 : ¬k1_cond3 i = 1#1)
    (x0 : Vec F S2048x2048 .f32) (x1 : Vec F S2048x768 .f32) (xo : Vec F S16x128x768 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1
            ∗ owns (c : Thread nD τ) arg3 fullShare (k1_pay2 xo x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (whole_store_covers _),
    View.canon_unit_zero zeros3]
  simp only [View.readAt_eq_ld, harg1.read_unread, harg2.read_unread, harg3.read_unread,
    View.ld_unit_zero (S := S2048x2048) zeros2, View.ld_unit_zero (S := S2048x768) zeros2, View.ld_unit_zero (S := S16x128x768) zeros3]

set_option maxHeartbeats 1000000 in
/-- Where only the third branch is taken, the same with the masked product of the last, overhanging tile. -/
theorem body1_last (c : Dev nD) (E : Set ℕ) (i : grid1.Coords)
    (arg1 : Memref sig .tc .vmem S2048x2048 .f32) (harg1 : arg1.IsWhole) (arg2 : Memref sig .tc .vmem S2048x768 .f32) (harg2 : arg2.IsWhole)
    (arg3 : Memref sig .tc .vmem S16x128x768 .f32) (harg3 : arg3.IsWhole)
    (hc1 : ¬k1_cond1 i = 1#1) (hc2 : ¬k1_cond2 i = 1#1) (hc3 : k1_cond3 i = 1#1)
    (x0 : Vec F S2048x2048 .f32) (x1 : Vec F S2048x768 .f32) (xo : Vec F S16x128x768 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1
            ∗ owns (c : Thread nD τ) arg3 fullShare (k1_pay3 xo x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (whole_store_covers _),
    View.canon_unit_zero zeros3]
  simp only [View.readAt_eq_ld, harg1.read_unread, harg2.read_unread, harg3.read_unread,
    View.ld_unit_zero (S := S2048x2048) zeros2, View.ld_unit_zero (S := S2048x768) zeros2, View.ld_unit_zero (S := S16x128x768) zeros3]

/-! ## The schedule and the cuts over the grid -/

/-- The result's window is live at every point: one of the three branches stores into it. -/
theorem live1_2 : ∀ t : Fin cfg1.N, cfg1.idle 2 (grid1.coords t) = false :=
  (by decide +kernel : ∀ t : Fin grid1.N, cfg1.idle 2 (grid1.coords t) = false)
/-- The same over the coordinates. -/
theorem live1_2' : ∀ i : grid1.Coords, cfg1.idle 2 i = false := by decide +kernel
/-- The first eight tiles lie inside the arrays: their fetches are not cut. -/
theorem uncut1_0 : ∀ t : Fin cfg1.N, t.val < 8 → ∀ a, (cfg1.win 0).clip (grid1.coords t) a = none :=
  (by decide +kernel : ∀ t : Fin grid1.N, t.val < 8 → ∀ a, win1_0.clip (grid1.coords t) a = none)
theorem uncut1_1 : ∀ t : Fin cfg1.N, t.val < 8 → ∀ a, (cfg1.win 1).clip (grid1.coords t) a = none :=
  (by decide +kernel : ∀ t : Fin grid1.N, t.val < 8 → ∀ a, win1_1.clip (grid1.coords t) a = none)
/-- The last tile is cut to its first 1850 columns of the mask and rows of the weight; the other axis is whole. -/
theorem xsize1_0_last : ∀ t : Fin cfg1.N, t.val = 8 → win1_0.xsize (grid1.coords t) 0 = 2048 ∧ win1_0.xsize (grid1.coords t) 1 = 1850 :=
  (by decide +kernel : ∀ t : Fin grid1.N, t.val = 8 → win1_0.xsize (grid1.coords t) 0 = 2048 ∧ win1_0.xsize (grid1.coords t) 1 = 1850)
theorem xsize1_1_last : ∀ t : Fin cfg1.N, t.val = 8 → win1_1.xsize (grid1.coords t) 0 = 1850 ∧ win1_1.xsize (grid1.coords t) 1 = 768 :=
  (by decide +kernel : ∀ t : Fin grid1.N, t.val = 8 → win1_1.xsize (grid1.coords t) 0 = 1850 ∧ win1_1.xsize (grid1.coords t) 1 = 768)

/-! ## What the body finds in the staging buffers -/

/-- An input's buffer, fetched at every point, holds the tile's part inside the array on the part the fetch fills and
    whatever filler `d` elsewhere. -/
theorem before1_0 (c : Dev nD) (t : Fin cfg1.N) (d) :
    (dat1 V c).before 0 t d = win1_0.fill (grid1.coords t) d (iblk1 V c 0 t) :=
  ((dat1 V c).before_fetched 0 t (fetch1_0 t) d).trans (by unfold Dat.fetched Dat.blockOf iblk1; rw [A_eq1]; try rfl)
theorem before1_1 (c : Dev nD) (t : Fin cfg1.N) (d) :
    (dat1 V c).before 1 t d = win1_1.fill (grid1.coords t) d (iblk1 V c 1 t) :=
  ((dat1 V c).before_fetched 1 t (fetch1_1 t) d).trans (by unfold Dat.fetched Dat.blockOf iblk1; rw [A_eq1]; try rfl)

/-- The result's buffer holds anything at the first point, -/
theorem before1_2_first (c : Dev nD) (t : Fin cfg1.N) (ht : t.val = 0) (d) : (dat1 V c).before 2 t d = d :=
  (dat1 V c).before_out_reset 2 rfl t (.inl ht) d
/-- and at every later point the running product the point before left: it is written back after the last point only. -/
theorem before1_2_later (c : Dev nD) (t : Fin cfg1.N) (ht : t.val ≠ 0) (d) :
    (dat1 V c).before 2 t d = acc1 V c (t.val - 1) (Nat.lt_of_le_of_lt (Nat.sub_le _ _) t.isLt) :=
  ((dat1 V c).before_out_kept 2 rfl t ht
    (by
      have hN : t.val < 9 := lt_of_lt_of_eq t.isLt (show cfg1.N = 9 from N_1)
      cases hfl : (cfg1.win 2).flush ⟨t.val - 1, Nat.lt_of_le_of_lt (Nat.sub_le _ _) t.isLt⟩
      · rfl
      · have := (flush1_2 _).mp hfl; dsimp only at this; omega)
    live1_2' (fun _ _ => rfl) d).trans (after1_2 V c _)

/-! ## The mask of the last, overhanging tile -/

/-- A coordinate of a 2048-long axis compared with 1850, as the kernel's signed 32-bit compare computes it. -/
theorem lt1850_bit (n : ℕ) (hn : n < 2048) : IntOp.cmpi .slt (BitVec.ofNat 32 n) 1850#32 = if n < 1850 then 1#1 else 0#1 :=
  (by decide +kernel : ∀ n : Fin 2048, IntOp.cmpi .slt (BitVec.ofNat 32 n.val) 1850#32 = if n.val < 1850 then 1#1 else 0#1) ⟨n, hn⟩

/-- A select on a clear bit takes its second operand. -/
theorem select_clear_bit {α : Type} (a b : α) : Scalar.select 0#1 a b = b := if_neg (by decide)

/-- The mask tile with its columns from 1850 on replaced by a constant does not depend on what filled the staging buffer
    past the 1850 columns the cut fetch lands: an index the fetch fills reads the fetched block under both fillers, and
    at any other index the column is at least 1850, the mask bit is clear and the select yields the constant. -/
theorem maskx_fill (i : grid1.Coords) (h0 : win1_0.xsize i 0 = 2048) (h1 : win1_0.xsize i 1 = 1850)
    (d d' : S2048x2048.Idx → Elt F .f32) (g : (win1_0.xblock i).Idx → Elt F .f32) (z : F .f32) :
    select (cmpi .slt (iota .tc S2048x2048 32 [1] iota_S2048x2048_d1_w32) (broadcast S2048x2048 1850#32)) (win1_0.fill i d g) (broadcast S2048x2048 z)
      = select (cmpi .slt (iota .tc S2048x2048 32 [1] iota_S2048x2048_d1_w32) (broadcast S2048x2048 1850#32)) (win1_0.fill i d' g) (broadcast S2048x2048 z) := by
  funext j
  show Scalar.select _ _ _ = Scalar.select _ _ _
  by_cases hm : win1_0.moved i j = true
  · have e : win1_0.fill i d g j = win1_0.fill i d' g j := by unfold Window.fill; rw [dif_pos hm, dif_pos hm]
    rw [e]
  · have hb : cmpi .slt (iota .tc S2048x2048 32 [1] iota_S2048x2048_d1_w32) (broadcast S2048x2048 1850#32) j = 0#1 := by
      show IntOp.cmpi .slt (iota .tc S2048x2048 32 [1] iota_S2048x2048_d1_w32 j) 1850#32 = 0#1
      rw [iota_single_apply]
      have hj0 : (j 0).val < 2048 := (j 0).isLt
      have hj1 : (j 1).val < 2048 := (j 1).isLt
      rw [lt1850_bit _ hj1, if_neg]
      intro hlt
      refine hm ((win1_0.moved_iff i j).mpr (Fin.forall_fin_two.mpr ⟨?_, ?_⟩))
      · rw [h0]; exact hj0
      · rw [h1]; exact hlt
    rw [hb, select_clear_bit, select_clear_bit]

/-- The same for the weight tile, cut to its first 1850 rows. -/
theorem maskw_fill (i : grid1.Coords) (h0 : win1_1.xsize i 0 = 1850) (h1 : win1_1.xsize i 1 = 768)
    (d d' : S2048x768.Idx → Elt F .f32) (g : (win1_1.xblock i).Idx → Elt F .f32) (z : F .f32) :
    select (cmpi .slt (iota .tc S2048x768 32 [0] iota_S2048x768_d0_w32) (broadcast S2048x768 1850#32)) (win1_1.fill i d g) (broadcast S2048x768 z)
      = select (cmpi .slt (iota .tc S2048x768 32 [0] iota_S2048x768_d0_w32) (broadcast S2048x768 1850#32)) (win1_1.fill i d' g) (broadcast S2048x768 z) := by
  funext j
  show Scalar.select _ _ _ = Scalar.select _ _ _
  by_cases hm : win1_1.moved i j = true
  · have e : win1_1.fill i d g j = win1_1.fill i d' g j := by unfold Window.fill; rw [dif_pos hm, dif_pos hm]
    rw [e]
  · have hb : cmpi .slt (iota .tc S2048x768 32 [0] iota_S2048x768_d0_w32) (broadcast S2048x768 1850#32) j = 0#1 := by
      show IntOp.cmpi .slt (iota .tc S2048x768 32 [0] iota_S2048x768_d0_w32 j) 1850#32 = 0#1
      rw [iota_single_apply]
      have hj0 : (j 0).val < 2048 := (j 0).isLt
      have hj1 : (j 1).val < 768 := (j 1).isLt
      rw [lt1850_bit _ hj0, if_neg]
      intro hlt
      refine hm ((win1_1.moved_iff i j).mpr (Fin.forall_fin_two.mpr ⟨?_, ?_⟩))
      · rw [h0]; exact hlt
      · rw [h1]; exact hj1
    rw [hb, select_clear_bit, select_clear_bit]

/-- The last point's payload reads each tile only through its masked form. -/
theorem k1_pay3_congr (xo : Vec F S16x128x768 .f32) (x x' : Vec F S2048x2048 .f32) (w w' : Vec F S2048x768 .f32)
    (hx : select (cmpi .slt (iota .tc S2048x2048 32 [1] iota_S2048x2048_d1_w32) (broadcast S2048x2048 1850#32)) x (broadcast S2048x2048 (Scalar.ofBits .f32 0x00000000#32 : F .f32))
      = select (cmpi .slt (iota .tc S2048x2048 32 [1] iota_S2048x2048_d1_w32) (broadcast S2048x2048 1850#32)) x' (broadcast S2048x2048 (Scalar.ofBits .f32 0x00000000#32 : F .f32)))
    (hw : select (cmpi .slt (iota .tc S2048x768 32 [0] iota_S2048x768_d0_w32) (broadcast S2048x768 1850#32)) w (broadcast S2048x768 (Scalar.ofBits .f32 0x00000000#32 : F .f32))
      = select (cmpi .slt (iota .tc S2048x768 32 [0] iota_S2048x768_d0_w32) (broadcast S2048x768 1850#32)) w' (broadcast S2048x768 (Scalar.ofBits .f32 0x00000000#32 : F .f32))) :
    k1_pay3 xo x w = k1_pay3 xo x' w' := by
  unfold k1_pay3
  dsimp only
  rw [shapeCast_self x, shapeCast_self x', shapeCast_self w, shapeCast_self w', hx, hw]

/-! ## The tiles and the running product, point by point -/

/-- The part of a tile the fetch lands is the array's block, whatever fills the rest. -/
theorem xtile1_cut (c : Dev nD) (t : Fin cfg1.N) : win1_0.cut (grid1.coords t) (xtile1 V c t) = iblk1 V c 0 t :=
  win1_0.cut_fill _ _ _
theorem wtile1_cut (c : Dev nD) (t : Fin cfg1.N) : win1_1.cut (grid1.coords t) (wtile1 V c t) = iblk1 V c 1 t :=
  win1_1.cut_fill _ _ _

/-- A tile that lies inside the array fills the whole staging buffer: the filler plays no part. -/
theorem xtile1_of_uncut (c : Dev nD) (t : Fin cfg1.N) (ht : t.val < 8) (d : S2048x2048.Idx → Elt F .f32) :
    xtile1 V c t = win1_0.fill (grid1.coords t) d (iblk1 V c 0 t) := by
  unfold xtile1
  exact Pipeline.fill_of_clip_none (cfg := cfg1) 0 (grid1.coords t) (uncut1_0 t ht) _ _ _
theorem wtile1_of_uncut (c : Dev nD) (t : Fin cfg1.N) (ht : t.val < 8) (d : S2048x768.Idx → Elt F .f32) :
    wtile1 V c t = win1_1.fill (grid1.coords t) d (iblk1 V c 1 t) := by
  unfold wtile1
  exact Pipeline.fill_of_clip_none (cfg := cfg1) 1 (grid1.coords t) (uncut1_1 t ht) _ _ _

/-- The running product at the first point, -/
theorem acc1_first (c : Dev nD) (t : Fin cfg1.N) (h0 : t.val = 0) :
    acc1 V c t.val t.isLt = k1_pay1 (xtile1 V c t) (wtile1 V c t) := by
  obtain ⟨n, hn⟩ := t
  cases n with
  | zero => exact rfl
  | succ n => exact absurd h0 (Nat.succ_ne_zero n)
/-- at a point strictly between the first and the last, -/
theorem acc1_middle (c : Dev nD) (t : Fin cfg1.N) (h0 : t.val ≠ 0) (h8 : t.val < 8) :
    acc1 V c t.val t.isLt
      = k1_pay2 (acc1 V c (t.val - 1) (Nat.lt_of_le_of_lt (Nat.sub_le _ _) t.isLt)) (xtile1 V c t) (wtile1 V c t) := by
  obtain ⟨n, hn⟩ := t
  cases n with
  | zero => exact absurd rfl h0
  | succ n => exact (if_pos h8).trans rfl
/-- and at the last point. -/
theorem acc1_last (c : Dev nD) (t : Fin cfg1.N) (h8 : t.val = 8) :
    acc1 V c t.val t.isLt
      = k1_pay3 (acc1 V c (t.val - 1) (Nat.lt_of_le_of_lt (Nat.sub_le _ _) t.isLt)) (xtile1 V c t) (wtile1 V c t) := by
  obtain ⟨n, hn⟩ := t
  cases n with
  | zero => exact absurd h8 (show ¬(0 : ℕ) = 8 by decide)
  | succ n => exact (if_neg (by dsimp only at h8; omega)).trans rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each input's buffer stated on the part its fetch lands, the result's exactly. -/
def bodyPost1 (c : Dev nD) (t : Fin cfg1.N) : sProp 𝕄 :=
  iprop((dat1 V c).Φ t.succ ∗ (dat1 V c).owesAt () t.succ
    ∗ (dat1 V c).leaves 0 t ∗ (dat1 V c).leaves 1 t ∗ (dat1 V c).leaves 2 t)

set_option maxHeartbeats 1600000 in
/-- The body at any point. The inputs' buffers hold their tiles, filled out past the array's end with words nothing
    names; the closed forms of the conditions say which branch the point takes; the result's buffer holds anything at
    the first point and the running product of the point before afterwards. The inputs go back untouched, which is all
    the obligation asks of a window whose fetch may be cut; the result's buffer ends at the running product: for the
    first eight points because an uncut fetch leaves no filler, for the last because the body masks the filler away. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V]
  rw [show (dat1 V c).Φ t.succ = (dat1 V c).Φ t.castSucc from rfl,
    show (dat1 V c).owesAt () t.succ = (dat1 V c).owesAt () t.castSucc from rfl]
  rw [show (dat1 V c).leaves 0 t = iprop(∃ d, owns (c : Thread nD τ) (st1_0 t) fullShare
      (win1_0.fill (grid1.coords t) d (win1_0.cut (grid1.coords t) ((dat1 V c).after 0 t)))) from rfl, after1_0, xtile1_cut]
  rw [show (dat1 V c).leaves 1 t = iprop(∃ d, owns (c : Thread nD τ) (st1_1 t) fullShare
      (win1_1.fill (grid1.coords t) d (win1_1.cut (grid1.coords t) ((dat1 V c).after 1 t)))) from rfl, after1_1, wtile1_cut]
  rw [show (dat1 V c).leaves 2 t = owns (c : Thread nD τ) (st1_2 t) fullShare ((dat1 V c).after 2 t) from by
    unfold Dat.leaves; rw [live1_2 t], after1_2]
  have hN : t.val < 9 := lt_of_lt_of_eq t.isLt (show cfg1.N = 9 from N_1)
  by_cases h0 : t.val = 0
  · have hc1 : k1_cond1 (grid1.coords t) = 1#1 := (cond1_iff t).mpr h0
    have hc2 : ¬k1_cond2 (grid1.coords t) = 1#1 := fun h => by have := (cond2_iff t).mp h; omega
    have hc3 : ¬k1_cond3 (grid1.coords t) = 1#1 := fun h => by have := (cond3_iff t).mp h; omega
    rw [acc1_first V c t h0]
    iintro ⟨HΦ, Ho, ⟨%d0, H0⟩, ⟨%d1, H1⟩, ⟨%d2, H2⟩⟩
    iapply (body1_first c Set.univ (grid1.coords t) _ _ _ _ _ _ hc1 hc2 hc3
      (win1_0.fill (grid1.coords t) d0 (iblk1 V c 0 t)) (win1_1.fill (grid1.coords t) d1 (iblk1 V c 1 t)) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexists d0; iexact H0
    isplitl [H1]; · iexists d1; iexact H1
    rw [xtile1_of_uncut V c t (by omega) d0, wtile1_of_uncut V c t (by omega) d1]
    iexact H2
  · simp only [before1_2_later V c t h0]
    by_cases h8 : t.val < 8
    · have hc1 : ¬k1_cond1 (grid1.coords t) = 1#1 := fun h => h0 ((cond1_iff t).mp h)
      have hc2 : k1_cond2 (grid1.coords t) = 1#1 := (cond2_iff t).mpr ⟨Nat.pos_of_ne_zero h0, h8⟩
      have hc3 : ¬k1_cond3 (grid1.coords t) = 1#1 := fun h => by have := (cond3_iff t).mp h; omega
      rw [acc1_middle V c t h0 h8]
      iintro ⟨HΦ, Ho, ⟨%d0, H0⟩, ⟨%d1, H1⟩, ⟨%d2, H2⟩⟩
      iapply (body1_middle c Set.univ (grid1.coords t) _ _ _ _ _ _ hc1 hc2 hc3
        (win1_0.fill (grid1.coords t) d0 (iblk1 V c 0 t)) (win1_1.fill (grid1.coords t) d1 (iblk1 V c 1 t))
        (acc1 V c (t.val - 1) (Nat.lt_of_le_of_lt (Nat.sub_le _ _) t.isLt)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      rw [xtile1_of_uncut V c t h8 d0, wtile1_of_uncut V c t h8 d1]
      iexact H2
    · have h8' : t.val = 8 := by omega
      have hc1 : ¬k1_cond1 (grid1.coords t) = 1#1 := fun h => h0 ((cond1_iff t).mp h)
      have hc2 : ¬k1_cond2 (grid1.coords t) = 1#1 := fun h => h8 ((cond2_iff t).mp h).2
      have hc3 : k1_cond3 (grid1.coords t) = 1#1 := (cond3_iff t).mpr h8'
      rw [acc1_last V c t h8']
      iintro ⟨HΦ, Ho, ⟨%d0, H0⟩, ⟨%d1, H1⟩, ⟨%d2, H2⟩⟩
      iapply (body1_last c Set.univ (grid1.coords t) _ _ _ _ _ _ hc1 hc2 hc3
        (win1_0.fill (grid1.coords t) d0 (iblk1 V c 0 t)) (win1_1.fill (grid1.coords t) d1 (iblk1 V c 1 t))
        (acc1 V c (t.val - 1) (Nat.lt_of_le_of_lt (Nat.sub_le _ _) t.isLt)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      rw [show k1_pay3 (acc1 V c (t.val - 1) (Nat.lt_of_le_of_lt (Nat.sub_le _ _) t.isLt)) (xtile1 V c t) (wtile1 V c t)
          = k1_pay3 (acc1 V c (t.val - 1) (Nat.lt_of_le_of_lt (Nat.sub_le _ _) t.isLt))
              (win1_0.fill (grid1.coords t) d0 (iblk1 V c 0 t)) (win1_1.fill (grid1.coords t) d1 (iblk1 V c 1 t)) from
        k1_pay3_congr _ _ _ _ _
          (maskx_fill (grid1.coords t) (xsize1_0_last t h8').1 (xsize1_0_last t h8').2 _ _ _ _)
          (maskw_fill (grid1.coords t) (xsize1_1_last t h8').1 (xsize1_1_last t h8').2 _ _ _ _)]
      iexact H2

/-- The library's body obligation at every point, in the form the launch of a pipeline with clipped windows takes. -/
theorem body_obligation1 (c : Dev nD) : BodyObligationLoose (dat1 (F := F) V c) (defs₀ (F := F)) Variants.none () Set.univ := fun t => by
  rw [bigSep_W1, bigSep_W1]
  exact sound_body1 V c t

end Cert.KernelIdeal.Hand

end
-- ==== Proof.KiRun.lean ====
/-
  The run of the kernel program, for any float family: @main is a stretch of host operations (the two slices and the
  reshape that stage the remainder of the contraction axis), the two pallas_calls one after the other, and the host
  addition of their results. The buffer contents at every boundary between these four items are named as a fold
  from the launch memory, each pipeline's proof data is taken at the contents its region is entered from, and the
  launch of the whole program gives: every weakly fair execution terminates, the result buffer ends at the sum of
  the two regions' running products after their last points, and the two argument arrays end as launched.
-/
import proofs.«176018_g2000002446326655_pallasbulk_315_16_alg».proof.Proof.KiRegion0
import proofs.«176018_g2000002446326655_pallasbulk_315_16_alg».proof.Proof.KiRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the staging host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- After the closing host addition. -/
abbrev W4 : Dev nD → Valuation τ sig (Elt F) := fun c => StableHlo.after hostOps2 (W3 m ρ c)

/-! ## What each boundary holds -/

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No staging host operation writes a buffer other than its own result. -/
theorem W1_of_not_written (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne h0, StableHlo.devRef_ne_of_ne h1, StableHlo.devRef_ne_of_ne h2⟩))
/-- The closing host addition writes only the result. -/
theorem W4_of_not_written (c : Dev nD) (b : Ref sig .tc) (h5 : b ≠ main_v5) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.reshape_writes, Finset.mem_singleton]
    exact StableHlo.devRef_ne_of_ne h5))

/-- The staging host operations write no argument. -/
theorem V1_arg0 (c : Dev nD) : V1 m ρ c main_arg0 = m ((c : Thread nD τ).loc main_arg0) :=
  W1_of_not_written m ρ c main_arg0 (by decide) (by decide) (by decide)
theorem V1_arg1 (c : Dev nD) : V1 m ρ c main_arg1 = m ((c : Thread nD τ).loc main_arg1) :=
  W1_of_not_written m ρ c main_arg1 (by decide) (by decide) (by decide)
/-- Region 1 reads the staged operands as the host operations left them: region 0 writes neither. -/
theorem V2_v1 (c : Dev nD) : V2 m ρ c main_v1 = V1 m ρ c main_v1 := W2_of_ne m ρ c main_v1 (by decide)
theorem V2_v2 (c : Dev nD) : V2 m ρ c main_v2 = V1 m ρ c main_v2 := W2_of_ne m ρ c main_v2 (by decide)
/-- Region 1's result array after its write-backs. -/
theorem W3_v4 (c : Dev nD) : W3 m ρ c (Proc.devRef .tc main_v4) = (dat1 (V2 m ρ) c).arrAt 2 cfg1.N := W3_arr m ρ c 2
/-- Region 0's result array after its write-backs, untouched by region 1. -/
theorem W3_v3 (c : Dev nD) : W3 m ρ c (Proc.devRef .tc main_v3) = (dat0 (V1 m ρ) c).arrAt 2 cfg0.N :=
  (W3_of_ne m ρ c main_v3 (by decide)).trans (W2_arr m ρ c 2)
/-- The result is the host sum of the two regions' results. -/
theorem W4_v5 (c : Dev nD) : (W4 m ρ c (Proc.devRef .tc main_v5) : Vec F S16x128x768 .f32)
    = addf (W3 m ρ c (Proc.devRef .tc main_v3) : Vec F S16x128x768 .f32) (W3 m ρ c (Proc.devRef .tc main_v4)) := by
  show StableHlo.after hostOps2 _ (Proc.devRef .tc main_v5) = _
  after_results

/-- The arguments reach the end as launched. -/
theorem W4_arg0 (c : Dev nD) : W4 m ρ c (Proc.devRef .tc main_arg0) = m ((c : Thread nD τ).loc main_arg0) :=
  (W4_of_not_written m ρ c main_arg0 (by decide)).trans <| (W3_of_ne m ρ c main_arg0 (by decide)).trans <|
    (W2_arr m ρ c 1).trans <| ((dat0 (V1 m ρ) c).arrAt_in 1 rfl _).trans <| (A_eq0 (V1 m ρ) c 1).trans (V1_arg0 m ρ c)
theorem W4_arg1 (c : Dev nD) : W4 m ρ c (Proc.devRef .tc main_arg1) = m ((c : Thread nD τ).loc main_arg1) :=
  (W4_of_not_written m ρ c main_arg1 (by decide)).trans <| (W3_of_ne m ρ c main_arg1 (by decide)).trans <|
    (W2_arr m ρ c 0).trans <| ((dat0 (V1 m ρ) c).arrAt_in 0 rfl _).trans <| (A_eq0 (V1 m ρ) c 0).trans (V1_arg1 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as an item of the run: every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as items of the run -/

set_option backward.isDefEq.respectTransparency.types false in
/-- REGION 0 over the thread state: entered from every unscoped buffer at `W1`, left at `W2`. Its arrays are split out of the
    unscoped buffers and put back at the exit contents; the generator register goes into the pipeline's invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m ρ) c
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the run of its items, and the launch -/

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final state has the result buffer at the last boundary's contents and the argument arrays as
    launched. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      change iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_arg0 m ρ c),
       (h c _ (mem_uc main_arg1 (by decide))).trans (W4_arg1 m ρ c)⟩)

end Cert.KernelIdeal.Hand

end
-- ==== Proof.Spec.lean ====
/-
  The specification both programs are compared with, and the arithmetic of regrouped sums that joins each of them
  to it. No program is imported here.

  The soft-embedding product: out[b, s, h] = Σ_{k < 30522} mask[b, s, k] · weight[k, h] over the extended reals.
  Addition of extended reals is commutative and associative (only distributivity and cancellation fail at the
  infinities), so a sum may be cut into consecutive tiles, padded with zero terms, or accumulated tile by tile from
  the left without any finiteness assumption: that is all the two programs do differently.
    * the kernel: six tiles of 2048 (k < 12288), plus nine tiles of 2048 over the remaining 18234 indices, the last
      tile's overhang (tile offsets 1850 … 2047) contributing the product of two zeros;
    * the reference: sixty tiles of 512 over the axis padded with zeros to 30720, accumulated from zero.
-/
import Idealize.ShloMosaic.PureOps.Ideal
import Idealize.ShloMosaic.Lib.ValueIdx
import Mathlib.Algebra.BigOperators.Intervals
import Mathlib.Algebra.BigOperators.Fin

noncomputable section

open scoped BigOperators

namespace Cert.Spec

open Idealize.ShloMosaic Idealize.ShloMosaic.ValueIdx Finset

/-- The weight's, the mask's and the result's shapes. -/
abbrev SW : Shape := ⟨2, ![30522, 768]⟩
abbrev SM : Shape := ⟨3, ![16, 128, 30522]⟩
abbrev SO : Shape := ⟨3, ![16, 128, 768]⟩

/-- The row of the 2048-row re-laid mask that holds the result's coordinates (b, s): row-major over 16 × 128. -/
def row (b : Fin 16) (s : Fin 128) : Fin 2048 := ⟨128 * b.val + s.val, by have := b.isLt; have := s.isLt; omega⟩

/-- The k-th term of the contraction at the result's coordinates (b, s, h); zero past the contraction axis. -/
def term (wt : SW.Idx → EReal) (mk : SM.Idx → EReal) (b : Fin 16) (s : Fin 128) (h : Fin 768) (k : ℕ) : EReal :=
  if hk : k < 30522 then mk (ix3 b s ⟨k, hk⟩) * wt (ix2 ⟨k, hk⟩ h) else 0

/-- The soft-embedding product at the result's coordinates. -/
def G (wt : SW.Idx → EReal) (mk : SM.Idx → EReal) (b : Fin 16) (s : Fin 128) (h : Fin 768) : EReal :=
  ∑ k ∈ range 30522, term wt mk b s h k

theorem term_of_lt (wt : SW.Idx → EReal) (mk : SM.Idx → EReal) (b : Fin 16) (s : Fin 128) (h : Fin 768) (k : ℕ) (hk : k < 30522) :
    term wt mk b s h k = mk (ix3 b s ⟨k, hk⟩) * wt (ix2 ⟨k, hk⟩ h) := by
  unfold term; rw [dif_pos hk]

theorem term_of_ge (wt : SW.Idx → EReal) (mk : SM.Idx → EReal) (b : Fin 16) (s : Fin 128) (h : Fin 768) (k : ℕ) (hk : 30522 ≤ k) :
    term wt mk b s h k = 0 := by
  unfold term; rw [dif_neg (by omega)]

/-! ## Regrouping a sum over an initial segment of the naturals (any commutative additive monoid) -/

section Sums
variable {M : Type*} [AddCommMonoid M]

/-- A sum over `n` consecutive tiles of `B` is the sum over the tiles of each tile's sum. -/
theorem sum_tiles (f : ℕ → M) (n B : ℕ) :
    ∑ k ∈ range (n * B), f k = ∑ j ∈ range n, ∑ q ∈ range B, f (j * B + q) := by
  induction n with
  | zero => simp
  | succ n ih => rw [Nat.succ_mul, sum_range_add, ih, sum_range_succ]

/-- A sum over `a + b` terms is the first `a` plus the next `b`. -/
theorem sum_split (f : ℕ → M) (a b : ℕ) :
    ∑ k ∈ range (a + b), f k = ∑ k ∈ range a, f k + ∑ k ∈ range b, f (a + k) :=
  sum_range_add f a b

/-- Terms that vanish from `n` on may be added or dropped: a sum over `n + p` terms of a function that is zero from
    `n` on is the sum of the first `n`. -/
theorem sum_pad (f : ℕ → M) (n p : ℕ) (hz : ∀ k, n ≤ k → f k = 0) :
    ∑ k ∈ range (n + p), f k = ∑ k ∈ range n, f k := by
  rw [sum_range_add, sum_eq_zero (fun k _ => hz (n + k) (Nat.le_add_right n k)), add_zero]

/-- Accumulating from the left — the first tile stored, each later tile added to what is there — -/
def accFrom (T : ℕ → M) : ℕ → M
  | 0 => T 0
  | n + 1 => accFrom T n + T (n + 1)
/-- is the sum of the tiles so far. -/
theorem accFrom_eq (T : ℕ → M) (n : ℕ) : accFrom T n = ∑ j ∈ range (n + 1), T j := by
  induction n with
  | zero => simp [accFrom]
  | succ n ih => rw [accFrom, ih, sum_range_succ _ (n + 1)]

end Sums

/-! ## The two programs' groupings of the contraction -/

/-- THE KERNEL'S GROUPING: six tiles of 2048 from the start of the axis, and nine tiles of 2048 over the 18234 indices
    from 12288 on, the terms past the axis's end (tile offsets from 1850 on in the last tile) zero. -/
theorem kernel_grouping (f : ℕ → EReal) (hz : ∀ k, 30522 ≤ k → f k = 0) :
    (∑ j ∈ range 6, ∑ q ∈ range 2048, f (j * 2048 + q))
      + (∑ j ∈ range 9, ∑ q ∈ range 2048, f (12288 + (j * 2048 + q)))
    = ∑ k ∈ range 30522, f k := by
  -- the first six tiles are the first 12288 terms
  have h0 : (∑ j ∈ range 6, ∑ q ∈ range 2048, f (j * 2048 + q)) = ∑ k ∈ range 12288, f k :=
    (sum_tiles f 6 2048).symm
  -- the nine tiles are 18432 terms of the axis shifted by 12288, of which those from 18234 on vanish
  have h1 : (∑ j ∈ range 9, ∑ q ∈ range 2048, f (12288 + (j * 2048 + q)))
      = ∑ k ∈ range (18234 + 198), f (12288 + k) :=
    (sum_tiles (fun k => f (12288 + k)) 9 2048).symm
  have h2 : ∑ k ∈ range (18234 + 198), f (12288 + k) = ∑ k ∈ range 18234, f (12288 + k) :=
    sum_pad (fun k => f (12288 + k)) 18234 198 (fun k hk => hz (12288 + k) (by omega))
  rw [h0, h1, h2]
  exact (sum_split f 12288 18234).symm

/-- THE REFERENCE'S GROUPING: sixty tiles of 512 over the axis padded with zero terms to 30720. -/
theorem reference_grouping (f : ℕ → EReal) (hz : ∀ k, 30522 ≤ k → f k = 0) :
    (∑ j ∈ range 60, ∑ q ∈ range 512, f (j * 512 + q)) = ∑ k ∈ range 30522, f k := by
  have h0 : (∑ j ∈ range 60, ∑ q ∈ range 512, f (j * 512 + q)) = ∑ k ∈ range (30522 + 198), f k :=
    (sum_tiles f 60 512).symm
  rw [h0]
  exact sum_pad f 30522 198 hz

end Cert.Spec

end
-- ==== Proof.KiValue0.lean ====
/-
  Region 0's result at the ideal instance. After the last of its six points the result array holds, at (b, s, h), the
  sum over the six tiles j and the 2048 offsets q of mask[b, s, 2048 j + q] · weight[2048 j + q, h], the arrays
  being the ones the region is entered from: the first point stores its tile's product (a matrix product into a zero
  accumulator is the plain sum of products at the ideal instance, and the rounding to bf16 before it the identity),
  each later point adds its tile's, and the single write-back after the last point copies the staging buffer, whose
  block is the whole array, over it.
-/
import proofs.«176018_g2000002446326655_pallasbulk_315_16_alg».proof.Proof.KiRegion0
import proofs.«176018_g2000002446326655_pallasbulk_315_16_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Finset
open Idealize.SL.Sem

namespace Region0
/-! ## One tile's product at an index -/

/-- The matrix unit's dimension numbers: rows × contraction times contraction × columns. -/
abbrev D := dot_S2048x2048_S2048x768_S2048x768_1_0_0_1_n_n

theorem lhs_row (j : S2048x768.Idx) (k : D.contr.Idx) : (D.lhsIdx j k 0 : ℕ) = j 0 := by
  simp [DotDims.lhsIdx, D, dot_S2048x2048_S2048x768_S2048x768_1_0_0_1_n_n]; rfl
theorem lhs_col (j : S2048x768.Idx) (k : D.contr.Idx) : (D.lhsIdx j k 1 : ℕ) = k ⟨0, by decide⟩ := by
  simp [DotDims.lhsIdx, D, dot_S2048x2048_S2048x768_S2048x768_1_0_0_1_n_n]; rfl
theorem rhs_row (j : S2048x768.Idx) (k : D.contr.Idx) : (D.rhsIdx j k 0 : ℕ) = k ⟨0, by decide⟩ := by
  simp [DotDims.rhsIdx, D, dot_S2048x2048_S2048x768_S2048x768_1_0_0_1_n_n]; rfl
theorem rhs_col (j : S2048x768.Idx) (k : D.contr.Idx) : (D.rhsIdx j k 1 : ℕ) = j 1 := by
  simp [DotDims.rhsIdx, D, dot_S2048x2048_S2048x768_S2048x768_1_0_0_1_n_n]; rfl

/-- The matrix product into the zero accumulator, read at (r, h): the sum over the contracted coordinate. -/
theorem matmul_zero_apply (A : FVec Ideal S2048x2048 .bf16) (B : FVec Ideal S2048x768 .bf16) (r : Fin 2048) (h : Fin 768) :
    matmul D none A B (constant (F := Ideal) S2048x768 .f32 0x00000000#32) (ix2 r h)
      = ∑ q : Fin 2048, A (ix2 r q) * B (ix2 q h) := by
  show FloatOps.matmul D none A B (constant (F := Ideal) S2048x768 .f32 0x00000000#32) (ix2 r h) = _
  rw [Ideal.matmul_constant_zero_apply, ← Equiv.sum_comp (contrEquiv1 D 2048 rfl rfl).symm]
  refine Finset.sum_congr rfl fun q _ => ?_
  have cq := contrEquiv1_symm_val D 2048 rfl rfl q
  have el : D.lhsIdx (ix2 r h) ((contrEquiv1 D 2048 rfl rfl).symm q) = ix2 r q := by
    funext ax; apply Fin.ext
    match ax with
    | ⟨0, _⟩ => exact lhs_row _ _
    | ⟨1, _⟩ => exact (lhs_col _ _).trans cq
  have er : D.rhsIdx (ix2 r h) ((contrEquiv1 D 2048 rfl rfl).symm q) = ix2 q h := by
    funext ax; apply Fin.ext
    match ax with
    | ⟨0, _⟩ => exact (rhs_row _ _).trans cq
    | ⟨1, _⟩ => exact rhs_col _ _
  rw [el, er]

/-- The mask tile re-laid as 2048 rows reads, at row 128 b + s, the tile at (b, s). -/
theorem tileRows_apply (x : Vec Ideal S16x128x2048 .f32) (b : Fin 16) (s : Fin 128) (q : Fin 2048) :
    shapeCast S2048x2048 x shapeCasts_S16x128x2048_S2048x2048 (ix2 (Cert.Spec.row b s) q) = x (ix3 b s q) :=
  shapeCast_apply x shapeCasts_S16x128x2048_S2048x2048 (ix2 (Cert.Spec.row b s) q) (ix3 b s q) (by
    rw [Shape.rowMajor_val_three, Shape.rowMajor_val_two]
    show (b.val * 128 + s.val) * 2048 + q.val = (128 * b.val + s.val) * 2048 + q.val
    omega)

/-- The 2048-row product laid back as 16 × 128 rows reads, at (b, s), row 128 b + s. -/
theorem rowsBack_apply (y : Vec Ideal S2048x768 .f32) (b : Fin 16) (s : Fin 128) (h : Fin 768) :
    shapeCast S16x128x768 y shapeCasts_S2048x768_S16x128x768 (ix3 b s h) = y (ix2 (Cert.Spec.row b s) h) :=
  shapeCast_apply y shapeCasts_S2048x768_S16x128x768 (ix3 b s h) (ix2 (Cert.Spec.row b s) h) (by
    rw [Shape.rowMajor_val_three, Shape.rowMajor_val_two]
    show (128 * b.val + s.val) * 768 + h.val = (b.val * 128 + s.val) * 768 + h.val
    omega)

/-- ONE TILE'S PRODUCT at (b, s, h): the sum over the tile's 2048 offsets of mask times weight. -/
theorem tileProduct_apply (x : Vec Ideal S16x128x2048 .f32) (w : Vec Ideal S2048x768 .f32) (b : Fin 16) (s : Fin 128) (h : Fin 768) :
    k0_pay1 (F := Ideal) x w (ix3 b s h) = ∑ q : Fin 2048, x (ix3 b s q) * w (ix2 q h) := by
  unfold k0_pay1
  refine (rowsBack_apply _ b s h).trans ?_
  refine (matmul_zero_apply _ _ (Cert.Spec.row b s) h).trans ?_
  refine Finset.sum_congr rfl fun q _ => ?_
  rw [truncf_apply, truncf_apply, tileRows_apply]

/-- A later point's store at (b, s, h): what the point before left there plus this tile's product. -/
theorem tileAdd_apply (a : Vec Ideal S16x128x768 .f32) (x : Vec Ideal S16x128x2048 .f32) (w : Vec Ideal S2048x768 .f32)
    (b : Fin 16) (s : Fin 128) (h : Fin 768) :
    k0_pay2 (F := Ideal) a x w (ix3 b s h) = a (ix3 b s h) + ∑ q : Fin 2048, x (ix3 b s q) * w (ix2 q h) := by
  unfold k0_pay2
  refine (addf_apply _ _ _).trans ?_
  rw [shapeCast_self]
  refine congrArg (a (ix3 b s h) + ·) ?_
  exact tileProduct_apply x w b s h

/-- The last point's store is the same function. -/
theorem tileAddLast_apply (a : Vec Ideal S16x128x768 .f32) (x : Vec Ideal S16x128x2048 .f32) (w : Vec Ideal S2048x768 .f32)
    (b : Fin 16) (s : Fin 128) (h : Fin 768) :
    k0_pay3 (F := Ideal) a x w (ix3 b s h) = a (ix3 b s h) + ∑ q : Fin 2048, x (ix3 b s q) * w (ix2 q h) :=
  tileAdd_apply a x w b s h

/-! ## The tiles at an index -/

variable (V : (c : Dev nD) → (b : Ref sig .tc) → Buf (Elt Ideal) ((c : Thread nD τ).loc b))

/-- The mask and the weight as the region finds them, as arrays of extended reals. -/
abbrev marr (c : Dev nD) : S16x128x30522.Idx → EReal := V c main_arg1
abbrev warr (c : Dev nD) : S30522x768.Idx → EReal := V c main_arg0

theorem lt6 (t : Fin cfg0.N) : t.val < 6 := lt_of_lt_of_eq t.isLt N_0

/-- None of the six mask blocks is cut: each transfer moves the whole 16 × 128 × 2048 block, -/
theorem xsize_mask : ∀ (t : Fin cfg0.N) (a : Fin 3), win0_0.xsize (grid0.coords t) a = S16x128x2048.size a :=
  (by decide +kernel : ∀ (t : Fin grid0.N) (a : Fin 3), win0_0.xsize (grid0.coords t) a = S16x128x2048.size a)
/-- and block t starts at column 2048 t. -/
theorem index_mask : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)
/-- Likewise the six weight blocks: whole 2048 × 768 blocks, -/
theorem xsize_weight : ∀ (t : Fin cfg0.N) (a : Fin 2), win0_1.xsize (grid0.coords t) a = S2048x768.size a :=
  (by decide +kernel : ∀ (t : Fin grid0.N) (a : Fin 2), win0_1.xsize (grid0.coords t) a = S2048x768.size a)
/-- block t starting at row 2048 t. -/
theorem index_weight : ∀ t : Fin cfg0.N, win0_1.index t 0 = t.val ∧ win0_1.index t 1 = 0 :=
  (by decide +kernel : ∀ t : Fin grid0.N, win0_1.index t 0 = t.val ∧ win0_1.index t 1 = 0)

/-- THE MASK TILE of point t at (b, s, q) is the mask at column 2048 t + q. -/
theorem xtile_apply (c : Dev nD) (t : Fin cfg0.N) (b : Fin 16) (s : Fin 128) (q : Fin 2048) :
    xtile0 V c t (ix3 b s q) = marr V c (ix3 b s ⟨t.val * 2048 + q.val, by have := lt6 t; have := q.isLt; omega⟩) := by
  have hm : win0_0.moved (grid0.coords t) (ix3 b s q) = true :=
    (win0_0.moved_iff _ _).mpr fun a => by rw [xsize_mask t a]; exact (ix3 b s q a).isLt
  obtain ⟨e0, e1, e2⟩ := index_mask t
  unfold xtile0 Pipeline.Window.fill
  rw [dif_pos hm]
  show V c main_arg1 ((win0_0.blk t).view.emb _) = V c main_arg1 _
  refine congrArg (V c main_arg1) ?_
  funext a; apply Fin.ext
  match a with
  | ⟨0, _⟩ => show win0_0.index t 0 * 16 + 1 * b.val = b.val; rw [e0]; omega
  | ⟨1, _⟩ => show win0_0.index t 1 * 128 + 1 * s.val = s.val; rw [e1]; omega
  | ⟨2, _⟩ => show win0_0.index t 2 * 2048 + 1 * q.val = t.val * 2048 + q.val; rw [e2]; omega

/-- THE WEIGHT TILE of point t at (q, h) is the weight at row 2048 t + q. -/
theorem wtile_apply (c : Dev nD) (t : Fin cfg0.N) (q : Fin 2048) (h : Fin 768) :
    wtile0 V c t (ix2 q h) = warr V c (ix2 ⟨t.val * 2048 + q.val, by have := lt6 t; have := q.isLt; omega⟩ h) := by
  have hm : win0_1.moved (grid0.coords t) (ix2 q h) = true :=
    (win0_1.moved_iff _ _).mpr fun a => by rw [xsize_weight t a]; exact (ix2 q h a).isLt
  obtain ⟨e0, e1⟩ := index_weight t
  unfold wtile0 Pipeline.Window.fill
  rw [dif_pos hm]
  show V c main_arg0 ((win0_1.blk t).view.emb _) = V c main_arg0 _
  refine congrArg (V c main_arg0) ?_
  funext a; apply Fin.ext
  match a with
  | ⟨0, _⟩ => show win0_1.index t 0 * 2048 + 1 * q.val = t.val * 2048 + q.val; rw [e0]; omega
  | ⟨1, _⟩ => show win0_1.index t 1 * 768 + 1 * h.val = h.val; rw [e1]; omega

/-! ## The running product at an index -/

/-- POINT t'S PRODUCT at (b, s, h) is the sum of the contraction's terms 2048 t … 2048 t + 2047. -/
theorem tile_sum (c : Dev nD) (t : Fin cfg0.N) (b : Fin 16) (s : Fin 128) (h : Fin 768) :
    ∑ q : Fin 2048, xtile0 V c t (ix3 b s q) * wtile0 V c t (ix2 q h)
      = ∑ q ∈ range 2048, Cert.Spec.term (V c main_arg0) (V c main_arg1) b s h (t.val * 2048 + q) := by
  rw [Finset.sum_range]
  refine Finset.sum_congr rfl fun q _ => ?_
  rw [xtile_apply, wtile_apply,
    Cert.Spec.term_of_lt _ _ b s h _ (by have := lt6 t; have := q.isLt; omega : t.val * 2048 + q.val < 30522)]

theorem acc_zero (c : Dev nD) (hn : 0 < cfg0.N) :
    acc0 V c 0 hn = k0_pay1 (xtile0 V c ⟨0, hn⟩) (wtile0 V c ⟨0, hn⟩) := rfl
theorem acc_succ (c : Dev nD) (n : ℕ) (hn : n + 1 < cfg0.N) :
    acc0 V c (n + 1) hn
      = if n + 1 < 5 then k0_pay2 (acc0 V c n (Nat.lt_of_succ_lt hn)) (xtile0 V c ⟨n + 1, hn⟩) (wtile0 V c ⟨n + 1, hn⟩)
        else k0_pay3 (acc0 V c n (Nat.lt_of_succ_lt hn)) (xtile0 V c ⟨n + 1, hn⟩) (wtile0 V c ⟨n + 1, hn⟩) := rfl

/-- THE RUNNING PRODUCT after point n at (b, s, h): the contraction's terms of the tiles 0 … n. -/
theorem acc_apply (c : Dev nD) (b : Fin 16) (s : Fin 128) (h : Fin 768) : ∀ (n : ℕ) (hn : n < cfg0.N),
    acc0 V c n hn (ix3 b s h)
      = ∑ j ∈ range (n + 1), ∑ q ∈ range 2048, Cert.Spec.term (V c main_arg0) (V c main_arg1) b s h (j * 2048 + q)
  | 0, hn => by
    rw [acc_zero, tileProduct_apply, tile_sum V c ⟨0, hn⟩ b s h, Finset.sum_range_one]
  | n + 1, hn => by
    have ih := acc_apply c b s h n (Nat.lt_of_succ_lt hn)
    rw [Finset.sum_range_succ, ← ih, acc_succ]
    split
    · rw [tileAdd_apply, tile_sum V c ⟨n + 1, hn⟩ b s h]
    · rw [tileAddLast_apply, tile_sum V c ⟨n + 1, hn⟩ b s h]

/-! ## The result array after the run -/

/-- The result's one block is the whole array, at block index 0 on every axis. -/
theorem index_result : ∀ (t : Fin cfg0.N) (a : Fin 3), win0_2.index t a = 0 :=
  (by decide +kernel : ∀ (t : Fin grid0.N) (a : Fin 3), win0_2.index t a = 0)

theorem five_lt : 5 < cfg0.N := by rw [show cfg0.N = 6 from N_0]; decide

/-- WHAT THE WRITE-BACK WRITES: only the last point writes back, and what it writes is the whole array's worth of
    the running product after it. -/
theorem flushed_result (c : Dev nD) (t : Fin cfg0.N) (hf : (cfg0.win 2).flush t = true) :
    (dat0 V c).flushed 2 t = ((cfg0.win 2).blk t).view.read (Elt Ideal) (acc0 V c 5 five_lt) := by
  have h5 : t.val = 5 := by have := (flush0_2 t).mp hf; have := lt6 t; omega
  obtain rfl : t = ⟨5, five_lt⟩ := Fin.ext h5
  show (cfg0.win 2).cut (grid0.coords ⟨5, five_lt⟩) ((dat0 V c).after 2 ⟨5, five_lt⟩) = _
  rw [after0_2]
  funext y
  show acc0 V c 5 five_lt _ = acc0 V c 5 five_lt ((win0_2.blk ⟨5, five_lt⟩).view.emb y)
  refine congrArg (acc0 V c 5 five_lt) ?_
  funext a; apply Fin.ext
  show (y a).val = win0_2.index ⟨5, five_lt⟩ a * S16x128x768.size a + 1 * (y a).val
  rw [index_result]; omega

/-- Every index of the array lies in the last point's block. -/
theorem cover_result (i : S16x128x768.Idx) :
    ∃ t : Fin cfg0.N, (cfg0.win 2).flush t = true ∧ i ∈ ((cfg0.win 2).blk t).view.set := by
  refine ⟨⟨5, five_lt⟩, (flush0_2 _).mpr rfl, ?_⟩
  show i ∈ ((View.whole main_v3).slice (win0_2.rect ⟨5, five_lt⟩)).set
  rw [View.set_slice_whole, Rect.mem_set_unit]
  intro a
  show win0_2.index ⟨5, five_lt⟩ a * S16x128x768.size a ≤ (i a).val
    ∧ (i a).val < win0_2.index ⟨5, five_lt⟩ a * S16x128x768.size a + S16x128x768.size a
  rw [index_result]
  have := (i a).isLt
  constructor
  · omega
  · rw [Nat.zero_mul, Nat.zero_add]; exact this

/-- THE ARRAY IS THE LAST ACCUMULATOR. -/
theorem arr_eq_lastAcc (c : Dev nD) :
    ((dat0 V c).arrAt 2 cfg0.N : Vec Ideal S16x128x768 .f32) = acc0 V c 5 five_lt :=
  (dat0 V c).arrAt_eq_of_cover 2 (acc0 V c 5 five_lt) (flushed_result V c) (fun i => cover_result i)

end Region0

variable (V : (c : Dev nD) → (b : Ref sig .tc) → Buf (Elt Ideal) ((c : Thread nD τ).loc b))

/-- REGION 0'S VALUE, over the arrays `V` the region is entered from. -/
theorem region0_value (c : Dev nD) (b : Fin 16) (s : Fin 128) (h : Fin 768) :
    ((dat0 (F := Ideal) V c).arrAt 2 cfg0.N : Vec Ideal S16x128x768 .f32) (ix3 b s h)
      = ∑ j ∈ range 6, ∑ q ∈ range 2048, Cert.Spec.term (V c main_arg0) (V c main_arg1) b s h (j * 2048 + q) := by
  rw [Region0.arr_eq_lastAcc V c]
  exact Region0.acc_apply V c b s h 5 Region0.five_lt

end Cert.KernelIdeal.HandValue

end
-- ==== Proof.KiValue1.lean ====
/-
  Region 1's result at the ideal instance. Its operands are the staged arrays x (2048 × 18234, the mask's columns
  from 12288 on, rows re-laid row-major over 16 × 128) and w (18234 × 768, the weight's rows from 12288 on). After
  the last of its nine points the result array holds, at (b, s, h), the sum over the nine tiles j and the 2048 offsets
  q of x[128 b + s, 2048 j + q] · w[2048 j + q, h] where 2048 j + q < 18234, and zero for the last tile's overhang:
  there the body has replaced both operands' entries by zero before the product (offsets 1850 … 2047 of tile 8), and
  zero times zero is zero.
-/
import proofs.«176018_g2000002446326655_pallasbulk_315_16_alg».proof.Proof.KiRegion1
import proofs.«176018_g2000002446326655_pallasbulk_315_16_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Finset
open Idealize.SL.Sem

variable (V : (c : Dev nD) → (b : Ref sig .tc) → Buf (Elt Ideal) ((c : Thread nD τ).loc b))

/-- The staged mask and weight as the region finds them, as arrays of extended reals. -/
abbrev xstg (c : Dev nD) : S2048x18234.Idx → EReal := V c main_v1
abbrev wstg (c : Dev nD) : S18234x768.Idx → EReal := V c main_v2

/-- The k-th term of region 1's contraction at (b, s, h), over the staged arrays; zero past their end. -/
def term1 (c : Dev nD) (b : Fin 16) (s : Fin 128) (h : Fin 768) (k : ℕ) : EReal :=
  if hk : k < 18234 then xstg V c (ix2 (Cert.Spec.row b s) ⟨k, hk⟩) * wstg V c (ix2 ⟨k, hk⟩ h) else 0

namespace Region1

/-! ## The product of one tile pair at an index -/

theorem mmLhs_0 (j : S2048x768.Idx) (k : dot_S2048x2048_S2048x768_S2048x768_1_0_0_1_n_n.contr.Idx) :
    (dot_S2048x2048_S2048x768_S2048x768_1_0_0_1_n_n.lhsIdx j k 0 : ℕ) = j 0 := by
  simp [DotDims.lhsIdx, dot_S2048x2048_S2048x768_S2048x768_1_0_0_1_n_n]; rfl
theorem mmLhs_1 (j : S2048x768.Idx) (k : dot_S2048x2048_S2048x768_S2048x768_1_0_0_1_n_n.contr.Idx) :
    (dot_S2048x2048_S2048x768_S2048x768_1_0_0_1_n_n.lhsIdx j k 1 : ℕ) = k ⟨0, by decide⟩ := by
  simp [DotDims.lhsIdx, dot_S2048x2048_S2048x768_S2048x768_1_0_0_1_n_n]; rfl
theorem mmRhs_0 (j : S2048x768.Idx) (k : dot_S2048x2048_S2048x768_S2048x768_1_0_0_1_n_n.contr.Idx) :
    (dot_S2048x2048_S2048x768_S2048x768_1_0_0_1_n_n.rhsIdx j k 0 : ℕ) = k ⟨0, by decide⟩ := by
  simp [DotDims.rhsIdx, dot_S2048x2048_S2048x768_S2048x768_1_0_0_1_n_n]; rfl
theorem mmRhs_1 (j : S2048x768.Idx) (k : dot_S2048x2048_S2048x768_S2048x768_1_0_0_1_n_n.contr.Idx) :
    (dot_S2048x2048_S2048x768_S2048x768_1_0_0_1_n_n.rhsIdx j k 1 : ℕ) = j 1 := by
  simp [DotDims.rhsIdx, dot_S2048x2048_S2048x768_S2048x768_1_0_0_1_n_n]; rfl

/-- The matrix unit's product into the zero accumulator, at (r, h): the sum over the 2048 offsets of the products. -/
theorem tileProduct_apply (x : FVec Ideal S2048x2048 .bf16) (w : FVec Ideal S2048x768 .bf16) (r : Fin 2048) (h : Fin 768) :
    matmul (F := Ideal) dot_S2048x2048_S2048x768_S2048x768_1_0_0_1_n_n none x w (constant (F := Ideal) S2048x768 .f32 0x00000000#32) (ix2 r h)
      = ∑ q : Fin 2048, x (ix2 r q) * w (ix2 q h) := by
  show FloatOps.matmul _ none x w _ (ix2 r h) = _
  rw [Ideal.matmul_constant_zero_apply,
    ← Equiv.sum_comp (contrEquiv1 dot_S2048x2048_S2048x768_S2048x768_1_0_0_1_n_n 2048 rfl rfl).symm]
  refine Finset.sum_congr rfl fun q _ => ?_
  have hq := contrEquiv1_symm_val dot_S2048x2048_S2048x768_S2048x768_1_0_0_1_n_n 2048 rfl rfl q
  congr 2
  · apply Shape.idx_ext₂
    · exact mmLhs_0 _ _
    · exact (mmLhs_1 _ _).trans hq
  · apply Shape.idx_ext₂
    · exact (mmRhs_0 _ _).trans hq
    · exact mmRhs_1 _ _

/-- The 2048 × 768 product re-laid as 16 × 128 × 768 reads, at (b, s, h), row 128 b + s. -/
theorem relaid_apply {α : Type} (v : S2048x768.Idx → α) (b : Fin 16) (s : Fin 128) (h : Fin 768) :
    shapeCast S16x128x768 v shapeCasts_S2048x768_S16x128x768 (ix3 b s h) = v (ix2 (Cert.Spec.row b s) h) :=
  shapeCast_apply v _ _ _ (by
    rw [Shape.rowMajor_val_two, Shape.rowMajor_val_three]
    show (128 * b.val + s.val) * 768 + h.val = (b.val * 128 + s.val) * 768 + h.val
    rw [Nat.mul_comm 128 b.val])

/-- The first tile's payload at (b, s, h). -/
theorem pay1_apply (x : Vec Ideal S2048x2048 .f32) (w : Vec Ideal S2048x768 .f32) (b : Fin 16) (s : Fin 128) (h : Fin 768) :
    k1_pay1 (F := Ideal) x w (ix3 b s h) = ∑ q : Fin 2048, x (ix2 (Cert.Spec.row b s) q) * w (ix2 q h) := by
  unfold k1_pay1
  refine (relaid_apply _ b s h).trans ?_
  refine (tileProduct_apply _ _ _ _).trans ?_
  refine Finset.sum_congr rfl fun q _ => ?_
  rw [shapeCast_self, shapeCast_self]
  rfl

/-- A middle tile's payload at (b, s, h): what was there plus the tile's product. -/
theorem pay2_apply (acc : Vec Ideal S16x128x768 .f32) (x : Vec Ideal S2048x2048 .f32) (w : Vec Ideal S2048x768 .f32)
    (b : Fin 16) (s : Fin 128) (h : Fin 768) :
    k1_pay2 (F := Ideal) acc x w (ix3 b s h)
      = acc (ix3 b s h) + ∑ q : Fin 2048, x (ix2 (Cert.Spec.row b s) q) * w (ix2 q h) := by
  unfold k1_pay2
  refine (addf_apply _ _ _).trans ?_
  rw [shapeCast_self]
  refine congrArg (acc (ix3 b s h) + ·) ?_
  refine (relaid_apply _ b s h).trans ?_
  refine (tileProduct_apply _ _ _ _).trans ?_
  refine Finset.sum_congr rfl fun q _ => ?_
  rw [shapeCast_self, shapeCast_self]
  rfl

/-- A tile offset below 2048 compared, signed, with 1850. -/
theorem lt1850_bit : ∀ q : Fin 2048, IntOp.cmpi .slt (BitVec.ofNat 32 q.val) 1850#32 = if q.val < 1850 then 1#1 else 0#1 := by
  decide +kernel

/-- The mask tile with its columns from 1850 on replaced by zero, at (r, q). -/
theorem cutX_apply (x : FVec Ideal S2048x2048 .f32) (r q : Fin 2048) :
    select (cmpi .slt (iota .tc S2048x2048 32 [1] iota_S2048x2048_d1_w32) (broadcast S2048x2048 1850#32)) x
        (broadcast S2048x2048 (Scalar.ofBits (F := Ideal) .f32 0x00000000#32)) (ix2 r q)
      = if q.val < 1850 then x (ix2 r q) else 0 := by
  rw [select_apply]
  show Scalar.select (IntOp.cmpi .slt (iota .tc S2048x2048 32 [1] iota_S2048x2048_d1_w32 (ix2 r q)) 1850#32) (x (ix2 r q)) (Ideal.ofBits .f32 0x00000000#32) = _
  rw [iota_single_apply, Ideal.ofBits_zero_f32]
  show Scalar.select (IntOp.cmpi .slt (BitVec.ofNat 32 q.val) 1850#32) (x (ix2 r q)) 0 = _
  rw [lt1850_bit]
  split
  · exact select_one _ _
  · exact select_zero _ _

/-- The weight tile with its rows from 1850 on replaced by zero, at (q, h). -/
theorem cutW_apply (w : FVec Ideal S2048x768 .f32) (q : Fin 2048) (h : Fin 768) :
    select (cmpi .slt (iota .tc S2048x768 32 [0] iota_S2048x768_d0_w32) (broadcast S2048x768 1850#32)) w
        (broadcast S2048x768 (Scalar.ofBits (F := Ideal) .f32 0x00000000#32)) (ix2 q h)
      = if q.val < 1850 then w (ix2 q h) else 0 := by
  rw [select_apply]
  show Scalar.select (IntOp.cmpi .slt (iota .tc S2048x768 32 [0] iota_S2048x768_d0_w32 (ix2 q h)) 1850#32) (w (ix2 q h)) (Ideal.ofBits .f32 0x00000000#32) = _
  rw [iota_single_apply, Ideal.ofBits_zero_f32]
  show Scalar.select (IntOp.cmpi .slt (BitVec.ofNat 32 q.val) 1850#32) (w (ix2 q h)) 0 = _
  rw [lt1850_bit]
  split
  · exact select_one _ _
  · exact select_zero _ _

/-- The last tile's payload at (b, s, h): what was there plus the product of the two tiles cut at offset 1850. -/
theorem pay3_apply (acc : Vec Ideal S16x128x768 .f32) (x : Vec Ideal S2048x2048 .f32) (w : Vec Ideal S2048x768 .f32)
    (b : Fin 16) (s : Fin 128) (h : Fin 768) :
    k1_pay3 (F := Ideal) acc x w (ix3 b s h)
      = acc (ix3 b s h) + ∑ q : Fin 2048, (if q.val < 1850 then x (ix2 (Cert.Spec.row b s) q) else 0)
          * (if q.val < 1850 then w (ix2 q h) else 0) := by
  unfold k1_pay3
  refine (addf_apply _ _ _).trans ?_
  rw [shapeCast_self]
  refine congrArg (acc (ix3 b s h) + ·) ?_
  refine (relaid_apply _ b s h).trans ?_
  refine (tileProduct_apply _ _ _ _).trans ?_
  refine Finset.sum_congr rfl fun q _ => ?_
  rw [shapeCast_self, shapeCast_self]
  refine congrArg₂ (· * ·) ?_ ?_
  · exact (truncf_apply (ψ := .bf16) _ bitsLt_bf16_f32 _).trans (cutX_apply x _ q)
  · exact (truncf_apply (ψ := .bf16) _ bitsLt_bf16_f32 _).trans (cutW_apply w q h)

/-! ## The two operand tiles at an index -/

/-- Where the mask's block at point t sits (block column t) and how much of it lies inside the array: all 2048
    columns up to t = 7, the first 1850 at t = 8. -/
theorem xwin_facts : ∀ t : Fin cfg1.N, win1_0.index t (0 : Fin 2) = 0 ∧ win1_0.index t (1 : Fin 2) = t.val
    ∧ win1_0.xsize (grid1.coords t) (0 : Fin 2) = 2048 ∧ win1_0.xsize (grid1.coords t) (1 : Fin 2) = min 2048 (18234 - 2048 * t.val) :=
  (by decide +kernel : ∀ t : Fin grid1.N, _)

/-- Where the weight's block at point t sits (block row t) and how much of it lies inside the array. -/
theorem wwin_facts : ∀ t : Fin cfg1.N, win1_1.index t (0 : Fin 2) = t.val ∧ win1_1.index t (1 : Fin 2) = 0
    ∧ win1_1.xsize (grid1.coords t) (0 : Fin 2) = min 2048 (18234 - 2048 * t.val) ∧ win1_1.xsize (grid1.coords t) (1 : Fin 2) = 768 :=
  (by decide +kernel : ∀ t : Fin grid1.N, _)

/-- The mask tile of point t at (r, q): the staged mask at column 2048 t + q while that is inside the array, the zero
    filler past its end. -/
theorem xtile1_apply (c : Dev nD) (t : Fin cfg1.N) (r q : Fin 2048) :
    xtile1 (F := Ideal) V c t (ix2 r q)
      = if hk : t.val * 2048 + q.val < 18234 then xstg V c (ix2 r ⟨t.val * 2048 + q.val, hk⟩) else 0 := by
  obtain ⟨e0, e1, s0, s1⟩ := xwin_facts t
  have hmv : win1_0.moved (grid1.coords t) (ix2 r q) = true ↔ t.val * 2048 + q.val < 18234 := by
    rw [Pipeline.Window.moved_iff]
    constructor
    · intro h
      have h1 : q.val < win1_0.xsize (grid1.coords t) (1 : Fin 2) := h 1
      rw [s1] at h1; omega
    · intro h a
      match a with
      | ⟨0, _⟩ => show r.val < win1_0.xsize (grid1.coords t) (0 : Fin 2); rw [s0]; exact r.isLt
      | ⟨1, _⟩ => show q.val < win1_0.xsize (grid1.coords t) (1 : Fin 2); rw [s1]; have := q.isLt; omega
  unfold xtile1
  by_cases hk : t.val * 2048 + q.val < 18234
  · rw [dif_pos hk]
    unfold Pipeline.Window.fill
    rw [dif_pos (hmv.mpr hk)]
    unfold iblk1
    rw [View.read_apply]
    show V c main_v1 (((cfg1.win 0).blk t).view.emb _) = V c main_v1 _
    refine congrArg (V c main_v1) ?_
    funext a; apply Fin.ext
    match a with
    | ⟨0, _⟩ => show win1_0.index t (0 : Fin 2) * 2048 + 1 * r.val = r.val; rw [e0]; omega
    | ⟨1, _⟩ => show win1_0.index t (1 : Fin 2) * 2048 + 1 * q.val = t.val * 2048 + q.val; rw [e1]; omega
  · rw [dif_neg hk, Pipeline.Window.fill_of_not_moved _ _ _ _ (mt hmv.mp hk)]
    exact Ideal.ofBits_zero_f32

/-- The weight tile of point t at (q, h): the staged weight at row 2048 t + q while that is inside the array, the zero
    filler past its end. -/
theorem wtile1_apply (c : Dev nD) (t : Fin cfg1.N) (q : Fin 2048) (h : Fin 768) :
    wtile1 (F := Ideal) V c t (ix2 q h)
      = if hk : t.val * 2048 + q.val < 18234 then wstg V c (ix2 ⟨t.val * 2048 + q.val, hk⟩ h) else 0 := by
  obtain ⟨e0, e1, s0, s1⟩ := wwin_facts t
  have hmv : win1_1.moved (grid1.coords t) (ix2 q h) = true ↔ t.val * 2048 + q.val < 18234 := by
    rw [Pipeline.Window.moved_iff]
    constructor
    · intro hm
      have h0 : q.val < win1_1.xsize (grid1.coords t) (0 : Fin 2) := hm 0
      rw [s0] at h0; omega
    · intro hm a
      match a with
      | ⟨0, _⟩ => show q.val < win1_1.xsize (grid1.coords t) (0 : Fin 2); rw [s0]; have := q.isLt; omega
      | ⟨1, _⟩ => show h.val < win1_1.xsize (grid1.coords t) (1 : Fin 2); rw [s1]; exact h.isLt
  unfold wtile1
  by_cases hk : t.val * 2048 + q.val < 18234
  · rw [dif_pos hk]
    unfold Pipeline.Window.fill
    rw [dif_pos (hmv.mpr hk)]
    unfold iblk1
    rw [View.read_apply]
    show V c main_v2 (((cfg1.win 1).blk t).view.emb _) = V c main_v2 _
    refine congrArg (V c main_v2) ?_
    funext a; apply Fin.ext
    match a with
    | ⟨0, _⟩ => show win1_1.index t (0 : Fin 2) * 2048 + 1 * q.val = t.val * 2048 + q.val; rw [e0]; omega
    | ⟨1, _⟩ => show win1_1.index t (1 : Fin 2) * 768 + 1 * h.val = h.val; rw [e1]; omega
  · rw [dif_neg hk, Pipeline.Window.fill_of_not_moved _ _ _ _ (mt hmv.mp hk)]
    exact Ideal.ofBits_zero_f32

/-- One product of the two tiles' entries is one term of the contraction. -/
theorem tile_term (c : Dev nD) (t : Fin cfg1.N) (b : Fin 16) (s : Fin 128) (h : Fin 768) (q : Fin 2048) :
    xtile1 (F := Ideal) V c t (ix2 (Cert.Spec.row b s) q) * wtile1 (F := Ideal) V c t (ix2 q h)
      = term1 V c b s h (t.val * 2048 + q.val) := by
  rw [xtile1_apply, wtile1_apply]
  unfold term1
  by_cases hk : t.val * 2048 + q.val < 18234
  · rw [dif_pos hk, dif_pos hk, dif_pos hk]
  · rw [dif_neg hk, dif_neg hk, dif_neg hk, mul_zero]

/-- The sum over a tile's 2048 offsets of the products of the two tiles' entries is the tile's part of the contraction. -/
theorem tile_sum (c : Dev nD) (t : Fin cfg1.N) (b : Fin 16) (s : Fin 128) (h : Fin 768) :
    ∑ q : Fin 2048, xtile1 (F := Ideal) V c t (ix2 (Cert.Spec.row b s) q) * wtile1 (F := Ideal) V c t (ix2 q h)
      = ∑ q ∈ range 2048, term1 V c b s h (t.val * 2048 + q) := by
  rw [← Fin.sum_univ_eq_sum_range (fun q => term1 V c b s h (t.val * 2048 + q)) 2048]
  exact Finset.sum_congr rfl fun q _ => tile_term V c t b s h q

/-- The same for the last tile, whose entries the body replaces by zero from offset 1850 on: there the term is zero
    already, the index 8 · 2048 + q being past 18234. -/
theorem tile_sum_cut (c : Dev nD) (t : Fin cfg1.N) (ht : t.val = 8) (b : Fin 16) (s : Fin 128) (h : Fin 768) :
    ∑ q : Fin 2048, (if q.val < 1850 then xtile1 (F := Ideal) V c t (ix2 (Cert.Spec.row b s) q) else 0)
        * (if q.val < 1850 then wtile1 (F := Ideal) V c t (ix2 q h) else 0)
      = ∑ q ∈ range 2048, term1 V c b s h (t.val * 2048 + q) := by
  rw [← Fin.sum_univ_eq_sum_range (fun q => term1 V c b s h (t.val * 2048 + q)) 2048]
  refine Finset.sum_congr rfl fun q _ => ?_
  by_cases hq : q.val < 1850
  · rw [if_pos hq, if_pos hq]; exact tile_term V c t b s h q
  · rw [if_neg hq, if_neg hq, mul_zero]
    unfold term1
    rw [dif_neg (by omega)]

/-! ## The running product at an index, and the result array -/

/-- After point n the running product at (b, s, h) is the sum of the first n + 1 tiles' parts of the contraction. -/
theorem acc1_apply (c : Dev nD) (b : Fin 16) (s : Fin 128) (h : Fin 768) : ∀ (n : ℕ) (hn : n < cfg1.N),
    acc1 (F := Ideal) V c n hn (ix3 b s h) = ∑ j ∈ range (n + 1), ∑ q ∈ range 2048, term1 V c b s h (j * 2048 + q)
  | 0, hn => by
    show k1_pay1 (F := Ideal) (xtile1 V c ⟨0, hn⟩) (wtile1 V c ⟨0, hn⟩) (ix3 b s h) = _
    rw [pay1_apply, tile_sum, Finset.sum_range_one]
  | n + 1, hn => by
    have ih := acc1_apply c b s h n (Nat.lt_of_succ_lt hn)
    rw [Finset.sum_range_succ, ← ih]
    show (if n + 1 < 8 then k1_pay2 (F := Ideal) (acc1 V c n (Nat.lt_of_succ_lt hn)) (xtile1 V c ⟨n + 1, hn⟩) (wtile1 V c ⟨n + 1, hn⟩)
      else k1_pay3 (F := Ideal) (acc1 V c n (Nat.lt_of_succ_lt hn)) (xtile1 V c ⟨n + 1, hn⟩) (wtile1 V c ⟨n + 1, hn⟩)) (ix3 b s h) = _
    by_cases h8 : n + 1 < 8
    · rw [if_pos h8, pay2_apply, tile_sum]
    · rw [if_neg h8, pay3_apply, tile_sum_cut V c ⟨n + 1, hn⟩ (by have hN : n + 1 < 9 := lt_of_lt_of_eq hn N_1; show n + 1 = 8; omega)]

theorem last_lt : 8 < cfg1.N := by decide

/-- The result's block is the whole array, at block index zero on every axis. -/
theorem owin_facts : ∀ t : Fin cfg1.N, win1_2.index t (0 : Fin 3) = 0 ∧ win1_2.index t (1 : Fin 3) = 0 ∧ win1_2.index t (2 : Fin 3) = 0 :=
  (by decide +kernel : ∀ t : Fin grid1.N, _)

/-- The one point that writes the result back is the last. -/
theorem eq_last_of_flush (t : Fin cfg1.N) (hf : (cfg1.win 2).flush t = true) : t = ⟨8, last_lt⟩ := by
  have h := (flush1_2 t).mp hf
  have hN : t.val < 9 := lt_of_lt_of_eq t.isLt N_1
  exact Fin.ext (by show t.val = 8; omega)

/-- What it writes is the running product after the last point, read through the whole-array block. -/
theorem flushed_eq (c : Dev nD) (t : Fin cfg1.N) (hf : (cfg1.win 2).flush t = true) :
    (dat1 (F := Ideal) V c).flushed 2 t = ((cfg1.win 2).blk t).view.read (Elt Ideal) (acc1 (F := Ideal) V c 8 last_lt) := by
  obtain rfl := eq_last_of_flush t hf
  obtain ⟨e0, e1, e2⟩ := owin_facts ⟨8, last_lt⟩
  show (cfg1.win 2).cut (grid1.coords ⟨8, last_lt⟩) ((dat1 (F := Ideal) V c).after 2 ⟨8, last_lt⟩) = _
  rw [after1_2]
  funext j
  rw [View.read_apply]
  show acc1 (F := Ideal) V c 8 last_lt (win1_2.xinj (grid1.coords ⟨8, last_lt⟩) j) = acc1 (F := Ideal) V c 8 last_lt (((cfg1.win 2).blk ⟨8, last_lt⟩).view.emb j)
  refine congrArg (acc1 (F := Ideal) V c 8 last_lt) ?_
  funext a; apply Fin.ext
  match a with
  | ⟨0, _⟩ => show (j 0).val = win1_2.index ⟨8, last_lt⟩ (0 : Fin 3) * 16 + 1 * (j 0).val; rw [e0]; omega
  | ⟨1, _⟩ => show (j 1).val = win1_2.index ⟨8, last_lt⟩ (1 : Fin 3) * 128 + 1 * (j 1).val; rw [e1]; omega
  | ⟨2, _⟩ => show (j 2).val = win1_2.index ⟨8, last_lt⟩ (2 : Fin 3) * 768 + 1 * (j 2).val; rw [e2]; omega

/-- Every index of the result array is in the last point's block. -/
theorem covered (i : S16x128x768.Idx) :
    ∃ t : Fin cfg1.N, (cfg1.win 2).flush t = true ∧ i ∈ ((cfg1.win 2).blk t).view.set := by
  obtain ⟨e0, e1, e2⟩ := owin_facts ⟨8, last_lt⟩
  refine ⟨⟨8, last_lt⟩, (flush1_2 _).mpr rfl, ?_⟩
  show i ∈ ((View.whole main_v4).slice (win1_2.rect ⟨8, last_lt⟩)).set
  rw [View.set_slice_whole, Rect.mem_set_unit]
  intro a
  match a with
  | ⟨0, _⟩ =>
    show win1_2.index ⟨8, last_lt⟩ (0 : Fin 3) * 16 ≤ (i 0).val ∧ (i 0).val < win1_2.index ⟨8, last_lt⟩ (0 : Fin 3) * 16 + 16
    rw [e0]; have : (i 0).val < 16 := (i 0).isLt; omega
  | ⟨1, _⟩ =>
    show win1_2.index ⟨8, last_lt⟩ (1 : Fin 3) * 128 ≤ (i 1).val ∧ (i 1).val < win1_2.index ⟨8, last_lt⟩ (1 : Fin 3) * 128 + 128
    rw [e1]; have : (i 1).val < 128 := (i 1).isLt; omega
  | ⟨2, _⟩ =>
    show win1_2.index ⟨8, last_lt⟩ (2 : Fin 3) * 768 ≤ (i 2).val ∧ (i 2).val < win1_2.index ⟨8, last_lt⟩ (2 : Fin 3) * 768 + 768
    rw [e2]; have : (i 2).val < 768 := (i 2).isLt; omega

/-- The result array after the region is the running product after the last point. -/
theorem final_eq_acc (c : Dev nD) :
    ((dat1 (F := Ideal) V c).arrAt 2 cfg1.N : Vec Ideal S16x128x768 .f32) = acc1 (F := Ideal) V c 8 last_lt :=
  (dat1 (F := Ideal) V c).arrAt_eq_of_cover 2 (acc1 (F := Ideal) V c 8 last_lt) (flushed_eq V c) covered

end Region1

/-- REGION 1'S VALUE, over the arrays `V` the region is entered from. -/
theorem region1_value (c : Dev nD) (b : Fin 16) (s : Fin 128) (h : Fin 768) :
    ((dat1 (F := Ideal) V c).arrAt 2 cfg1.N : Vec Ideal S16x128x768 .f32) (ix3 b s h)
      = ∑ j ∈ range 9, ∑ q ∈ range 2048, term1 V c b s h (j * 2048 + q) := by
  rw [Region1.final_eq_acc]
  exact Region1.acc1_apply V c b s h 8 Region1.last_lt

end Cert.KernelIdeal.HandValue

end
-- ==== Proof.KiValue.lean ====
/-
  The value of the kernel program at the ideal instance: the result buffer after the run holds the soft-embedding
  product of the two argument arrays.

  Region 0's result after its last point is the left-to-right accumulation of six tile products of the mask's
  columns 0 … 12287 with the weight's same rows; region 1's is that of nine tile products over columns 12288 … 30521,
  read through the host slices and the reshape that staged them, the last tile's overhang multiplied as zero by
  zero; the host adds the two. At the ideal instance the rounding to bf16 before the matrix unit is the identity and
  the matrix product into a zero accumulator is the plain sum of products, so index by index the result is the
  specification's sum regrouped (Spec.kernel_grouping).
-/
import proofs.«176018_g2000002446326655_pallasbulk_315_16_alg».proof.Proof.KiRun
import proofs.«176018_g2000002446326655_pallasbulk_315_16_alg».proof.Proof.KiValue0
import proofs.«176018_g2000002446326655_pallasbulk_315_16_alg».proof.Proof.KiValue1
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Finset
open Idealize.SL.Sem

variable (m : (ℓ : Loc nD τ sig) → Buf (Elt Ideal) ℓ) (ρ : Dev nD → PrngReg)

/-! ## The staged operands, read at an index

Before region 0 the host cuts columns 12288 … 30521 out of the mask and re-lays the 16 × 128 leading coordinates
row-major into 2048 rows, and cuts rows 12288 … 30521 out of the weight. Region 0 writes neither staged array, so
region 1 finds them as the host left them. -/

/-- The mask and the weight as launched, as arrays of extended reals. -/
abbrev maskArr (c : Dev nD) : S16x128x30522.Idx → EReal := m ((c : Thread nD τ).loc main_arg1)
abbrev weightArr (c : Dev nD) : S30522x768.Idx → EReal := m ((c : Thread nD τ).loc main_arg0)

/-- The staged mask is the reshape of the slice of the launched mask. -/
theorem stagedMask_eq (c : Dev nD) :
    (V1 (F := Ideal) m ρ c main_v1 : S2048x18234.Idx → EReal)
      = shapeCast S2048x18234 (extractStridedSlice S16x128x18234 ![0, 0, 12288] (maskArr m c)
          slices_S16x128x30522_S16x128x18234_0_0_12288) shapeCasts_S16x128x18234_S2048x18234 := by
  dsimp only [V1, W1, Gen.hostOps0]
  after_results
  rfl

/-- The staged weight is the slice of the launched weight. -/
theorem stagedWeight_eq (c : Dev nD) :
    (V1 (F := Ideal) m ρ c main_v2 : S18234x768.Idx → EReal)
      = extractStridedSlice S18234x768 ![12288, 0] (weightArr m c) slices_S30522x768_S18234x768_12288_0 := by
  dsimp only [V1, W1, Gen.hostOps0]
  after_results

/-- Row 128 b + s, column k of the staged mask is the mask at (b, s, 12288 + k): the reshape keeps the row-major
    position, (128 b + s) · 18234 + k = (b · 128 + s) · 18234 + k, and the slice shifts the last coordinate. -/
theorem stagedMask_apply (c : Dev nD) (b : Fin 16) (s : Fin 128) (k : Fin 18234) (k' : Fin 30522)
    (hk : k'.val = 12288 + k.val) :
    (V1 (F := Ideal) m ρ c main_v1 : S2048x18234.Idx → EReal) (ix2 (Cert.Spec.row b s) k)
      = maskArr m c (ix3 b s k') := by
  rw [stagedMask_eq]
  refine (shapeCast_apply _ _ (ix2 (Cert.Spec.row b s) k) (ix3 b s k) ?_).trans ?_
  · rw [Shape.rowMajor_val_three, Shape.rowMajor_val_two]
    show (b.val * 128 + s.val) * 18234 + k.val = (128 * b.val + s.val) * 18234 + k.val
    omega
  · refine extractStridedSlice_apply _ _ _ (ix3 b s k) (ix3 b s k') (fun ax => ?_)
    match ax with
    | ⟨0, _⟩ => exact (Nat.zero_add _).symm
    | ⟨1, _⟩ => exact (Nat.zero_add _).symm
    | ⟨2, _⟩ => exact hk

/-- Row k of the staged weight is row 12288 + k of the weight. -/
theorem stagedWeight_apply (c : Dev nD) (k : Fin 18234) (h : Fin 768) (k' : Fin 30522)
    (hk : k'.val = 12288 + k.val) :
    (V1 (F := Ideal) m ρ c main_v2 : S18234x768.Idx → EReal) (ix2 k h) = weightArr m c (ix2 k' h) := by
  rw [stagedWeight_eq]
  exact slice2_axis0_apply 12288 _ _ k h k' hk

/-- Region 1 finds the staged arrays as the host left them. -/
theorem xstg_apply (c : Dev nD) (b : Fin 16) (s : Fin 128) (k : Fin 18234) (k' : Fin 30522)
    (hk : k'.val = 12288 + k.val) :
    xstg (V2 (F := Ideal) m ρ) c (ix2 (Cert.Spec.row b s) k) = maskArr m c (ix3 b s k') := by
  have e : xstg (V2 (F := Ideal) m ρ) c = (V1 (F := Ideal) m ρ c main_v1 : S2048x18234.Idx → EReal) := V2_v1 m ρ c
  rw [e]
  exact stagedMask_apply m ρ c b s k k' hk

theorem wstg_apply (c : Dev nD) (k : Fin 18234) (h : Fin 768) (k' : Fin 30522) (hk : k'.val = 12288 + k.val) :
    wstg (V2 (F := Ideal) m ρ) c (ix2 k h) = weightArr m c (ix2 k' h) := by
  have e : wstg (V2 (F := Ideal) m ρ) c = (V1 (F := Ideal) m ρ c main_v2 : S18234x768.Idx → EReal) := V2_v2 m ρ c
  rw [e]
  exact stagedWeight_apply m ρ c k h k' hk

/-- Region 1's k-th term over the staged arrays is the specification's (12288 + k)-th term over the launched ones:
    inside the staged axis by the two readings above, past it zero on both sides. -/
theorem term1_eq (c : Dev nD) (b : Fin 16) (s : Fin 128) (h : Fin 768) (k : ℕ) :
    term1 (V2 (F := Ideal) m ρ) c b s h k = Cert.Spec.term (weightArr m c) (maskArr m c) b s h (12288 + k) := by
  by_cases hk : k < 18234
  · have hk' : 12288 + k < 30522 := by omega
    rw [Cert.Spec.term_of_lt _ _ b s h (12288 + k) hk']
    unfold term1
    rw [dif_pos hk, xstg_apply m ρ c b s ⟨k, hk⟩ ⟨12288 + k, hk'⟩ rfl,
      wstg_apply m ρ c ⟨k, hk⟩ h ⟨12288 + k, hk'⟩ rfl]
  · rw [Cert.Spec.term_of_ge _ _ b s h (12288 + k) (by omega)]
    unfold term1
    rw [dif_neg hk]

/-! ## The assembly -/

/-- THE KERNEL'S VALUE: at every coordinate the result buffer after the run is the specification's sum of the launch
    arrays. -/
theorem kernel_value (c : Dev nD) (b : Fin 16) (s : Fin 128) (h : Fin 768) :
    (W4 (F := Ideal) m ρ c (Proc.devRef .tc main_v5) : Vec Ideal S16x128x768 .f32) (ix3 b s h)
      = Cert.Spec.G (m ((c : Thread nD τ).loc main_arg0)) (m ((c : Thread nD τ).loc main_arg1)) b s h := by
  -- region 0's result: the first six tiles of the specification's terms, the host operations having left the
  -- arguments as launched
  have h0 : (W3 (F := Ideal) m ρ c (Proc.devRef .tc main_v3) : Vec Ideal S16x128x768 .f32) (ix3 b s h)
      = ∑ j ∈ range 6, ∑ q ∈ range 2048, Cert.Spec.term (weightArr m c) (maskArr m c) b s h (j * 2048 + q) := by
    rw [W3_v3]
    refine (region0_value (V1 (F := Ideal) m ρ) c b s h).trans ?_
    rw [V1_arg0, V1_arg1]
  -- region 1's result: nine tiles of the specification's terms from 12288 on
  have h1 : (W3 (F := Ideal) m ρ c (Proc.devRef .tc main_v4) : Vec Ideal S16x128x768 .f32) (ix3 b s h)
      = ∑ j ∈ range 9, ∑ q ∈ range 2048,
          Cert.Spec.term (weightArr m c) (maskArr m c) b s h (12288 + (j * 2048 + q)) := by
    have e1 : (∑ j ∈ range 9, ∑ q ∈ range 2048, term1 (V2 (F := Ideal) m ρ) c b s h (j * 2048 + q))
        = ∑ j ∈ range 9, ∑ q ∈ range 2048,
            Cert.Spec.term (weightArr m c) (maskArr m c) b s h (12288 + (j * 2048 + q)) :=
      sum_congr rfl fun j _ => sum_congr rfl fun q _ => term1_eq m ρ c b s h (j * 2048 + q)
    rw [W3_v4]
    exact (region1_value (V2 (F := Ideal) m ρ) c b s h).trans e1
  -- the host adds the two, and the two groups of tiles make up the whole contraction
  refine (congrFun (W4_v5 (F := Ideal) m ρ c) (ix3 b s h)).trans ?_
  refine (addf_apply _ _ (ix3 b s h)).trans ?_
  rw [h0, h1]
  exact Cert.Spec.kernel_grouping (Cert.Spec.term (weightArr m c) (maskArr m c) b s h)
    (fun k hk => Cert.Spec.term_of_ge _ _ b s h k hk)

end Cert.KernelIdeal.HandValue

end
-- ==== Proof.RefAcc.lean ====
/-
  The reference's accumulator at the ideal instance. The pallas_call's grid is 8 row tiles × 1 × 60 contraction tiles,
  point t = 60 i + k; its operands are the padded arrays x (2048 × 30720) and w (30720 × 768) the region is entered
  from. At k = 0 the scratch accumulator is zeroed, every point adds the product of its 256 × 512 tile of x with its
  512 × 768 tile of w, and at k = 59 the accumulator is stored to the output block. So at the last contraction tile
  of row tile i the output block holds, at (r, h), the sum over the sixty tiles j and the 512 offsets q of
  x[256 i + r, 512 j + q] · w[512 j + q, h]: by induction over the points of a row tile, the matrix product into the
  accumulator being the accumulator plus the plain sum of products at the ideal instance.
-/
import proofs.«176018_g2000002446326655_pallasbulk_315_16_alg».proof.Proof.Gen.ReferenceIdeal.Frame
import proofs.«176018_g2000002446326655_pallasbulk_315_16_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.ReferenceIdeal.HandValue

open Cert.ReferenceIdeal Cert.ReferenceIdeal.Gen
open Idealize.ShloMosaic Idealize.ShloMosaic.TcCoe Idealize.ShloMosaic.ValueIdx Finset
open Idealize.SL.Sem

section Pieces
variable {F : FTy → Type} [FloatOps F]

/-- The offsets of a whole-buffer load or store are all zero. -/
theorem offs_zero : (![0, 0] : Fin 2 → Nat) = fun _ => 0 := funext fun a => by fin_cases a <;> rfl

/-- At the first contraction tile (k = 0) the accumulator is stored twice: the zero block, then, read back, the zero
    block plus the tile product. What it holds afterwards is the later store's value. -/
theorem acc_A (c : Dev nD) (i : grid0.Coords) (a3 : Memref sig .tc .vmem S256x512 .f32) (h3 : a3.IsWhole)
    (a4 : Memref sig .tc .vmem S512x768 .f32) (h4 : a4.IsWhole) (a5 : Memref sig .tc .vmem S256x768 .f32) (h5 : a5.IsWhole)
    (a6 : Memref sig .tc .vmem S256x768 .f32) (h6 : a6.IsWhole) (hc0 : cond0_0 i) (hc1 : ¬cond0_1 i)
    (x0 : Vec F S256x512 .f32) (x1 : Vec F S512x768 .f32) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x768) offs_zero]
  simp only [View.readAt_eq_ld, h3.read_unread, h4.read_unread, View.ld_unit_zero (S := S256x512) offs_zero,
    View.ld_unit_zero (S := S512x768) offs_zero, View.readCov_unit_zero (S := S256x768) _ offs_zero]

/-- At a middle contraction tile (0 < k < 59) the accumulator is stored once: what the point before left plus the
    tile product. -/
theorem acc_B (c : Dev nD) (i : grid0.Coords) (a3 : Memref sig .tc .vmem S256x512 .f32) (h3 : a3.IsWhole)
    (a4 : Memref sig .tc .vmem S512x768 .f32) (h4 : a4.IsWhole) (a5 : Memref sig .tc .vmem S256x768 .f32) (h5 : a5.IsWhole)
    (a6 : Memref sig .tc .vmem S256x768 .f32) (h6 : a6.IsWhole) (hc0 : ¬cond0_0 i) (hc1 : ¬cond0_1 i)
    (x0 : Vec F S256x512 .f32) (x1 : Vec F S512x768 .f32) (xs0 : Vec F S256x768 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero offs_zero]
  simp only [View.readAt_eq_ld, h3.read_unread, h4.read_unread, h6.read_unread, View.ld_unit_zero (S := S256x512) offs_zero,
    View.ld_unit_zero (S := S512x768) offs_zero, View.ld_unit_zero (S := S256x768) offs_zero]

/-- At the last contraction tile (k = 59) the accumulator is stored once, as at a middle tile, -/
theorem acc_C (c : Dev nD) (i : grid0.Coords) (a3 : Memref sig .tc .vmem S256x512 .f32) (h3 : a3.IsWhole)
    (a4 : Memref sig .tc .vmem S512x768 .f32) (h4 : a4.IsWhole) (a5 : Memref sig .tc .vmem S256x768 .f32) (h5 : a5.IsWhole)
    (a6 : Memref sig .tc .vmem S256x768 .f32) (h6 : a6.IsWhole) (hc0 : ¬cond0_0 i) (hc1 : cond0_1 i)
    (x0 : Vec F S256x512 .f32) (x1 : Vec F S512x768 .f32) (xs0 : Vec F S256x768 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero offs_zero]
  simp only [View.readAt_eq_ld, h3.read_unread, h4.read_unread, h6.read_unread, View.ld_unit_zero (S := S256x512) offs_zero,
    View.ld_unit_zero (S := S512x768) offs_zero, View.ld_unit_zero (S := S256x768) offs_zero]

/-- and the output block is stored with the accumulator read back after that store: the same value. -/
theorem out_C (c : Dev nD) (i : grid0.Coords) (a3 : Memref sig .tc .vmem S256x512 .f32) (h3 : a3.IsWhole)
    (a4 : Memref sig .tc .vmem S512x768 .f32) (h4 : a4.IsWhole) (a5 : Memref sig .tc .vmem S256x768 .f32) (h5 : a5.IsWhole)
    (a6 : Memref sig .tc .vmem S256x768 .f32) (h6 : a6.IsWhole) (hc0 : ¬cond0_0 i) (hc1 : cond0_1 i)
    (x0 : Vec F S256x512 .f32) (x1 : Vec F S512x768 .f32) (xs0 : Vec F S256x768 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero offs_zero]
  simp only [View.readAt_eq_ld, h3.read_unread, h4.read_unread, h6.read_unread, View.ld_unit_zero (S := S256x512) offs_zero,
    View.ld_unit_zero (S := S512x768) offs_zero, View.ld_unit_zero (S := S256x768) offs_zero,
    View.readCov_unit_zero (S := S256x768) _ offs_zero]

end Pieces

section AtIdeal

/-! The matrix product's operand indices: the left operand is read at (row, contraction position), the right at
    (contraction position, column). One lemma per operand axis, at the literal axes. -/

theorem lhs_mm_0 (i : S256x768.Idx) (q : dot_S256x512_S512x768_S256x768_1_0_0_1_n_n.contr.Idx) :
    (dot_S256x512_S512x768_S256x768_1_0_0_1_n_n.lhsIdx i q 0).val = (i 0).val := by
  unfold DotDims.lhsIdx
  rw [dif_neg (show ¬(0 : Fin S256x512.rank) ∈ dot_S256x512_S512x768_S256x768_1_0_0_1_n_n.lhsBatch by decide),
    dif_pos (show (0 : Fin S256x512.rank) ∈ dot_S256x512_S512x768_S256x768_1_0_0_1_n_n.lhsNonContracting by decide)]
  rfl
theorem lhs_mm_1 (i : S256x768.Idx) (q : dot_S256x512_S512x768_S256x768_1_0_0_1_n_n.contr.Idx) :
    (dot_S256x512_S512x768_S256x768_1_0_0_1_n_n.lhsIdx i q 1).val = (q ⟨0, by decide⟩).val :=
  dot_S256x512_S512x768_S256x768_1_0_0_1_n_n.lhsIdx_val_of_single rfl i q
theorem rhs_mm_0 (i : S256x768.Idx) (q : dot_S256x512_S512x768_S256x768_1_0_0_1_n_n.contr.Idx) :
    (dot_S256x512_S512x768_S256x768_1_0_0_1_n_n.rhsIdx i q 0).val = (q ⟨0, by decide⟩).val :=
  dot_S256x512_S512x768_S256x768_1_0_0_1_n_n.rhsIdx_val_of_single rfl i q
theorem rhs_mm_1 (i : S256x768.Idx) (q : dot_S256x512_S512x768_S256x768_1_0_0_1_n_n.contr.Idx) :
    (dot_S256x512_S512x768_S256x768_1_0_0_1_n_n.rhsIdx i q 1).val = (i 1).val := by
  unfold DotDims.rhsIdx
  rw [dif_neg (show ¬(1 : Fin S512x768.rank) ∈ dot_S256x512_S512x768_S256x768_1_0_0_1_n_n.rhsBatch by decide),
    dif_pos (show (1 : Fin S512x768.rank) ∈ dot_S256x512_S512x768_S256x768_1_0_0_1_n_n.rhsNonContracting by decide)]
  rfl

/-- The tile product into the zero accumulator, at (r, h): the plain sum over the 512 contraction positions. -/
theorem tile_mm_apply (x : FVec Ideal S256x512 .f32) (w : FVec Ideal S512x768 .f32) (r : Fin 256) (h : Fin 768) :
    matmul (F := Ideal) dot_S256x512_S512x768_S256x768_1_0_0_1_n_n none x w (constant (F := Ideal) S256x768 .f32 0x00000000#32) (ix2 r h)
      = ∑ q : Fin 512, x (ix2 r q) * w (ix2 q h) := by
  simp only [matmul]
  rw [Ideal.matmul_constant_zero_apply, ← Equiv.sum_comp (contrEquiv1 dot_S256x512_S512x768_S256x768_1_0_0_1_n_n 512 rfl rfl).symm]
  refine Finset.sum_congr rfl fun k _ => ?_
  have hk := contrEquiv1_symm_val dot_S256x512_S512x768_S256x768_1_0_0_1_n_n 512 rfl rfl k
  have el : dot_S256x512_S512x768_S256x768_1_0_0_1_n_n.lhsIdx (ix2 r h) ((contrEquiv1 dot_S256x512_S512x768_S256x768_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S256x512_S512x768_S256x768_1_0_0_1_n_n.rhsIdx (ix2 r h) ((contrEquiv1 dot_S256x512_S512x768_S256x768_1_0_0_1_n_n 512 rfl rfl).symm k) = ix2 k h := funext fun a => Fin.ext (by
    match a with
    | ⟨0, _⟩ => exact (rhs_mm_0 _ _).trans hk
    | ⟨1, _⟩ => exact rhs_mm_1 _ _)
  rw [el, er]

/-- The accumulate step at (r, h): the accumulator's entry plus the tile product's. -/
theorem step_apply (acc : FVec Ideal S256x768 .f32) (x : FVec Ideal S256x512 .f32) (w : FVec Ideal S512x768 .f32)
    (r : Fin 256) (h : Fin 768) :
    k0_pay2 (F := Ideal) acc x w (ix2 r h) = acc (ix2 r h) + ∑ q : Fin 512, x (ix2 r q) * w (ix2 q h) := by
  unfold k0_pay2
  simp only [shapeCast_self]
  refine (addf_apply _ _ (ix2 r h)).trans ?_
  exact congrArg (acc (ix2 r h) + ·) (tile_mm_apply x w r h)

/-- The zeroed accumulator's entries are the extended real zero. -/
theorem zeroed_apply (r : Fin 256) (h : Fin 768) : k0_pay1 (F := Ideal) (ix2 r h) = 0 := by
  unfold k0_pay1
  simp only [shapeCast_self]
  exact Ideal.ofBits_zero_f32

end AtIdeal

variable (m : (ℓ : Loc nD τ sig) → Buf (Elt Ideal) ℓ)

/-- The padded mask and weight as the region finds them, as arrays of extended reals. -/
abbrev xpad (c : Dev nD) : S2048x30720.Idx → EReal := V m c main_v1
abbrev wpad (c : Dev nD) : S30720x768.Idx → EReal := V m c main_v2

/-- The k-th term of the padded contraction at row R and column h of the product; zero outside the arrays. -/
def tpad (c : Dev nD) (R : ℕ) (h : Fin 768) (k : ℕ) : EReal :=
  if hk : R < 2048 ∧ k < 30720 then xpad m c (ix2 ⟨R, hk.1⟩ ⟨k, hk.2⟩) * wpad m c (ix2 ⟨k, hk.2⟩ h) else 0

section Blocks

/-- The two input blocks at a point, as matrices of extended reals. -/
abbrev xblk (c : Dev nD) (t : Fin cfg0.N) : FVec Ideal S256x512 .f32 := iblk m c 0 t
abbrev wblk (c : Dev nD) (t : Fin cfg0.N) : FVec Ideal S512x768 .f32 := iblk m c 1 t

/-- The block index maps over the grid: point t = 60 i + k reads block (i, k) of x and block (k, 0) of w. -/
theorem xblk_index : ∀ t : Fin cfg0.N, win0_0.index t 0 = t.val / 60 ∧ win0_0.index t 1 = t.val % 60 :=
  (by decide +kernel : ∀ t : Fin grid0.N, win0_0.index t 0 = t.val / 60 ∧ win0_0.index t 1 = t.val % 60)
theorem wblk_index : ∀ t : Fin cfg0.N, win0_1.index t 0 = t.val % 60 ∧ win0_1.index t 1 = 0 :=
  (by decide +kernel : ∀ t : Fin grid0.N, win0_1.index t 0 = t.val % 60 ∧ win0_1.index t 1 = 0)

/-- x's block at point t holds, at (r, q), the array's entry (256 i + r, 512 k + q). -/
theorem xblk_apply (c : Dev nD) (t : Fin cfg0.N) (r : Fin 256) (q : Fin 512)
    (hR : 256 * (t.val / 60) + r.val < 2048) (hK : (t.val % 60) * 512 + q.val < 30720) :
    xblk m c t (ix2 r q) = xpad m c (ix2 ⟨256 * (t.val / 60) + r.val, hR⟩ ⟨(t.val % 60) * 512 + q.val, hK⟩) := by
  unfold xblk iblk
  rw [View.read_apply]
  show V m c main_v1 _ = V m c main_v1 _
  refine congrArg (V m c main_v1) ?_
  funext a
  apply Fin.ext
  match a with
  | ⟨0, _⟩ => show win0_0.index t 0 * 256 + 1 * r.val = 256 * (t.val / 60) + r.val; rw [(xblk_index t).1]; omega
  | ⟨1, _⟩ => show win0_0.index t 1 * 512 + 1 * q.val = (t.val % 60) * 512 + q.val; rw [(xblk_index t).2]; omega

/-- w's block at point t holds, at (q, h), the array's entry (512 k + q, h). -/
theorem wblk_apply (c : Dev nD) (t : Fin cfg0.N) (q : Fin 512) (h : Fin 768)
    (hK : (t.val % 60) * 512 + q.val < 30720) :
    wblk m c t (ix2 q h) = wpad m c (ix2 ⟨(t.val % 60) * 512 + q.val, hK⟩ h) := by
  unfold wblk iblk
  rw [View.read_apply]
  show V m c main_v2 _ = V m c main_v2 _
  refine congrArg (V m c main_v2) ?_
  funext a
  apply Fin.ext
  match a with
  | ⟨0, _⟩ => show win0_1.index t 0 * 512 + 1 * q.val = (t.val % 60) * 512 + q.val; rw [(wblk_index t).1]; omega
  | ⟨1, _⟩ => show win0_1.index t 1 * 768 + 1 * h.val = h.val; rw [(wblk_index t).2]; omega

end Blocks

section Invariant

theorem tpad_of_lt (c : Dev nD) (R : ℕ) (h : Fin 768) (k : ℕ) (hR : R < 2048) (hk : k < 30720) :
    tpad m c R h k = xpad m c (ix2 ⟨R, hR⟩ ⟨k, hk⟩) * wpad m c (ix2 ⟨k, hk⟩ h) := by
  unfold tpad; rw [dif_pos ⟨hR, hk⟩]

/-- One point's tile product at (r, h) is its tile's 512 terms of the padded contraction. -/
theorem tile_sum (c : Dev nD) (t : Fin cfg0.N) (r : Fin 256) (h : Fin 768) :
    ∑ q : Fin 512, xblk m c t (ix2 r q) * wblk m c t (ix2 q h)
      = ∑ q ∈ range 512, tpad m c (256 * (t.val / 60) + r.val) h ((t.val % 60) * 512 + q) := by
  have hN : t.val < 480 := lt_of_lt_of_eq t.isLt (show cfg0.N = 480 from N_0)
  rw [← Fin.sum_univ_eq_sum_range (fun q => tpad m c (256 * (t.val / 60) + r.val) h ((t.val % 60) * 512 + q)) 512]
  refine Finset.sum_congr rfl fun q _ => ?_
  have hq := q.isLt
  have hr := r.isLt
  have hR : 256 * (t.val / 60) + r.val < 2048 := by omega
  have hK : (t.val % 60) * 512 + q.val < 30720 := by omega
  rw [xblk_apply m c t r q hR hK, wblk_apply m c t q h hK, tpad_of_lt m c _ h _ hR hK]

/-- THE ACCUMULATOR after the point 60 i + k: the first k + 1 tiles of the padded contraction of row tile i. By
    induction on the point: at k = 0 the accumulator is zeroed before the tile is added, afterwards the tile is
    added to what the point before left, which belongs to the same row tile. -/
theorem acc_inv (c : Dev nD) (r : Fin 256) (h : Fin 768) : ∀ (n : ℕ) (hn : n < cfg0.N),
    ((outsAt0 (F := Ideal) m c n hn).2 : FVec Ideal S256x768 .f32) (ix2 r h)
      = ∑ j ∈ range (n % 60 + 1), ∑ q ∈ range 512, tpad m c (256 * (n / 60) + r.val) h (j * 512 + q) := by
  intro n
  induction n using Nat.strong_induction_on with
  | _ n ih =>
    intro hn
    have hN : n < 480 := lt_of_lt_of_eq hn (show cfg0.N = 480 from N_0)
    by_cases h0 : n % 60 = 0
    · have h1 : ¬n % 60 = 59 := by omega
      rw [outsAt0_A m c ⟨n, hn⟩ h0 h1]
      dsimp only
      refine (congrFun (acc_A (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) scM0_0 (Memref.isWhole_whole _) ((hcond0_0 ⟨n, hn⟩).mpr h0)
        (fun hh => h1 ((hcond0_1 ⟨n, hn⟩).mp hh)) (xblk m c ⟨n, hn⟩) (wblk m c ⟨n, hn⟩)) (ix2 r h)).trans ?_
      refine (step_apply (k0_pay1 (F := Ideal)) (xblk m c ⟨n, hn⟩) (wblk m c ⟨n, hn⟩) r h).trans ?_
      rw [zeroed_apply, zero_add, tile_sum m c ⟨n, hn⟩ r h, h0, Finset.sum_range_one]
    · by_cases h1 : n % 60 = 59
      · rw [outsAt0_C m c ⟨n, hn⟩ h0 h1]
        dsimp only
        refine (congrFun (acc_C (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) scM0_0 (Memref.isWhole_whole _) (fun hh => h0 ((hcond0_0 ⟨n, hn⟩).mp hh))
          ((hcond0_1 ⟨n, hn⟩).mpr h1) (xblk m c ⟨n, hn⟩) (wblk m c ⟨n, hn⟩)
          (outsAt0 (F := Ideal) m c (n - 1) (Nat.lt_of_le_of_lt (Nat.sub_le _ _) hn)).2) (ix2 r h)).trans ?_
        refine (step_apply (outsAt0 (F := Ideal) m c (n - 1) (Nat.lt_of_le_of_lt (Nat.sub_le _ _) hn)).2
          (xblk m c ⟨n, hn⟩) (wblk m c ⟨n, hn⟩) r h).trans ?_
        rw [ih (n - 1) (by omega) (Nat.lt_of_le_of_lt (Nat.sub_le _ _) hn), tile_sum m c ⟨n, hn⟩ r h,
          (by omega : (n - 1) / 60 = n / 60), (by omega : (n - 1) % 60 + 1 = n % 60)]
        exact (Finset.sum_range_succ _ (n % 60)).symm
      · rw [outsAt0_B m c ⟨n, hn⟩ h0 h1]
        dsimp only
        refine (congrFun (acc_B (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) scM0_0 (Memref.isWhole_whole _) (fun hh => h0 ((hcond0_0 ⟨n, hn⟩).mp hh))
          (fun hh => h1 ((hcond0_1 ⟨n, hn⟩).mp hh)) (xblk m c ⟨n, hn⟩) (wblk m c ⟨n, hn⟩)
          (outsAt0 (F := Ideal) m c (n - 1) (Nat.lt_of_le_of_lt (Nat.sub_le _ _) hn)).2) (ix2 r h)).trans ?_
        refine (step_apply (outsAt0 (F := Ideal) m c (n - 1) (Nat.lt_of_le_of_lt (Nat.sub_le _ _) hn)).2
          (xblk m c ⟨n, hn⟩) (wblk m c ⟨n, hn⟩) r h).trans ?_
        rw [ih (n - 1) (by omega) (Nat.lt_of_le_of_lt (Nat.sub_le _ _) hn), tile_sum m c ⟨n, hn⟩ r h,
          (by omega : (n - 1) / 60 = n / 60), (by omega : (n - 1) % 60 + 1 = n % 60)]
        exact (Finset.sum_range_succ _ (n % 60)).symm

end Invariant

/-- THE OUTPUT BLOCK at the last contraction tile of a row tile: the whole padded contraction, tile by tile. -/
theorem out_tile (c : Dev nD) (t : Fin cfg0.N) (ht : t.val % 60 = 59) (r : Fin 256) (h : Fin 768) :
    ((outsAt0 (F := Ideal) m c t.val t.isLt).1 : Vec Ideal S256x768 .f32) (ix2 r h)
      = ∑ j ∈ range 60, ∑ q ∈ range 512, tpad m c (256 * (t.val / 60) + r.val) h (j * 512 + q) := by
  have hN : t.val < 480 := lt_of_lt_of_eq t.isLt (show cfg0.N = 480 from N_0)
  have h0 : ¬t.val % 60 = 0 := by omega
  rw [outsAt0_C m c t h0 ht]
  dsimp only
  refine (congrFun (out_C (F := Ideal) c (grid0.coords t) (ms0_0 t) (hs0_0 t) (ms0_1 t) (hs0_1 t)
    (ms0_2 t) (hs0_2 t) scM0_0 (Memref.isWhole_whole _) (fun hh => h0 ((hcond0_0 t).mp hh))
    ((hcond0_1 t).mpr ht) (xblk m c t) (wblk m c t)
    (outsAt0 (F := Ideal) m c (t.val - 1) (Nat.lt_of_le_of_lt (Nat.sub_le _ _) t.isLt)).2) (ix2 r h)).trans ?_
  refine (step_apply (outsAt0 (F := Ideal) m c (t.val - 1) (Nat.lt_of_le_of_lt (Nat.sub_le _ _) t.isLt)).2
    (xblk m c t) (wblk m c t) r h).trans ?_
  rw [acc_inv m c r h (t.val - 1) (Nat.lt_of_le_of_lt (Nat.sub_le _ _) t.isLt), tile_sum m c t r h,
    (by omega : (t.val - 1) / 60 = t.val / 60), (by omega : (t.val - 1) % 60 + 1 = 59), ht]
  exact (Finset.sum_range_succ _ 59).symm

end Cert.ReferenceIdeal.HandValue

end
-- ==== Proof.RefValue.lean ====
/-
  The value of the reference program at the ideal instance: its result buffer after the run holds the soft-embedding
  product of the two argument arrays.

  The reference reshapes the mask to 2048×30522, pads it and the weight with zeros to 30720 along the contraction
  axis, and runs one pallas_call on a grid of 8 row tiles × 1 × 60 contraction tiles of 512: a scratch accumulator is
  zeroed at the first contraction tile of each row tile, every point adds its tile product to it, and the last
  contraction tile's point stores it to the output block, which the pipeline writes back to rows 256·i … 256·i + 255.
  A host reshape gives the result its 16×128×768 shape. Index by index this is the specification's sum, padded with
  zero terms and regrouped into sixty tiles (Spec.reference_grouping).

  In order: the host operations before the region read at an index (the padded mask at row 128 b + s and column k is
  the mask at (b, s, k) for k < 30522 and zero past it; the padded weight likewise); the output array after the
  write-backs, entry by entry the tiled contraction (each last-tile point writes back the block of rows of its row
  tile, and those blocks cover the array); the host reshape after the region, row-major; and the padded terms
  identified with the specification's.
-/
import proofs.«176018_g2000002446326655_pallasbulk_315_16_alg».proof.Proof.RefAcc
import proofs.«176018_g2000002446326655_pallasbulk_315_16_alg».proof.Proof.Spec
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import Idealize.ShloMosaic.Lib.StableHlo.Run

set_option maxRecDepth 16384

noncomputable section

open scoped BigOperators

namespace Cert.ReferenceIdeal.HandValue

open Cert.ReferenceIdeal Cert.ReferenceIdeal.Gen
open Idealize.ShloMosaic Idealize.ShloMosaic.TcCoe Idealize.ShloMosaic.ValueIdx Finset
open Idealize.SL.Sem

variable (m : (ℓ : Loc nD τ sig) → Buf (Elt Ideal) ℓ) (ρ : Dev nD → PrngReg)

/-! ## The host operations before the region, read at an index -/

/-- The padding value of both host pads: the integer zero converted, the real zero. -/
theorem padValue_eq_zero (i : S_.Idx) :
    (sitofp (F := Ideal) .f32 (constantI S_ 32 0#32) : Vec Ideal S_ .f32) i = 0 := by
  show ((((0#32 : BitVec 32).toInt : ℤ) : ℝ) : EReal) = 0
  simp

/-- The padded mask is the mask re-laid to 2048 rows and padded with the converted integer zero on the right. -/
theorem xpad_eq_pad (c : Dev nD) :
    xpad m c = pad S2048x30720 ![0, 0] ![0, 198] ![0, 0]
      (shapeCast S2048x30522 (m ((c : Thread nD τ).loc main_arg1) : Vec Ideal S16x128x30522 .f32) shapeCasts_S16x128x30522_S2048x30522)
      (sitofp (F := Ideal) .f32 (constantI S_ 32 0#32)) pads_S2048x30522_S2048x30720_000_01980 h_S_ := by
  show V m c main_v1 = _
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The padded weight is the weight padded with the converted integer zero below. -/
theorem wpad_eq_pad (c : Dev nD) :
    wpad m c = pad S30720x768 ![0, 0] ![198, 0] ![0, 0]
      (m ((c : Thread nD τ).loc main_arg0) : Vec Ideal S30522x768 .f32)
      (sitofp (F := Ideal) .f32 (constantI S_ 32 0#32)) pads_S30522x768_S30720x768_01980_000 h_S_ := by
  show V m c main_v2 = _
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

section Layout
variable {α : Type}

/-- The mask re-laid from 16 × 128 × 30522 to 2048 × 30522 reads, at row 128 b + s, the mask at (b, s). -/
theorem relaidMask_apply (x : S16x128x30522.Idx → α) (b : Fin 16) (s : Fin 128) (k : Fin 30522) :
    shapeCast S2048x30522 x shapeCasts_S16x128x30522_S2048x30522 (ix2 (Cert.Spec.row b s) k) = x (ix3 b s k) :=
  shapeCast_apply x _ _ _ (by
    rw [Shape.rowMajor_val_three, Shape.rowMajor_val_two]
    show (b.val * 128 + s.val) * 30522 + k.val = (128 * b.val + s.val) * 30522 + k.val
    rw [Nat.mul_comm b.val 128])

/-- The result re-laid from 2048 × 768 to 16 × 128 × 768 reads, at (b, s), row 128 b + s. -/
theorem relaidResult_apply (x : S2048x768.Idx → α) (b : Fin 16) (s : Fin 128) (h : Fin 768) :
    shapeCast S16x128x768 x shapeCasts_S2048x768_S16x128x768 (ix3 b s h) = x (ix2 (Cert.Spec.row b s) h) :=
  shapeCast_apply x _ _ _ (by
    rw [Shape.rowMajor_val_three, Shape.rowMajor_val_two]
    show (128 * b.val + s.val) * 768 + h.val = (b.val * 128 + s.val) * 768 + h.val
    rw [Nat.mul_comm b.val 128])

/-- Columns padded on the right: inside the operand's 30522 columns the pad is the operand, -/
theorem padCols_apply_of_lt (x : S2048x30522.Idx → α) (v : S_.Idx → α) (R : Fin 2048) (k : Fin 30720) (hk : k.val < 30522) :
    pad S2048x30720 ![0, 0] ![0, 198] ![0, 0] x v pads_S2048x30522_S2048x30720_000_01980 h_S_ (ix2 R k)
      = x (ix2 R ⟨k.val, hk⟩) :=
  pad_apply_of_inside _ _ _ x v _ _ _ _ fun a => match a with
    | ⟨0, _⟩ => by show R.val = 0 + R.val * (0 + 1); omega
    | ⟨1, _⟩ => by show k.val = 0 + k.val * (0 + 1); omega

/-- and past them the padding value. -/
theorem padCols_apply_of_ge (x : S2048x30522.Idx → α) (v : S_.Idx → α) (R : Fin 2048) (k : Fin 30720) (hk : 30522 ≤ k.val) :
    pad S2048x30720 ![0, 0] ![0, 198] ![0, 0] x v pads_S2048x30522_S2048x30720_000_01980 h_S_ (ix2 R k)
      = v (Shape.Idx.first h_S_) :=
  pad_apply_of_not_inside _ _ _ x v _ _ _ (1 : Fin 2) (by
    show ¬(0 ≤ k.val ∧ (k.val - 0) % (0 + 1) = 0 ∧ (k.val - 0) / (0 + 1) < 30522)
    omega)

/-- Rows padded below: inside the operand's 30522 rows the pad is the operand, -/
theorem padRows_apply_of_lt (x : S30522x768.Idx → α) (v : S_.Idx → α) (k : Fin 30720) (h : Fin 768) (hk : k.val < 30522) :
    pad S30720x768 ![0, 0] ![198, 0] ![0, 0] x v pads_S30522x768_S30720x768_01980_000 h_S_ (ix2 k h)
      = x (ix2 ⟨k.val, hk⟩ h) :=
  pad_apply_of_inside _ _ _ x v _ _ _ _ fun a => match a with
    | ⟨0, _⟩ => by show k.val = 0 + k.val * (0 + 1); omega
    | ⟨1, _⟩ => by show h.val = 0 + h.val * (0 + 1); omega

/-- and past them the padding value. -/
theorem padRows_apply_of_ge (x : S30522x768.Idx → α) (v : S_.Idx → α) (k : Fin 30720) (h : Fin 768) (hk : 30522 ≤ k.val) :
    pad S30720x768 ![0, 0] ![198, 0] ![0, 0] x v pads_S30522x768_S30720x768_01980_000 h_S_ (ix2 k h)
      = v (Shape.Idx.first h_S_) :=
  pad_apply_of_not_inside _ _ _ x v _ _ _ (0 : Fin 2) (by
    show ¬(0 ≤ k.val ∧ (k.val - 0) % (0 + 1) = 0 ∧ (k.val - 0) / (0 + 1) < 30522)
    omega)

end Layout

/-! ## From the output blocks to the output array -/

/-- The padded contraction at row `R` and column `h`, tile by tile: sixty tiles of 512 terms. -/
def tiledSum (c : Dev nD) (R : ℕ) (h : Fin 768) : EReal :=
  ∑ j ∈ range 60, ∑ q ∈ range 512, tpad m c R h (j * 512 + q)

/-- The same at every entry of the 2048 × 768 output array. -/
def tiledArr (c : Dev nD) : S2048x768.Idx → EReal := fun i => tiledSum m c (i 0).val (i 1)

theorem tiledArr_apply (c : Dev nD) (R : Fin 2048) (h : Fin 768) : tiledArr m c (ix2 R h) = tiledSum m c R.val h := rfl

/-- The output window's block index at point `t` is (t / 60, 0): the row tile, and the one column block —
    decided over the grid. -/
theorem outWindow_index : ∀ t : Fin cfg0.N, win0_2.index t (0 : Fin 2) = t.val / 60 ∧ win0_2.index t (1 : Fin 2) = 0 :=
  (by decide +kernel : ∀ t : Fin grid0.N, _)

/-- WHAT A LAST CONTRACTION TILE'S POINT WRITES BACK is its block of the tiled contraction: rows
    256 (t / 60) … 256 (t / 60) + 255, all 768 columns. -/
theorem outBlock_flushed (c : Dev nD) (t : Fin cfg0.N) (hf : (cfg0.win 2).flush t = true) :
    (dats m 0 c).flushed 2 t = ((cfg0.win 2).blk t).view.read (Elt Ideal) (tiledArr m c) := by
  have ht : t.val % 60 = 59 := (flush0_2 t).mp hf
  have hN : t.val < 480 := lt_of_lt_of_eq t.isLt (show cfg0.N = 480 from N_0)
  obtain ⟨e0, e1⟩ := outWindow_index t
  show (cfg0.win 2).cut (grid0.coords t) ((dats m 0 c).after 2 t) = _
  rw [after0_2]
  funext y
  have hy0 : (y 0).val < 256 := (y 0).isLt
  have hy1 : (y 1).val < 768 := (y 1).isLt
  -- the staged block at the block index (y 0, y 1)
  have hl : (cfg0.win 2).cut (grid0.coords t) (outsAt0 m c t.val t.isLt).1 y
      = ((outsAt0 (F := Ideal) m c t.val t.isLt).1 : Vec Ideal S256x768 .f32) (ix2 ⟨(y 0).val, hy0⟩ ⟨(y 1).val, hy1⟩) :=
    congrArg (outsAt0 (F := Ideal) m c t.val t.isLt).1 (funext fun a => match a with | ⟨0, _⟩ => rfl | ⟨1, _⟩ => rfl)
  -- the array at the index under it: block index × block size + the coordinate inside the block
  have hr : View.read (Elt Ideal) ((cfg0.win 2).blk t).view (tiledArr m c) y
      = tiledArr m c (ix2 ⟨256 * (t.val / 60) + (y 0).val, by omega⟩ ⟨(y 1).val, hy1⟩) :=
    congrArg (tiledArr m c) (funext fun a => Fin.ext (match a with
      | ⟨0, _⟩ => by show win0_2.index t (0 : Fin 2) * 256 + 1 * (y 0).val = 256 * (t.val / 60) + (y 0).val; omega
      | ⟨1, _⟩ => by show win0_2.index t (1 : Fin 2) * 768 + 1 * (y 1).val = (y 1).val; omega))
  rw [hl, hr, out_tile m c t ht, tiledArr_apply]
  rfl

/-- An entry of the output array is in point `t`'s block iff each coordinate is in the block's range on its axis. -/
theorem mem_outBlock (t : Fin cfg0.N) (i : S2048x768.Idx) :
    i ∈ ((cfg0.win 2).blk t).view.set ↔ ∀ a : Fin 2, win0_2.index t a * S256x768.size a ≤ (i a).val
      ∧ (i a).val < win0_2.index t a * S256x768.size a + S256x768.size a := by
  show i ∈ ((View.whole main_v3).slice (win0_2.rect t)).set ↔ _
  rw [View.set_slice_whole, Rect.mem_set_unit]
  exact Iff.rfl

/-- Every entry of the output array is in the block of a point that writes back: row `R` is in row tile `R / 256`,
    whose last contraction tile is point 60 (R / 256) + 59. -/
theorem outArray_covered (i : S2048x768.Idx) :
    ∃ t : Fin cfg0.N, (cfg0.win 2).flush t = true ∧ i ∈ ((cfg0.win 2).blk t).view.set := by
  have hi0 : (i 0).val < 2048 := (i 0).isLt
  have hi1 : (i 1).val < 768 := (i 1).isLt
  have hN : cfg0.N = 480 := N_0
  have hlt : 60 * ((i 0).val / 256) + 59 < cfg0.N := by rw [hN]; omega
  obtain ⟨e0, e1⟩ := outWindow_index ⟨60 * ((i 0).val / 256) + 59, hlt⟩
  refine ⟨⟨60 * ((i 0).val / 256) + 59, hlt⟩, (flush0_2 _).mpr (by show (60 * ((i 0).val / 256) + 59) % 60 = 59; omega), ?_⟩
  rw [mem_outBlock]
  intro a
  match a with
  | ⟨0, _⟩ =>
    show win0_2.index ⟨60 * ((i 0).val / 256) + 59, hlt⟩ (0 : Fin 2) * 256 ≤ (i 0).val
      ∧ (i 0).val < win0_2.index ⟨60 * ((i 0).val / 256) + 59, hlt⟩ (0 : Fin 2) * 256 + 256
    rw [e0]
    show (60 * ((i 0).val / 256) + 59) / 60 * 256 ≤ (i 0).val ∧ (i 0).val < (60 * ((i 0).val / 256) + 59) / 60 * 256 + 256
    omega
  | ⟨1, _⟩ =>
    show win0_2.index ⟨60 * ((i 0).val / 256) + 59, hlt⟩ (1 : Fin 2) * 768 ≤ (i 1).val
      ∧ (i 1).val < win0_2.index ⟨60 * ((i 0).val / 256) + 59, hlt⟩ (1 : Fin 2) * 768 + 768
    rw [e1]
    omega

/-- THE OUTPUT ARRAY after all write-backs is the tiled contraction at every entry. -/
theorem outArray_eq (c : Dev nD) : (dats m 0 c).arrAt 2 cfg0.N = tiledArr m c :=
  (dats m 0 c).arrAt_eq_of_cover 2 (tiledArr m c) (outBlock_flushed m c) outArray_covered

/-! ## The host reshape after the region -/

/-- The result buffer after the run is the output array re-laid to 16 × 128 × 768. -/
theorem result_relaid (c : Dev nD) :
    (Pipeline.afterTail₀ cfgs (dats (F := Ideal) m) 0 (V0 m) [hostOps1] c main_v4 : Vec Ideal S16x128x768 .f32)
      = shapeCast S16x128x768 (tiledArr m c) shapeCasts_S2048x768_S16x128x768 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = tiledArr m c :=
    (Pipeline.withArrays_arr spec0 launch0.win.arr_inj c _ _ 2).trans (outArray_eq m c)
  rw [e]
  rfl

/-! ## The padded terms are the specification's -/

/-- The padded mask at row 128 b + s and a column inside the contraction axis is the mask at (b, s). -/
theorem xpad_apply_of_lt (c : Dev nD) (b : Fin 16) (s : Fin 128) (k : Fin 30720) (hk : k.val < 30522) :
    xpad m c (ix2 (Cert.Spec.row b s) k)
      = (m ((c : Thread nD τ).loc main_arg1) : Vec Ideal S16x128x30522 .f32) (ix3 b s ⟨k.val, hk⟩) :=
  (congrFun (xpad_eq_pad m c) _).trans ((padCols_apply_of_lt _ _ _ k hk).trans (relaidMask_apply _ b s ⟨k.val, hk⟩))

/-- Past the contraction axis the padded mask is zero. -/
theorem xpad_apply_of_ge (c : Dev nD) (R : Fin 2048) (k : Fin 30720) (hk : 30522 ≤ k.val) :
    xpad m c (ix2 R k) = 0 :=
  (congrFun (xpad_eq_pad m c) _).trans ((padCols_apply_of_ge _ _ R k hk).trans (padValue_eq_zero _))

/-- The padded weight at a row inside the contraction axis is the weight. -/
theorem wpad_apply_of_lt (c : Dev nD) (k : Fin 30720) (h : Fin 768) (hk : k.val < 30522) :
    wpad m c (ix2 k h) = (m ((c : Thread nD τ).loc main_arg0) : Vec Ideal S30522x768 .f32) (ix2 ⟨k.val, hk⟩ h) :=
  (congrFun (wpad_eq_pad m c) _).trans (padRows_apply_of_lt _ _ k h hk)

/-- Past the contraction axis the padded weight is zero. -/
theorem wpad_apply_of_ge (c : Dev nD) (k : Fin 30720) (h : Fin 768) (hk : 30522 ≤ k.val) :
    wpad m c (ix2 k h) = 0 :=
  (congrFun (wpad_eq_pad m c) _).trans ((padRows_apply_of_ge _ _ k h hk).trans (padValue_eq_zero _))

/-- THE PADDED TERM at row 128 b + s is the specification's term: the product of the mask and weight entries inside
    the contraction axis, the product of two zeros in the padding, nothing past it. -/
theorem tpad_eq_term (c : Dev nD) (b : Fin 16) (s : Fin 128) (h : Fin 768) (k : ℕ) :
    tpad m c (Cert.Spec.row b s).val h k
      = Cert.Spec.term (m ((c : Thread nD τ).loc main_arg0)) (m ((c : Thread nD τ).loc main_arg1)) b s h k := by
  have hR : (Cert.Spec.row b s).val < 2048 := (Cert.Spec.row b s).isLt
  unfold tpad
  by_cases hk : k < 30522
  · have hk' : k < 30720 := by omega
    rw [Cert.Spec.term_of_lt _ _ _ _ _ _ hk, dif_pos ⟨hR, hk'⟩]
    show xpad m c (ix2 (Cert.Spec.row b s) ⟨k, hk'⟩) * wpad m c (ix2 ⟨k, hk'⟩ h) = _
    rw [xpad_apply_of_lt m c b s ⟨k, hk'⟩ hk, wpad_apply_of_lt m c ⟨k, hk'⟩ h hk]
  · rw [Cert.Spec.term_of_ge _ _ _ _ _ _ (by omega)]
    by_cases hk' : k < 30720
    · rw [dif_pos ⟨hR, hk'⟩]
      show xpad m c (ix2 (Cert.Spec.row b s) ⟨k, hk'⟩) * wpad m c (ix2 ⟨k, hk'⟩ h) = 0
      rw [xpad_apply_of_ge m c _ ⟨k, hk'⟩ (by show 30522 ≤ k; omega), zero_mul]
    · rw [dif_neg fun hh => hk' hh.2]

/-- THE REFERENCE'S VALUE: at every coordinate the result buffer after the run (the generated frame run's name for it:
    the host reshape after the region applied to the region's output array after its write-backs) is the
    specification's sum of the launch arrays. -/
theorem reference_value (c : Dev nD) (b : Fin 16) (s : Fin 128) (h : Fin 768) :
    (Pipeline.afterTail₀ cfgs (dats (F := Ideal) m) 0 (V0 m) [hostOps1] c main_v4 : Vec Ideal S16x128x768 .f32) (ix3 b s h)
      = Cert.Spec.G (m ((c : Thread nD τ).loc main_arg0)) (m ((c : Thread nD τ).loc main_arg1)) b s h := by
  refine (congrFun (result_relaid m c) _).trans ?_
  rw [relaidResult_apply, tiledArr_apply]
  unfold tiledSum
  rw [show tpad m c (Cert.Spec.row b s).val h
      = Cert.Spec.term (m ((c : Thread nD τ).loc main_arg0)) (m ((c : Thread nD τ).loc main_arg1)) b s h
    from funext (tpad_eq_term m c b s h)]
  exact Cert.Spec.reference_grouping _ fun k hk => Cert.Spec.term_of_ge _ _ b s h k hk

end Cert.ReferenceIdeal.HandValue

end
-- ==== Proof.lean ====
/-
  The certificate: the kernel computes the soft-embedding product mask[16, 128, 30522] · weight[30522, 768] as the sum of
  two pallas_calls that walk the contraction axis in tiles of 2048 (six tiles taken from the arguments, nine from staged
  copies of the rest, the ragged last tile zeroed past the axis's end inside the body), and the reference computes it
  with one tiled pallas_call over the axis padded with zeros to 30720. Over the extended reals both are the same sum
  of 30522 products, differently cut and grouped; sums of extended reals may be regrouped freely, so the two results
  agree at every coordinate whatever the inputs hold.

  The kernel program's frames (at the word level and at the ideal instance) come from its run, proved once for any
  float family: the two regions' body obligations, the buffer contents named at each boundary of @main, and the launch of
  the whole program. The reference's frame is its generated one. The value claim joins the kernel's result (the host
  sum of the two regions' accumulated tile products) and the reference's (its output blocks, re-laid by the host) to
  one specification, `Cert.Spec.G`.
-/
import proofs.«176018_g2000002446326655_pallasbulk_315_16_alg».proof.Defs
import proofs.«176018_g2000002446326655_pallasbulk_315_16_alg».proof.Proof.Gen.Kernel
import proofs.«176018_g2000002446326655_pallasbulk_315_16_alg».proof.Proof.Gen.KernelIdeal
import proofs.«176018_g2000002446326655_pallasbulk_315_16_alg».proof.Proof.Gen.ReferenceIdeal
import proofs.«176018_g2000002446326655_pallasbulk_315_16_alg».proof.Proof.Gen.ReferenceIdeal.Frame
import proofs.«176018_g2000002446326655_pallasbulk_315_16_alg».proof.Proof.Gen.Pre_finite_inputs
import proofs.«176018_g2000002446326655_pallasbulk_315_16_alg».proof.Proof.KbRun
import proofs.«176018_g2000002446326655_pallasbulk_315_16_alg».proof.Proof.KiRun
import proofs.«176018_g2000002446326655_pallasbulk_315_16_alg».proof.Proof.KiValue
import proofs.«176018_g2000002446326655_pallasbulk_315_16_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel program runs and leaves its arguments as launched: its run, read at the arguments. -/
theorem frame_kernel : Cert.frame_Kernel := fun m ρ _ =>
  (θ_run Cert.Kernel.defs _ _).mono (fun _ h c => ⟨(h c).2.1, (h c).2.2⟩) (Cert.Kernel.Hand.run (F := Bits) m ρ)

/-- The same at the ideal instance. -/
theorem frame_kernelIdeal : Cert.frame_KernelIdeal := fun m ρ _ =>
  (θ_run Cert.KernelIdeal.defs _ _).mono (fun _ h c => ⟨(h c).2.1, (h c).2.2⟩) (Cert.KernelIdeal.Hand.run (F := Ideal) m ρ)

/-- The reference's frame. -/
theorem frame_reference : Cert.frame_ReferenceIdeal := fun m ρ _ => Cert.ReferenceIdeal.Gen.frame m ρ

/-- Both results are the specification's sum of the same arrays, coordinate by coordinate. -/
theorem algebraic : Cert.algebraic_KernelIdeal_ReferenceIdeal := by
  intro m ρ m' ρ' _ hagree
  refine ⟨fun c => Cert.KernelIdeal.Hand.W4 (F := Ideal) m ρ c (Proc.devRef .tc Cert.KernelIdeal.main_v5),
    Cert.KernelIdeal.Hand.run (F := Ideal) m ρ, ?_⟩
  refine (θ_run Cert.ReferenceIdeal.defs _ _).mono (fun r h c => ⟨?_, ?_, ?_⟩) (Cert.ReferenceIdeal.Gen.run_main (F := Ideal) m' ρ')
  · refine ((h c).2 Cert.ReferenceIdeal.main_v4 (Pipeline.mem_restRefs_of Cert.ReferenceIdeal.main_v4 (by decide) (by decide))).trans ?_
    funext i
    obtain ⟨b, s, k, rfl⟩ : ∃ (b : Fin 16) (s : Fin 128) (k : Fin 768), i = ix3 b s k := ⟨i 0, i 1, i 2, eq_ix3 i⟩
    refine (Cert.ReferenceIdeal.HandValue.reference_value m' c b s k).trans ?_
    rw [(hagree c).1, (hagree c).2]
    exact (Cert.KernelIdeal.HandValue.kernel_value m ρ c b s k).symm
  · exact ((h c).2 Cert.ReferenceIdeal.main_arg0 (Pipeline.mem_restRefs_of Cert.ReferenceIdeal.main_arg0 (by decide) (by decide))).trans
      (Cert.ReferenceIdeal.Gen.W_main_arg0 m' (Cert.ReferenceIdeal.Gen.dats m') c)
  · exact ((h c).2 Cert.ReferenceIdeal.main_arg1 (Pipeline.mem_restRefs_of Cert.ReferenceIdeal.main_arg1 (by decide) (by decide))).trans
      (Cert.ReferenceIdeal.Gen.W_main_arg1 m' (Cert.ReferenceIdeal.Gen.dats m') c)

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
